-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S_ : Shape := ⟨0, ![]⟩

class Facts : Prop where
  bcast_S_S8x384x1x4096 : S_.BroadcastsInDim S8x384x1x4096 (![] : Fin 0 → Fin S8x384x1x4096.rank)
  reducesTo_S8x384x1x4096_S_d0_1_2_3 : S8x384x1x4096.ReducesTo [0, 1, 2, 3] S_
  h_S_ : 0 < S_.numel
  bcast_S_S170x32 : S_.BroadcastsInDim S170x32 (![] : Fin 0 → Fin S170x32.rank)
  reducesTo_S170x32_S_d0_1 : S170x32.ReducesTo [0, 1] S_
  bcast_S_S170 : S_.BroadcastsInDim S170 (![] : Fin 0 → Fin S170.rank)
  reducesTo_S170_S_d0 : S170.ReducesTo [0] S_
  bcast_S_S172x32 : S_.BroadcastsInDim S172x32 (![] : Fin 0 → Fin S172x32.rank)
  reducesTo_S172x32_S_d0_1 : S172x32.ReducesTo [0, 1] S_
  bcast_S_S172 : S_.BroadcastsInDim S172 (![] : Fin 0 → Fin S172.rank)
  reducesTo_S172_S_d0 : S172.ReducesTo [0] S_

variable [Facts]

def fn_part7 {F : FTy → Type} [FloatOps F] (main_v118 : IVec S_ 1) (main_v119 : FVec F S172 .f32) : IVec S_ 1 :=
  let main_cst_46 : FVec F S_ .f32 := constant S_ .f32 0x7F800000#32
  let main_v120 : FVec F S172 .f32 := broadcastInDim S172 ![] bcast_S_S172 main_cst_46
  let main_v121 : IVec S172 1 := cmpf .olt main_v119 main_v120
  let main_c_47 : IVec S_ 1 := constantI S_ 1 1#1
  let main_v122 : IVec S_ 1 := (fun x v => Host.reduce IntOp.andi x v reducesTo_S172_S_d0 h_S_) main_v121 main_c_47
  let main_v123 : IVec S_ 1 := andi main_v118 main_v122
  main_v123

def fn_part6 {F : FTy → Type} [FloatOps F] (main_arg21 : FVec F S170x32 .f32) (main_arg22 : FVec F S170 .f32) (main_arg23 : FVec F S172x32 .f32) (main_arg24 : FVec F S172 .f32) (main_v98 : IVec S_ 1) (main_v101 : IVec S172 1) (main_c_39 : IVec S_ 1) : IVec S_ 1 :=
  let main_v102 : IVec S_ 1 := (fun x v => Host.reduce IntOp.andi x v reducesTo_S172_S_d0 h_S_) main_v101 main_c_39
  let main_v103 : IVec S_ 1 := andi main_v98 main_v102
  let main_v104 : FVec F S170x32 .f32 := Host.absf main_arg21
  let main_cst_40 : FVec F S_ .f32 := constant S_ .f32 0x7F800000#32
  let main_v105 : FVec F S170x32 .f32 := broadcastInDim S170x32 ![] bcast_S_S170x32 main_cst_40
  let main_v106 : IVec S170x32 1 := cmpf .olt main_v104 main_v105
  let main_c_41 : IVec S_ 1 := constantI S_ 1 1#1
  let main_v107 : IVec S_ 1 := (fun x v => Host.reduce IntOp.andi x v reducesTo_S170x32_S_d0_1 h_S_) main_v106 main_c_41
  let main_v108 : IVec S_ 1 := andi main_v103 main_v107
  let main_v109 : FVec F S170 .f32 := Host.absf main_arg22
  let main_cst_42 : FVec F S_ .f32 := constant S_ .f32 0x7F800000#32
  let main_v110 : FVec F S170 .f32 := broadcastInDim S170 ![] bcast_S_S170 main_cst_42
  let main_v111 : IVec S170 1 := cmpf .olt main_v109 main_v110
  let main_c_43 : IVec S_ 1 := constantI S_ 1 1#1
  let main_v112 : IVec S_ 1 := (fun x v => Host.reduce IntOp.andi x v reducesTo_S170_S_d0 h_S_) main_v111 main_c_43
  let main_v113 : IVec S_ 1 := andi main_v108 main_v112
  let main_v114 : FVec F S172x32 .f32 := Host.absf main_arg23
  let main_cst_44 : FVec F S_ .f32 := constant S_ .f32 0x7F800000#32
  let main_v115 : FVec F S172x32 .f32 := broadcastInDim S172x32 ![] bcast_S_S172x32 main_cst_44
  let main_v116 : IVec S172x32 1 := cmpf .olt main_v114 main_v115
  let main_c_45 : IVec S_ 1 := constantI S_ 1 1#1
  let main_v117 : IVec S_ 1 := (fun x v => Host.reduce IntOp.andi x v reducesTo_S172x32_S_d0_1 h_S_) main_v116 main_c_45
  let main_v118 : IVec S_ 1 := andi main_v113 main_v117
  let main_v119 : FVec F S172 .f32 := Host.absf main_arg24
  fn_part7 (F := F) main_v118 main_v119

def fn_part5 {F : FTy → Type} [FloatOps F] (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v83 : IVec S_ 1) (main_v84 : FVec F S170x32 .f32) (main_cst_32 : FVec F S_ .f32) : IVec S_ 1 :=
  let main_v85 : FVec F S170x32 .f32 := broadcastInDim S170x32 ![] bcast_S_S170x32 main_cst_32
  let main_v86 : IVec S170x32 1 := cmpf .olt main_v84 main_v85
  let main_c_33 : IVec S_ 1 := constantI S_ 1 1#1
  let main_v87 : IVec S_ 1 := (fun x v => Host.reduce IntOp.andi x v reducesTo_S170x32_S_d0_1 h_S_) main_v86 main_c_33
  let main_v88 : IVec S_ 1 := andi main_v83 main_v87
  let main_v89 : FVec F S170 .f32 := Host.absf main_arg18
  let main_cst_34 : FVec F S_ .f32 := constant S_ .f32 0x7F800000#32
  let main_v90 : FVec F S170 .f32 := broadcastInDim S170 ![] bcast_S_S170 main_cst_34
  let main_v91 : IVec S170 1 := cmpf .olt main_v89 main_v90
  let main_c_35 : IVec S_ 1 := constantI S_ 1 1#1
  let main_v92 : IVec S_ 1 := (fun x v => Host.reduce IntOp.andi x v reducesTo_S170_S_d0 h_S_) main_v91 main_c_35
  let main_v93 : IVec S_ 1 := andi main_v88 main_v92
  let main_v94 : FVec F S172x32 .f32 := Host.absf main_arg19
  let main_cst_36 : FVec F S_ .f32 := constant S_ .f32 0x7F800000#32
  let main_v95 : FVec F S172x32 .f32 := broadcastInDim S172x32 ![] bcast_S_S172x32 main_cst_36
  let main_v96 : IVec S172x32 1 := cmpf .olt main_v94 main_v95
  let main_c_37 : IVec S_ 1 := constantI S_ 1 1#1
  let main_v97 : IVec S_ 1 := (fun x v => Host.reduce IntOp.andi x v reducesTo_S172x32_S_d0_1 h_S_) main_v96 main_c_37
  let main_v98 : IVec S_ 1 := andi main_v93 main_v97
  let main_v99 : FVec F S172 .f32 := Host.absf main_arg20
  let main_cst_38 : FVec F S_ .f32 := constant S_ .f32 0x7F800000#32
  let main_v100 : FVec F S172 .f32 := broadcastInDim S172 ![] bcast_S_S172 main_cst_38
  let main_v101 : IVec S172 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v63 : IVec S_ 1) (main_v67 : IVec S_ 1) : IVec S_ 1 :=
  let main_v68 : IVec S_ 1 := andi main_v63 main_v67
  let main_v69 : FVec F S170 .f32 := Host.absf main_arg14
  let main_cst_26 : FVec F S_ .f32 := constant S_ .f32 0x7F800000#32
  let main_v70 : FVec F S170 .f32 := broadcastInDim S170 ![] bcast_S_S170 main_cst_26
  let main_v71 : IVec S170 1 := cmpf .olt main_v69 main_v70
  let main_c_27 : IVec S_ 1 := constantI S_ 1 1#1
  let main_v72 : IVec S_ 1 := (fun x v => Host.reduce IntOp.andi x v reducesTo_S170_S_d0 h_S_) main_v71 main_c_27
  let main_v73 : IVec S_ 1 := andi main_v68 main_v72
  let main_v74 : FVec F S172x32 .f32 := Host.absf main_arg15
  let main_cst_28 : FVec F S_ .f32 := constant S_ .f32 0x7F800000#32
  let main_v75 : FVec F S172x32 .f32 := broadcastInDim S172x32 ![] bcast_S_S172x32 main_cst_28
  let main_v76 : IVec S172x32 1 := cmpf .olt main_v74 main_v75
  let main_c_29 : IVec S_ 1 := constantI S_ 1 1#1
  let main_v77 : IVec S_ 1 := (fun x v => Host.reduce IntOp.andi x v reducesTo_S172x32_S_d0_1 h_S_) main_v76 main_c_29
  let main_v78 : IVec S_ 1 := andi main_v73 main_v77
  let main_v79 : FVec F S172 .f32 := Host.absf main_arg16
  let main_cst_30 : FVec F S_ .f32 := constant S_ .f32 0x7F800000#32
  let main_v80 : FVec F S172 .f32 := broadcastInDim S172 ![] bcast_S_S172 main_cst_30
  let main_v81 : IVec S172 1 := cmpf .olt main_v79 main_v80
  let main_c_31 : IVec S_ 1 := constantI S_ 1 1#1
  let main_v82 : IVec S_ 1 := (fun x v => Host.reduce IntOp.andi x v reducesTo_S172_S_d0 h_S_) main_v81 main_c_31
  let main_v83 : IVec S_ 1 := andi main_v78 main_v82
  let main_v84 : FVec F S170x32 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v48 : IVec S_ 1) (main_v49 : FVec F S172 .f32) (main_v50 : FVec F S172 .f32) : IVec S_ 1 :=
  let main_v51 : IVec S172 1 := cmpf .olt main_v49 main_v50
  let main_c_19 : IVec S_ 1 := constantI S_ 1 1#1
  let main_v52 : IVec S_ 1 := (fun x v => Host.reduce IntOp.andi x v reducesTo_S172_S_d0 h_S_) main_v51 main_c_19
  let main_v53 : IVec S_ 1 := andi main_v48 main_v52
  let main_v54 : FVec F S170x32 .f32 := Host.absf main_arg11
  let main_cst_20 : FVec F S_ .f32 := constant S_ .f32 0x7F800000#32
  let main_v55 : FVec F S170x32 .f32 := broadcastInDim S170x32 ![] bcast_S_S170x32 main_cst_20
  let main_v56 : IVec S170x32 1 := cmpf .olt main_v54 main_v55
  let main_c_21 : IVec S_ 1 := constantI S_ 1 1#1
  let main_v57 : IVec S_ 1 := (fun x v => Host.reduce IntOp.andi x v reducesTo_S170x32_S_d0_1 h_S_) main_v56 main_c_21
  let main_v58 : IVec S_ 1 := andi main_v53 main_v57
  let main_v59 : FVec F S170 .f32 := Host.absf main_arg12
  let main_cst_22 : FVec F S_ .f32 := constant S_ .f32 0x7F800000#32
  let main_v60 : FVec F S170 .f32 := broadcastInDim S170 ![] bcast_S_S170 main_cst_22
  let main_v61 : IVec S170 1 := cmpf .olt main_v59 main_v60
  let main_c_23 : IVec S_ 1 := constantI S_ 1 1#1
  let main_v62 : IVec S_ 1 := (fun x v => Host.reduce IntOp.andi x v reducesTo_S170_S_d0 h_S_) main_v61 main_c_23
  let main_v63 : IVec S_ 1 := andi main_v58 main_v62
  let main_v64 : FVec F S170x32 .f32 := Host.absf main_arg13
  let main_cst_24 : FVec F S_ .f32 := constant S_ .f32 0x7F800000#32
  let main_v65 : FVec F S170x32 .f32 := broadcastInDim S170x32 ![] bcast_S_S170x32 main_cst_24
  let main_v66 : IVec S170x32 1 := cmpf .olt main_v64 main_v65
  let main_c_25 : IVec S_ 1 := constantI S_ 1 1#1
  let main_v67 : IVec S_ 1 := (fun x v => Host.reduce IntOp.andi x v reducesTo_S170x32_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v33 : IVec S_ 1) : IVec S_ 1 :=
  let main_v34 : FVec F S170x32 .f32 := Host.absf main_arg7
  let main_cst_12 : FVec F S_ .f32 := constant S_ .f32 0x7F800000#32
  let main_v35 : FVec F S170x32 .f32 := broadcastInDim S170x32 ![] bcast_S_S170x32 main_cst_12
  let main_v36 : IVec S170x32 1 := cmpf .olt main_v34 main_v35
  let main_c_13 : IVec S_ 1 := constantI S_ 1 1#1
  let main_v37 : IVec S_ 1 := (fun x v => Host.reduce IntOp.andi x v reducesTo_S170x32_S_d0_1 h_S_) main_v36 main_c_13
  let main_v38 : IVec S_ 1 := andi main_v33 main_v37
  let main_v39 : FVec F S170 .f32 := Host.absf main_arg8
  let main_cst_14 : FVec F S_ .f32 := constant S_ .f32 0x7F800000#32
  let main_v40 : FVec F S170 .f32 := broadcastInDim S170 ![] bcast_S_S170 main_cst_14
  let main_v41 : IVec S170 1 := cmpf .olt main_v39 main_v40
  let main_c_15 : IVec S_ 1 := constantI S_ 1 1#1
  let main_v42 : IVec S_ 1 := (fun x v => Host.reduce IntOp.andi x v reducesTo_S170_S_d0 h_S_) main_v41 main_c_15
  let main_v43 : IVec S_ 1 := andi main_v38 main_v42
  let main_v44 : FVec F S172x32 .f32 := Host.absf main_arg9
  let main_cst_16 : FVec F S_ .f32 := constant S_ .f32 0x7F800000#32
  let main_v45 : FVec F S172x32 .f32 := broadcastInDim S172x32 ![] bcast_S_S172x32 main_cst_16
  let main_v46 : IVec S172x32 1 := cmpf .olt main_v44 main_v45
  let main_c_17 : IVec S_ 1 := constantI S_ 1 1#1
  let main_v47 : IVec S_ 1 := (fun x v => Host.reduce IntOp.andi x v reducesTo_S172x32_S_d0_1 h_S_) main_v46 main_c_17
  let main_v48 : IVec S_ 1 := andi main_v43 main_v47
  let main_v49 : FVec F S172 .f32 := Host.absf main_arg10
  let main_cst_18 : FVec F S_ .f32 := constant S_ .f32 0x7F800000#32
  let main_v50 : FVec F S172 .f32 := broadcastInDim S172 ![] bcast_S_S172 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S170 .f32) (main_arg5 : FVec F S172x32 .f32) (main_arg6 : FVec F S172 .f32) (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v13 : IVec S_ 1) (main_v16 : IVec S170x32 1) : IVec S_ 1 :=
  let main_c_5 : IVec S_ 1 := constantI S_ 1 1#1
  let main_v17 : IVec S_ 1 := (fun x v => Host.reduce IntOp.andi x v reducesTo_S170x32_S_d0_1 h_S_) main_v16 main_c_5
  let main_v18 : IVec S_ 1 := andi main_v13 main_v17
  let main_v19 : FVec F S170 .f32 := Host.absf main_arg4
  let main_cst_6 : FVec F S_ .f32 := constant S_ .f32 0x7F800000#32
  let main_v20 : FVec F S170 .f32 := broadcastInDim S170 ![] bcast_S_S170 main_cst_6
  let main_v21 : IVec S170 1 := cmpf .olt main_v19 main_v20
  let main_c_7 : IVec S_ 1 := constantI S_ 1 1#1
  let main_v22 : IVec S_ 1 := (fun x v => Host.reduce IntOp.andi x v reducesTo_S170_S_d0 h_S_) main_v21 main_c_7
  let main_v23 : IVec S_ 1 := andi main_v18 main_v22
  let main_v24 : FVec F S172x32 .f32 := Host.absf main_arg5
  let main_cst_8 : FVec F S_ .f32 := constant S_ .f32 0x7F800000#32
  let main_v25 : FVec F S172x32 .f32 := broadcastInDim S172x32 ![] bcast_S_S172x32 main_cst_8
  let main_v26 : IVec S172x32 1 := cmpf .olt main_v24 main_v25
  let main_c_9 : IVec S_ 1 := constantI S_ 1 1#1
  let main_v27 : IVec S_ 1 := (fun x v => Host.reduce IntOp.andi x v reducesTo_S172x32_S_d0_1 h_S_) main_v26 main_c_9
  let main_v28 : IVec S_ 1 := andi main_v23 main_v27
  let main_v29 : FVec F S172 .f32 := Host.absf main_arg6
  let main_cst_10 : FVec F S_ .f32 := constant S_ .f32 0x7F800000#32
  let main_v30 : FVec F S172 .f32 := broadcastInDim S172 ![] bcast_S_S172 main_cst_10
  let main_v31 : IVec S172 1 := cmpf .olt main_v29 main_v30
  let main_c_11 : IVec S_ 1 := constantI S_ 1 1#1
  let main_v32 : IVec S_ 1 := (fun x v => Host.reduce IntOp.andi x v reducesTo_S172_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8x384x1x4096 .f32) (main_arg1 : FVec F S170x32 .f32) (main_arg2 : FVec F S170 .f32) (main_arg3 : FVec F S170x32 .f32) (main_arg4 : FVec F S170 .f32) (main_arg5 : FVec F S172x32 .f32) (main_arg6 : FVec F S172 .f32) (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) : IVec S_ 1 :=
  let main_v0 : FVec F S8x384x1x4096 .f32 := Host.absf main_arg0
  let main_cst : FVec F S_ .f32 := constant S_ .f32 0x7F800000#32
  let main_v1 : FVec F S8x384x1x4096 .f32 := broadcastInDim S8x384x1x4096 ![] bcast_S_S8x384x1x4096 main_cst
  let main_v2 : IVec S8x384x1x4096 1 := cmpf .olt main_v0 main_v1
  let main_c : IVec S_ 1 := constantI S_ 1 1#1
  let main_v3 : IVec S_ 1 := (fun x v => Host.reduce IntOp.andi x v reducesTo_S8x384x1x4096_S_d0_1_2_3 h_S_) main_v2 main_c
  let main_v4 : FVec F S170x32 .f32 := Host.absf main_arg1
  let main_cst_0 : FVec F S_ .f32 := constant S_ .f32 0x7F800000#32
  let main_v5 : FVec F S170x32 .f32 := broadcastInDim S170x32 ![] bcast_S_S170x32 main_cst_0
  let main_v6 : IVec S170x32 1 := cmpf .olt main_v4 main_v5
  let main_c_1 : IVec S_ 1 := constantI S_ 1 1#1
  let main_v7 : IVec S_ 1 := (fun x v => Host.reduce IntOp.andi x v reducesTo_S170x32_S_d0_1 h_S_) main_v6 main_c_1
  let main_v8 : IVec S_ 1 := andi main_v3 main_v7
  let main_v9 : FVec F S170 .f32 := Host.absf main_arg2
  let main_cst_2 : FVec F S_ .f32 := constant S_ .f32 0x7F800000#32
  let main_v10 : FVec F S170 .f32 := broadcastInDim S170 ![] bcast_S_S170 main_cst_2
  let main_v11 : IVec S170 1 := cmpf .olt main_v9 main_v10
  let main_c_3 : IVec S_ 1 := constantI S_ 1 1#1
  let main_v12 : IVec S_ 1 := (fun x v => Host.reduce IntOp.andi x v reducesTo_S170_S_d0 h_S_) main_v11 main_c_3
  let main_v13 : IVec S_ 1 := andi main_v8 main_v12
  let main_v14 : FVec F S170x32 .f32 := Host.absf main_arg3
  let main_cst_4 : FVec F S_ .f32 := constant S_ .f32 0x7F800000#32
  let main_v15 : FVec F S170x32 .f32 := broadcastInDim S170x32 ![] bcast_S_S170x32 main_cst_4
  let main_v16 : IVec S170x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S8x384x4096 : Shape := ⟨3, ![8, 384, 4096]⟩
abbrev S8x32x12x4096 : Shape := ⟨4, ![8, 32, 12, 4096]⟩
abbrev S12x8x32x4096 : Shape := ⟨4, ![12, 8, 32, 4096]⟩
abbrev S8x2x1025x4096 : Shape := ⟨4, ![8, 2, 1025, 4096]⟩
abbrev S12x8x32x128 : Shape := ⟨4, ![12, 8, 32, 128]⟩
abbrev S8x2x1025x128 : Shape := ⟨4, ![8, 2, 1025, 128]⟩
abbrev S170x1 : Shape := ⟨2, ![170, 1]⟩
abbrev S1x1x32x128 : Shape := ⟨4, ![1, 1, 32, 128]⟩
abbrev S32x128 : Shape := ⟨2, ![32, 128]⟩
abbrev S170x128 : Shape := ⟨2, ![170, 128]⟩
abbrev S85x128 : Shape := ⟨2, ![85, 128]⟩
abbrev S1x1x85x128 : Shape := ⟨4, ![1, 1, 85, 128]⟩
abbrev S172x1 : Shape := ⟨2, ![172, 1]⟩
abbrev S172x128 : Shape := ⟨2, ![172, 128]⟩
abbrev S86x128 : Shape := ⟨2, ![86, 128]⟩
abbrev S1x1x86x128 : Shape := ⟨4, ![1, 1, 86, 128]⟩

abbrev nBuf : Space → Nat
  | .hbm => 29
  | .vmem => 28
  | .smem => 0
  | _ => 0

abbrev bufTy : (tb : Table) → Fin (tcTables nBuf tb) → BufTy
  | .hbm, ⟨0, _⟩ => ⟨S8x384x1x4096, .f32⟩
  | .hbm, ⟨1, _⟩ => ⟨S170x32, .f32⟩
  | .hbm, ⟨2, _⟩ => ⟨S170, .f32⟩
  | .hbm, ⟨3, _⟩ => ⟨S170x32, .f32⟩
  | .hbm, ⟨4, _⟩ => ⟨S170, .f32⟩
  | .hbm, ⟨5, _⟩ => ⟨S172x32, .f32⟩
  | .hbm, ⟨6, _⟩ => ⟨S172, .f32⟩
  | .hbm, ⟨7, _⟩ => ⟨S170x32, .f32⟩
  | .hbm, ⟨8, _⟩ => ⟨S170, .f32⟩
  | .hbm, ⟨9, _⟩ => ⟨S172x32, .f32⟩
  | .hbm, ⟨10, _⟩ => ⟨S172, .f32⟩
  | .hbm, ⟨11, _⟩ => ⟨S170x32, .f32⟩
  | .hbm, ⟨12, _⟩ => ⟨S170, .f32⟩
  | .hbm, ⟨13, _⟩ => ⟨S170x32, .f32⟩
  | .hbm, ⟨14, _⟩ => ⟨S170, .f32⟩
  | .hbm, ⟨15, _⟩ => ⟨S172x32, .f32⟩
  | .hbm, ⟨16, _⟩ => ⟨S172, .f32⟩
  | .hbm, ⟨17, _⟩ => ⟨S170x32, .f32⟩
  | .hbm, ⟨18, _⟩ => ⟨S170, .f32⟩
  | .hbm, ⟨19, _⟩ => ⟨S172x32, .f32⟩
  | .hbm, ⟨20, _⟩ => ⟨S172, .f32⟩
  | .hbm, ⟨21, _⟩ => ⟨S170x32, .f32⟩
  | .hbm, ⟨22, _⟩ => ⟨S170, .f32⟩
  | .hbm, ⟨23, _⟩ => ⟨S172x32, .f32⟩
  | .hbm, ⟨24, _⟩ => ⟨S172, .f32⟩
  | .hbm, ⟨25, _⟩ => ⟨S8x384x4096, .f32⟩
  | .hbm, ⟨26, _⟩ => ⟨S8x32x12x4096, .f32⟩
  | .hbm, ⟨27, _⟩ => ⟨S12x8x32x4096, .f32⟩
  | .hbm, ⟨28, _⟩ => ⟨S8x2x1025x4096, .f32⟩
  | .local _ .vmem, ⟨0, _⟩ => ⟨S12x8x32x128, .f32⟩
  | .local _ .vmem, ⟨1, _⟩ => ⟨S12x8x32x128, .f32⟩
  | .local _ .vmem, ⟨2, _⟩ => ⟨S170x32, .f32⟩
  | .local _ .vmem, ⟨3, _⟩ => ⟨S170, .f32⟩
  | .local _ .vmem, ⟨4, _⟩ => ⟨S170x32, .f32⟩
  | .local _ .vmem, ⟨5, _⟩ => ⟨S170, .f32⟩
  | .local _ .vmem, ⟨6, _⟩ => ⟨S172x32, .f32⟩
  | .local _ .vmem, ⟨7, _⟩ => ⟨S172, .f32⟩
  | .local _ .vmem, ⟨8, _⟩ => ⟨S170x32, .f32⟩
  | .local _ .vmem, ⟨9, _⟩ => ⟨S170, .f32⟩
  | .local _ .vmem, ⟨10, _⟩ => ⟨S172x32, .f32⟩
  | .local _ .vmem, ⟨11, _⟩ => ⟨S172, .f32⟩
  | .local _ .vmem, ⟨12, _⟩ => ⟨S170x32, .f32⟩
  | .local _ .vmem, ⟨13, _⟩ => ⟨S170, .f32⟩
  | .local _ .vmem, ⟨14, _⟩ => ⟨S170x32, .f32⟩
  | .local _ .vmem, ⟨15, _⟩ => ⟨S170, .f32⟩
  | .local _ .vmem, ⟨16, _⟩ => ⟨S172x32, .f32⟩
  | .local _ .vmem, ⟨17, _⟩ => ⟨S172, .f32⟩
  | .local _ .vmem, ⟨18, _⟩ => ⟨S170x32, .f32⟩
  | .local _ .vmem, ⟨19, _⟩ => ⟨S170, .f32⟩
  | .local _ .vmem, ⟨20, _⟩ => ⟨S172x32, .f32⟩
  | .local _ .vmem, ⟨21, _⟩ => ⟨S172, .f32⟩
  | .local _ .vmem, ⟨22, _⟩ => ⟨S170x32, .f32⟩
  | .local _ .vmem, ⟨23, _⟩ => ⟨S170, .f32⟩
  | .local _ .vmem, ⟨24, _⟩ => ⟨S172x32, .f32⟩
  | .local _ .vmem, ⟨25, _⟩ => ⟨S172, .f32⟩
  | .local _ .vmem, ⟨26, _⟩ => ⟨S8x2x1025x128, .f32⟩
  | .local _ .vmem, ⟨27, _⟩ => ⟨S8x2x1025x128, .f32⟩
  | _, _ => ⟨S8x384x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S12x8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S170x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S170 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S170x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S170 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S172x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S172 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S170x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S170 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S172 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S170x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S170 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S170x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S170 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S172x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S172 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S170x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S170 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S172x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S172 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S170x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S170 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S172x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S172 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S8x2x1025x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  shapeCasts_S8x384x1x4096_S8x384x4096 : S8x384x1x4096.ShapeCasts S8x384x4096
  shapeCasts_S8x384x4096_S8x32x12x4096 : S8x384x4096.ShapeCasts S8x32x12x4096
  transposes_S8x32x12x4096_S12x8x32x4096_2_0_1_3 : S8x32x12x4096.Transposes [2, 0, 1, 3] S12x8x32x4096
  inb_S170x32_S170x32_0_0 : ∀ a, (![0, 0] : Fin 2 → Nat) a + S170x32.size a ≤ S170x32.size a
  h_S170x32 : 0 < S170x32.numel
  bitsLt_bf16_f32 : FTy.bits .bf16 < FTy.bits .f32
  inb_S170_S170_0 : ∀ a, (![0] : Fin 1 → Nat) a + S170.size a ≤ S170.size a
  h_S170 : 0 < S170.numel
  shapeCasts_S170_S170x1 : S170.ShapeCasts S170x1
  inb_S12x8x32x128_S1x1x32x128_0_0_0_0 : ∀ a, (![0, 0, 0, 0] : Fin 4 → Nat) a + S1x1x32x128.size a ≤ S12x8x32x128.size a
  h_S1x1x32x128 : 0 < S1x1x32x128.numel
  shapeCasts_S1x1x32x128_S32x128 : S1x1x32x128.ShapeCasts S32x128
  broadcasts_S170x1_S170x128 : S170x1.Broadcasts S170x128
  slices_S170x128_o0_0_S85x128 : S170x128.Slices ![0, 0] S85x128
  inb_S8x2x1025x128_S1x1x85x128_0_0_0_0 : ∀ a, (![0, 0, 0, 0] : Fin 4 → Nat) a + S1x1x85x128.size a ≤ S8x2x1025x128.size a
  h_S1x1x85x128 : 0 < S1x1x85x128.numel
  shapeCasts_S1x1x85x128_S85x128 : S1x1x85x128.ShapeCasts S85x128
  shapeCasts_S85x128_S1x1x85x128 : S85x128.ShapeCasts S1x1x85x128
  slices_S170x128_o85_0_S85x128 : S170x128.Slices ![85, 0] S85x128
  inb_S8x2x1025x128_S1x1x85x128_0_1_0_0 : ∀ a, (![0, 1, 0, 0] : Fin 4 → Nat) a + S1x1x85x128.size a ≤ S8x2x1025x128.size a
  inb_S12x8x32x128_S1x1x32x128_0_1_0_0 : ∀ a, (![0, 1, 0, 0] : Fin 4 → Nat) a + S1x1x32x128.size a ≤ S12x8x32x128.size a
  inb_S8x2x1025x128_S1x1x85x128_1_0_0_0 : ∀ a, (![1, 0, 0, 0] : Fin 4 → Nat) a + S1x1x85x128.size a ≤ S8x2x1025x128.size a
  inb_S8x2x1025x128_S1x1x85x128_1_1_0_0 : ∀ a, (![1, 1, 0, 0] : Fin 4 → Nat) a + S1x1x85x128.size a ≤ S8x2x1025x128.size a
  inb_S12x8x32x128_S1x1x32x128_0_2_0_0 : ∀ a, (![0, 2, 0, 0] : Fin 4 → Nat) a + S1x1x32x128.size a ≤ S12x8x32x128.size a
  inb_S8x2x1025x128_S1x1x85x128_2_0_0_0 : ∀ a, (![2, 0, 0, 0] : Fin 4 → Nat) a + S1x1x85x128.size a ≤ S8x2x1025x128.size a
  inb_S8x2x1025x128_S1x1x85x128_2_1_0_0 : ∀ a, (![2, 1, 0, 0] : Fin 4 → Nat) a + S1x1x85x128.size a ≤ S8x2x1025x128.size a
  inb_S12x8x32x128_S1x1x32x128_0_3_0_0 : ∀ a, (![0, 3, 0, 0] : Fin 4 → Nat) a + S1x1x32x128.size a ≤ S12x8x32x128.size a
  inb_S8x2x1025x128_S1x1x85x128_3_0_0_0 : ∀ a, (![3, 0, 0, 0] : Fin 4 → Nat) a + S1x1x85x128.size a ≤ S8x2x1025x128.size a
  inb_S8x2x1025x128_S1x1x85x128_3_1_0_0 : ∀ a, (![3, 1, 0, 0] : Fin 4 → Nat) a + S1x1x85x128.size a ≤ S8x2x1025x128.size a
  inb_S12x8x32x128_S1x1x32x128_0_4_0_0 : ∀ a, (![0, 4, 0, 0] : Fin 4 → Nat) a + S1x1x32x128.size a ≤ S12x8x32x128.size a
  inb_S8x2x1025x128_S1x1x85x128_4_0_0_0 : ∀ a, (![4, 0, 0, 0] : Fin 4 → Nat) a + S1x1x85x128.size a ≤ S8x2x1025x128.size a
  inb_S8x2x1025x128_S1x1x85x128_4_1_0_0 : ∀ a, (![4, 1, 0, 0] : Fin 4 → Nat) a + S1x1x85x128.size a ≤ S8x2x1025x128.size a
  inb_S12x8x32x128_S1x1x32x128_0_5_0_0 : ∀ a, (![0, 5, 0, 0] : Fin 4 → Nat) a + S1x1x32x128.size a ≤ S12x8x32x128.size a
  inb_S8x2x1025x128_S1x1x85x128_5_0_0_0 : ∀ a, (![5, 0, 0, 0] : Fin 4 → Nat) a + S1x1x85x128.size a ≤ S8x2x1025x128.size a
  inb_S8x2x1025x128_S1x1x85x128_5_1_0_0 : ∀ a, (![5, 1, 0, 0] : Fin 4 → Nat) a + S1x1x85x128.size a ≤ S8x2x1025x128.size a
  inb_S12x8x32x128_S1x1x32x128_0_6_0_0 : ∀ a, (![0, 6, 0, 0] : Fin 4 → Nat) a + S1x1x32x128.size a ≤ S12x8x32x128.size a
  inb_S8x2x1025x128_S1x1x85x128_6_0_0_0 : ∀ a, (![6, 0, 0, 0] : Fin 4 → Nat) a + S1x1x85x128.size a ≤ S8x2x1025x128.size a
  inb_S8x2x1025x128_S1x1x85x128_6_1_0_0 : ∀ a, (![6, 1, 0, 0] : Fin 4 → Nat) a + S1x1x85x128.size a ≤ S8x2x1025x128.size a
  inb_S12x8x32x128_S1x1x32x128_0_7_0_0 : ∀ a, (![0, 7, 0, 0] : Fin 4 → Nat) a + S1x1x32x128.size a ≤ S12x8x32x128.size a
  inb_S8x2x1025x128_S1x1x85x128_7_0_0_0 : ∀ a, (![7, 0, 0, 0] : Fin 4 → Nat) a + S1x1x85x128.size a ≤ S8x2x1025x128.size a
  inb_S8x2x1025x128_S1x1x85x128_7_1_0_0 : ∀ a, (![7, 1, 0, 0] : Fin 4 → Nat) a + S1x1x85x128.size a ≤ S8x2x1025x128.size a
  inb_S12x8x32x128_S1x1x32x128_1_0_0_0 : ∀ a, (![1, 0, 0, 0] : Fin 4 → Nat) a + S1x1x32x128.size a ≤ S12x8x32x128.size a
  inb_S8x2x1025x128_S1x1x85x128_0_0_85_0 : ∀ a, (![0, 0, 85, 0] : Fin 4 → Nat) a + S1x1x85x128.size a ≤ S8x2x1025x128.size a
  inb_S8x2x1025x128_S1x1x85x128_0_1_85_0 : ∀ a, (![0, 1, 85, 0] : Fin 4 → Nat) a + S1x1x85x128.size a ≤ S8x2x1025x128.size a
  inb_S12x8x32x128_S1x1x32x128_1_1_0_0 : ∀ a, (![1, 1, 0, 0] : Fin 4 → Nat) a + S1x1x32x128.size a ≤ S12x8x32x128.size a
  inb_S8x2x1025x128_S1x1x85x128_1_0_85_0 : ∀ a, (![1, 0, 85, 0] : Fin 4 → Nat) a + S1x1x85x128.size a ≤ S8x2x1025x128.size a
  inb_S8x2x1025x128_S1x1x85x128_1_1_85_0 : ∀ a, (![1, 1, 85, 0] : Fin 4 → Nat) a + S1x1x85x128.size a ≤ S8x2x1025x128.size a
  inb_S12x8x32x128_S1x1x32x128_1_2_0_0 : ∀ a, (![1, 2, 0, 0] : Fin 4 → Nat) a + S1x1x32x128.size a ≤ S12x8x32x128.size a
  inb_S8x2x1025x128_S1x1x85x128_2_0_85_0 : ∀ a, (![2, 0, 85, 0] : Fin 4 → Nat) a + S1x1x85x128.size a ≤ S8x2x1025x128.size a
  inb_S8x2x1025x128_S1x1x85x128_2_1_85_0 : ∀ a, (![2, 1, 85, 0] : Fin 4 → Nat) a + S1x1x85x128.size a ≤ S8x2x1025x128.size a
  inb_S12x8x32x128_S1x1x32x128_1_3_0_0 : ∀ a, (![1, 3, 0, 0] : Fin 4 → Nat) a + S1x1x32x128.size a ≤ S12x8x32x128.size a
  inb_S8x2x1025x128_S1x1x85x128_3_0_85_0 : ∀ a, (![3, 0, 85, 0] : Fin 4 → Nat) a + S1x1x85x128.size a ≤ S8x2x1025x128.size a
  inb_S8x2x1025x128_S1x1x85x128_3_1_85_0 : ∀ a, (![3, 1, 85, 0] : Fin 4 → Nat) a + S1x1x85x128.size a ≤ S8x2x1025x128.size a
  inb_S12x8x32x128_S1x1x32x128_1_4_0_0 : ∀ a, (![1, 4, 0, 0] : Fin 4 → Nat) a + S1x1x32x128.size a ≤ S12x8x32x128.size a
  inb_S8x2x1025x128_S1x1x85x128_4_0_85_0 : ∀ a, (![4, 0, 85, 0] : Fin 4 → Nat) a + S1x1x85x128.size a ≤ S8x2x1025x128.size a
  inb_S8x2x1025x128_S1x1x85x128_4_1_85_0 : ∀ a, (![4, 1, 85, 0] : Fin 4 → Nat) a + S1x1x85x128.size a ≤ S8x2x1025x128.size a
  inb_S12x8x32x128_S1x1x32x128_1_5_0_0 : ∀ a, (![1, 5, 0, 0] : Fin 4 → Nat) a + S1x1x32x128.size a ≤ S12x8x32x128.size a
  inb_S8x2x1025x128_S1x1x85x128_5_0_85_0 : ∀ a, (![5, 0, 85, 0] : Fin 4 → Nat) a + S1x1x85x128.size a ≤ S8x2x1025x128.size a
  inb_S8x2x1025x128_S1x1x85x128_5_1_85_0 : ∀ a, (![5, 1, 85, 0] : Fin 4 → Nat) a + S1x1x85x128.size a ≤ S8x2x1025x128.size a
  inb_S12x8x32x128_S1x1x32x128_1_6_0_0 : ∀ a, (![1, 6, 0, 0] : Fin 4 → Nat) a + S1x1x32x128.size a ≤ S12x8x32x128.size a
  inb_S8x2x1025x128_S1x1x85x128_6_0_85_0 : ∀ a, (![6, 0, 85, 0] : Fin 4 → Nat) a + S1x1x85x128.size a ≤ S8x2x1025x128.size a
  inb_S8x2x1025x128_S1x1x85x128_6_1_85_0 : ∀ a, (![6, 1, 85, 0] : Fin 4 → Nat) a + S1x1x85x128.size a ≤ S8x2x1025x128.size a
  inb_S12x8x32x128_S1x1x32x128_1_7_0_0 : ∀ a, (![1, 7, 0, 0] : Fin 4 → Nat) a + S1x1x32x128.size a ≤ S12x8x32x128.size a
  inb_S8x2x1025x128_S1x1x85x128_7_0_85_0 : ∀ a, (![7, 0, 85, 0] : Fin 4 → Nat) a + S1x1x85x128.size a ≤ S8x2x1025x128.size a
  inb_S8x2x1025x128_S1x1x85x128_7_1_85_0 : ∀ a, (![7, 1, 85, 0] : Fin 4 → Nat) a + S1x1x85x128.size a ≤ S8x2x1025x128.size a
  inb_S172x32_S172x32_0_0 : ∀ a, (![0, 0] : Fin 2 → Nat) a + S172x32.size a ≤ S172x32.size a
  h_S172x32 : 0 < S172x32.numel
  inb_S172_S172_0 : ∀ a, (![0] : Fin 1 → Nat) a + S172.size a ≤ S172.size a
  h_S172 : 0 < S172.numel
  shapeCasts_S172_S172x1 : S172.ShapeCasts S172x1
  inb_S12x8x32x128_S1x1x32x128_2_0_0_0 : ∀ a, (![2, 0, 0, 0] : Fin 4 → Nat) a + S1x1x32x128.size a ≤ S12x8x32x128.size a
  broadcasts_S172x1_S172x128 : S172x1.Broadcasts S172x128
  slices_S172x128_o0_0_S86x128 : S172x128.Slices ![0, 0] S86x128
  inb_S8x2x1025x128_S1x1x86x128_0_0_170_0 : ∀ a, (![0, 0, 170, 0] : Fin 4 → Nat) a + S1x1x86x128.size a ≤ S8x2x1025x128.size a
  h_S1x1x86x128 : 0 < S1x1x86x128.numel
  shapeCasts_S1x1x86x128_S86x128 : S1x1x86x128.ShapeCasts S86x128
  shapeCasts_S86x128_S1x1x86x128 : S86x128.ShapeCasts S1x1x86x128
  slices_S172x128_o86_0_S86x128 : S172x128.Slices ![86, 0] S86x128
  inb_S8x2x1025x128_S1x1x86x128_0_1_170_0 : ∀ a, (![0, 1, 170, 0] : Fin 4 → Nat) a + S1x1x86x128.size a ≤ S8x2x1025x128.size a
  inb_S12x8x32x128_S1x1x32x128_2_1_0_0 : ∀ a, (![2, 1, 0, 0] : Fin 4 → Nat) a + S1x1x32x128.size a ≤ S12x8x32x128.size a
  inb_S8x2x1025x128_S1x1x86x128_1_0_170_0 : ∀ a, (![1, 0, 170, 0] : Fin 4 → Nat) a + S1x1x86x128.size a ≤ S8x2x1025x128.size a
  inb_S8x2x1025x128_S1x1x86x128_1_1_170_0 : ∀ a, (![1, 1, 170, 0] : Fin 4 → Nat) a + S1x1x86x128.size a ≤ S8x2x1025x128.size a
  inb_S12x8x32x128_S1x1x32x128_2_2_0_0 : ∀ a, (![2, 2, 0, 0] : Fin 4 → Nat) a + S1x1x32x128.size a ≤ S12x8x32x128.size a
  inb_S8x2x1025x128_S1x1x86x128_2_0_170_0 : ∀ a, (![2, 0, 170, 0] : Fin 4 → Nat) a + S1x1x86x128.size a ≤ S8x2x1025x128.size a
  inb_S8x2x1025x128_S1x1x86x128_2_1_170_0 : ∀ a, (![2, 1, 170, 0] : Fin 4 → Nat) a + S1x1x86x128.size a ≤ S8x2x1025x128.size a
  inb_S12x8x32x128_S1x1x32x128_2_3_0_0 : ∀ a, (![2, 3, 0, 0] : Fin 4 → Nat) a + S1x1x32x128.size a ≤ S12x8x32x128.size a
  inb_S8x2x1025x128_S1x1x86x128_3_0_170_0 : ∀ a, (![3, 0, 170, 0] : Fin 4 → Nat) a + S1x1x86x128.size a ≤ S8x2x1025x128.size a
  inb_S8x2x1025x128_S1x1x86x128_3_1_170_0 : ∀ a, (![3, 1, 170, 0] : Fin 4 → Nat) a + S1x1x86x128.size a ≤ S8x2x1025x128.size a
  inb_S12x8x32x128_S1x1x32x128_2_4_0_0 : ∀ a, (![2, 4, 0, 0] : Fin 4 → Nat) a + S1x1x32x128.size a ≤ S12x8x32x128.size a
  inb_S8x2x1025x128_S1x1x86x128_4_0_170_0 : ∀ a, (![4, 0, 170, 0] : Fin 4 → Nat) a + S1x1x86x128.size a ≤ S8x2x1025x128.size a
  inb_S8x2x1025x128_S1x1x86x128_4_1_170_0 : ∀ a, (![4, 1, 170, 0] : Fin 4 → Nat) a + S1x1x86x128.size a ≤ S8x2x1025x128.size a
  inb_S12x8x32x128_S1x1x32x128_2_5_0_0 : ∀ a, (![2, 5, 0, 0] : Fin 4 → Nat) a + S1x1x32x128.size a ≤ S12x8x32x128.size a
  inb_S8x2x1025x128_S1x1x86x128_5_0_170_0 : ∀ a, (![5, 0, 170, 0] : Fin 4 → Nat) a + S1x1x86x128.size a ≤ S8x2x1025x128.size a
  inb_S8x2x1025x128_S1x1x86x128_5_1_170_0 : ∀ a, (![5, 1, 170, 0] : Fin 4 → Nat) a + S1x1x86x128.size a ≤ S8x2x1025x128.size a
  inb_S12x8x32x128_S1x1x32x128_2_6_0_0 : ∀ a, (![2, 6, 0, 0] : Fin 4 → Nat) a + S1x1x32x128.size a ≤ S12x8x32x128.size a
  inb_S8x2x1025x128_S1x1x86x128_6_0_170_0 : ∀ a, (![6, 0, 170, 0] : Fin 4 → Nat) a + S1x1x86x128.size a ≤ S8x2x1025x128.size a
  inb_S8x2x1025x128_S1x1x86x128_6_1_170_0 : ∀ a, (![6, 1, 170, 0] : Fin 4 → Nat) a + S1x1x86x128.size a ≤ S8x2x1025x128.size a
  inb_S12x8x32x128_S1x1x32x128_2_7_0_0 : ∀ a, (![2, 7, 0, 0] : Fin 4 → Nat) a + S1x1x32x128.size a ≤ S12x8x32x128.size a
  inb_S8x2x1025x128_S1x1x86x128_7_0_170_0 : ∀ a, (![7, 0, 170, 0] : Fin 4 → Nat) a + S1x1x86x128.size a ≤ S8x2x1025x128.size a
  inb_S8x2x1025x128_S1x1x86x128_7_1_170_0 : ∀ a, (![7, 1, 170, 0] : Fin 4 → Nat) a + S1x1x86x128.size a ≤ S8x2x1025x128.size a
  inb_S12x8x32x128_S1x1x32x128_3_0_0_0 : ∀ a, (![3, 0, 0, 0] : Fin 4 → Nat) a + S1x1x32x128.size a ≤ S12x8x32x128.size a
  inb_S8x2x1025x128_S1x1x85x128_0_0_256_0 : ∀ a, (![0, 0, 256, 0] : Fin 4 → Nat) a + S1x1x85x128.size a ≤ S8x2x1025x128.size a
  inb_S8x2x1025x128_S1x1x85x128_0_1_256_0 : ∀ a, (![0, 1, 256, 0] : Fin 4 → Nat) a + S1x1x85x128.size a ≤ S8x2x1025x128.size a
  inb_S12x8x32x128_S1x1x32x128_3_1_0_0 : ∀ a, (![3, 1, 0, 0] : Fin 4 → Nat) a + S1x1x32x128.size a ≤ S12x8x32x128.size a
  inb_S8x2x1025x128_S1x1x85x128_1_0_256_0 : ∀ a, (![1, 0, 256, 0] : Fin 4 → Nat) a + S1x1x85x128.size a ≤ S8x2x1025x128.size a
  inb_S8x2x1025x128_S1x1x85x128_1_1_256_0 : ∀ a, (![1, 1, 256, 0] : Fin 4 → Nat) a + S1x1x85x128.size a ≤ S8x2x1025x128.size a
  inb_S12x8x32x128_S1x1x32x128_3_2_0_0 : ∀ a, (![3, 2, 0, 0] : Fin 4 → Nat) a + S1x1x32x128.size a ≤ S12x8x32x128.size a
  inb_S8x2x1025x128_S1x1x85x128_2_0_256_0 : ∀ a, (![2, 0, 256, 0] : Fin 4 → Nat) a + S1x1x85x128.size a ≤ S8x2x1025x128.size a
  inb_S8x2x1025x128_S1x1x85x128_2_1_256_0 : ∀ a, (![2, 1, 256, 0] : Fin 4 → Nat) a + S1x1x85x128.size a ≤ S8x2x1025x128.size a
  inb_S12x8x32x128_S1x1x32x128_3_3_0_0 : ∀ a, (![3, 3, 0, 0] : Fin 4 → Nat) a + S1x1x32x128.size a ≤ S12x8x32x128.size a
  inb_S8x2x1025x128_S1x1x85x128_3_0_256_0 : ∀ a, (![3, 0, 256, 0] : Fin 4 → Nat) a + S1x1x85x128.size a ≤ S8x2x1025x128.size a
  inb_S8x2x1025x128_S1x1x85x128_3_1_256_0 : ∀ a, (![3, 1, 256, 0] : Fin 4 → Nat) a + S1x1x85x128.size a ≤ S8x2x1025x128.size a
  inb_S12x8x32x128_S1x1x32x128_3_4_0_0 : ∀ a, (![3, 4, 0, 0] : Fin 4 → Nat) a + S1x1x32x128.size a ≤ S12x8x32x128.size a
  inb_S8x2x1025x128_S1x1x85x128_4_0_256_0 : ∀ a, (![4, 0, 256, 0] : Fin 4 → Nat) a + S1x1x85x128.size a ≤ S8x2x1025x128.size a
  inb_S8x2x1025x128_S1x1x85x128_4_1_256_0 : ∀ a, (![4, 1, 256, 0] : Fin 4 → Nat) a + S1x1x85x128.size a ≤ S8x2x1025x128.size a
  inb_S12x8x32x128_S1x1x32x128_3_5_0_0 : ∀ a, (![3, 5, 0, 0] : Fin 4 → Nat) a + S1x1x32x128.size a ≤ S12x8x32x128.size a
  inb_S8x2x1025x128_S1x1x85x128_5_0_256_0 : ∀ a, (![5, 0, 256, 0] : Fin 4 → Nat) a + S1x1x85x128.size a ≤ S8x2x1025x128.size a
  inb_S8x2x1025x128_S1x1x85x128_5_1_256_0 : ∀ a, (![5, 1, 256, 0] : Fin 4 → Nat) a + S1x1x85x128.size a ≤ S8x2x1025x128.size a
  inb_S12x8x32x128_S1x1x32x128_3_6_0_0 : ∀ a, (![3, 6, 0, 0] : Fin 4 → Nat) a + S1x1x32x128.size a ≤ S12x8x32x128.size a
  inb_S8x2x1025x128_S1x1x85x128_6_0_256_0 : ∀ a, (![6, 0, 256, 0] : Fin 4 → Nat) a + S1x1x85x128.size a ≤ S8x2x1025x128.size a
  inb_S8x2x1025x128_S1x1x85x128_6_1_256_0 : ∀ a, (![6, 1, 256, 0] : Fin 4 → Nat) a + S1x1x85x128.size a ≤ S8x2x1025x128.size a
  inb_S12x8x32x128_S1x1x32x128_3_7_0_0 : ∀ a, (![3, 7, 0, 0] : Fin 4 → Nat) a + S1x1x32x128.size a ≤ S12x8x32x128.size a
  inb_S8x2x1025x128_S1x1x85x128_7_0_256_0 : ∀ a, (![7, 0, 256, 0] : Fin 4 → Nat) a + S1x1x85x128.size a ≤ S8x2x1025x128.size a
  inb_S8x2x1025x128_S1x1x85x128_7_1_256_0 : ∀ a, (![7, 1, 256, 0] : Fin 4 → Nat) a + S1x1x85x128.size a ≤ S8x2x1025x128.size a
  inb_S12x8x32x128_S1x1x32x128_4_0_0_0 : ∀ a, (![4, 0, 0, 0] : Fin 4 → Nat) a + S1x1x32x128.size a ≤ S12x8x32x128.size a
  inb_S8x2x1025x128_S1x1x86x128_0_0_341_0 : ∀ a, (![0, 0, 341, 0] : Fin 4 → Nat) a + S1x1x86x128.size a ≤ S8x2x1025x128.size a
  inb_S8x2x1025x128_S1x1x86x128_0_1_341_0 : ∀ a, (![0, 1, 341, 0] : Fin 4 → Nat) a + S1x1x86x128.size a ≤ S8x2x1025x128.size a
  inb_S12x8x32x128_S1x1x32x128_4_1_0_0 : ∀ a, (![4, 1, 0, 0] : Fin 4 → Nat) a + S1x1x32x128.size a ≤ S12x8x32x128.size a
  inb_S8x2x1025x128_S1x1x86x128_1_0_341_0 : ∀ a, (![1, 0, 341, 0] : Fin 4 → Nat) a + S1x1x86x128.size a ≤ S8x2x1025x128.size a
  inb_S8x2x1025x128_S1x1x86x128_1_1_341_0 : ∀ a, (![1, 1, 341, 0] : Fin 4 → Nat) a + S1x1x86x128.size a ≤ S8x2x1025x128.size a
  inb_S12x8x32x128_S1x1x32x128_4_2_0_0 : ∀ a, (![4, 2, 0, 0] : Fin 4 → Nat) a + S1x1x32x128.size a ≤ S12x8x32x128.size a
  inb_S8x2x1025x128_S1x1x86x128_2_0_341_0 : ∀ a, (![2, 0, 341, 0] : Fin 4 → Nat) a + S1x1x86x128.size a ≤ S8x2x1025x128.size a
  inb_S8x2x1025x128_S1x1x86x128_2_1_341_0 : ∀ a, (![2, 1, 341, 0] : Fin 4 → Nat) a + S1x1x86x128.size a ≤ S8x2x1025x128.size a
  inb_S12x8x32x128_S1x1x32x128_4_3_0_0 : ∀ a, (![4, 3, 0, 0] : Fin 4 → Nat) a + S1x1x32x128.size a ≤ S12x8x32x128.size a
  inb_S8x2x1025x128_S1x1x86x128_3_0_341_0 : ∀ a, (![3, 0, 341, 0] : Fin 4 → Nat) a + S1x1x86x128.size a ≤ S8x2x1025x128.size a
  inb_S8x2x1025x128_S1x1x86x128_3_1_341_0 : ∀ a, (![3, 1, 341, 0] : Fin 4 → Nat) a + S1x1x86x128.size a ≤ S8x2x1025x128.size a
  inb_S12x8x32x128_S1x1x32x128_4_4_0_0 : ∀ a, (![4, 4, 0, 0] : Fin 4 → Nat) a + S1x1x32x128.size a ≤ S12x8x32x128.size a
  inb_S8x2x1025x128_S1x1x86x128_4_0_341_0 : ∀ a, (![4, 0, 341, 0] : Fin 4 → Nat) a + S1x1x86x128.size a ≤ S8x2x1025x128.size a
  inb_S8x2x1025x128_S1x1x86x128_4_1_341_0 : ∀ a, (![4, 1, 341, 0] : Fin 4 → Nat) a + S1x1x86x128.size a ≤ S8x2x1025x128.size a
  inb_S12x8x32x128_S1x1x32x128_4_5_0_0 : ∀ a, (![4, 5, 0, 0] : Fin 4 → Nat) a + S1x1x32x128.size a ≤ S12x8x32x128.size a
  inb_S8x2x1025x128_S1x1x86x128_5_0_341_0 : ∀ a, (![5, 0, 341, 0] : Fin 4 → Nat) a + S1x1x86x128.size a ≤ S8x2x1025x128.size a
  inb_S8x2x1025x128_S1x1x86x128_5_1_341_0 : ∀ a, (![5, 1, 341, 0] : Fin 4 → Nat) a + S1x1x86x128.size a ≤ S8x2x1025x128.size a
  inb_S12x8x32x128_S1x1x32x128_4_6_0_0 : ∀ a, (![4, 6, 0, 0] : Fin 4 → Nat) a + S1x1x32x128.size a ≤ S12x8x32x128.size a
  inb_S8x2x1025x128_S1x1x86x128_6_0_341_0 : ∀ a, (![6, 0, 341, 0] : Fin 4 → Nat) a + S1x1x86x128.size a ≤ S8x2x1025x128.size a
  inb_S8x2x1025x128_S1x1x86x128_6_1_341_0 : ∀ a, (![6, 1, 341, 0] : Fin 4 → Nat) a + S1x1x86x128.size a ≤ S8x2x1025x128.size a
  inb_S12x8x32x128_S1x1x32x128_4_7_0_0 : ∀ a, (![4, 7, 0, 0] : Fin 4 → Nat) a + S1x1x32x128.size a ≤ S12x8x32x128.size a
  inb_S8x2x1025x128_S1x1x86x128_7_0_341_0 : ∀ a, (![7, 0, 341, 0] : Fin 4 → Nat) a + S1x1x86x128.size a ≤ S8x2x1025x128.size a
  inb_S8x2x1025x128_S1x1x86x128_7_1_341_0 : ∀ a, (![7, 1, 341, 0] : Fin 4 → Nat) a + S1x1x86x128.size a ≤ S8x2x1025x128.size a
  inb_S12x8x32x128_S1x1x32x128_5_0_0_0 : ∀ a, (![5, 0, 0, 0] : Fin 4 → Nat) a + S1x1x32x128.size a ≤ S12x8x32x128.size a
  inb_S8x2x1025x128_S1x1x85x128_0_0_427_0 : ∀ a, (![0, 0, 427, 0] : Fin 4 → Nat) a + S1x1x85x128.size a ≤ S8x2x1025x128.size a
  inb_S8x2x1025x128_S1x1x85x128_0_1_427_0 : ∀ a, (![0, 1, 427, 0] : Fin 4 → Nat) a + S1x1x85x128.size a ≤ S8x2x1025x128.size a
  inb_S12x8x32x128_S1x1x32x128_5_1_0_0 : ∀ a, (![5, 1, 0, 0] : Fin 4 → Nat) a + S1x1x32x128.size a ≤ S12x8x32x128.size a
  inb_S8x2x1025x128_S1x1x85x128_1_0_427_0 : ∀ a, (![1, 0, 427, 0] : Fin 4 → Nat) a + S1x1x85x128.size a ≤ S8x2x1025x128.size a
  inb_S8x2x1025x128_S1x1x85x128_1_1_427_0 : ∀ a, (![1, 1, 427, 0] : Fin 4 → Nat) a + S1x1x85x128.size a ≤ S8x2x1025x128.size a
  inb_S12x8x32x128_S1x1x32x128_5_2_0_0 : ∀ a, (![5, 2, 0, 0] : Fin 4 → Nat) a + S1x1x32x128.size a ≤ S12x8x32x128.size a
  inb_S8x2x1025x128_S1x1x85x128_2_0_427_0 : ∀ a, (![2, 0, 427, 0] : Fin 4 → Nat) a + S1x1x85x128.size a ≤ S8x2x1025x128.size a
  inb_S8x2x1025x128_S1x1x85x128_2_1_427_0 : ∀ a, (![2, 1, 427, 0] : Fin 4 → Nat) a + S1x1x85x128.size a ≤ S8x2x1025x128.size a
  inb_S12x8x32x128_S1x1x32x128_5_3_0_0 : ∀ a, (![5, 3, 0, 0] : Fin 4 → Nat) a + S1x1x32x128.size a ≤ S12x8x32x128.size a
  inb_S8x2x1025x128_S1x1x85x128_3_0_427_0 : ∀ a, (![3, 0, 427, 0] : Fin 4 → Nat) a + S1x1x85x128.size a ≤ S8x2x1025x128.size a
  inb_S8x2x1025x128_S1x1x85x128_3_1_427_0 : ∀ a, (![3, 1, 427, 0] : Fin 4 → Nat) a + S1x1x85x128.size a ≤ S8x2x1025x128.size a
  inb_S12x8x32x128_S1x1x32x128_5_4_0_0 : ∀ a, (![5, 4, 0, 0] : Fin 4 → Nat) a + S1x1x32x128.size a ≤ S12x8x32x128.size a
  inb_S8x2x1025x128_S1x1x85x128_4_0_427_0 : ∀ a, (![4, 0, 427, 0] : Fin 4 → Nat) a + S1x1x85x128.size a ≤ S8x2x1025x128.size a
  inb_S8x2x1025x128_S1x1x85x128_4_1_427_0 : ∀ a, (![4, 1, 427, 0] : Fin 4 → Nat) a + S1x1x85x128.size a ≤ S8x2x1025x128.size a
  inb_S12x8x32x128_S1x1x32x128_5_5_0_0 : ∀ a, (![5, 5, 0, 0] : Fin 4 → Nat) a + S1x1x32x128.size a ≤ S12x8x32x128.size a
  inb_S8x2x1025x128_S1x1x85x128_5_0_427_0 : ∀ a, (![5, 0, 427, 0] : Fin 4 → Nat) a + S1x1x85x128.size a ≤ S8x2x1025x128.size a
  inb_S8x2x1025x128_S1x1x85x128_5_1_427_0 : ∀ a, (![5, 1, 427, 0] : Fin 4 → Nat) a + S1x1x85x128.size a ≤ S8x2x1025x128.size a
  inb_S12x8x32x128_S1x1x32x128_5_6_0_0 : ∀ a, (![5, 6, 0, 0] : Fin 4 → Nat) a + S1x1x32x128.size a ≤ S12x8x32x128.size a
  inb_S8x2x1025x128_S1x1x85x128_6_0_427_0 : ∀ a, (![6, 0, 427, 0] : Fin 4 → Nat) a + S1x1x85x128.size a ≤ S8x2x1025x128.size a
  inb_S8x2x1025x128_S1x1x85x128_6_1_427_0 : ∀ a, (![6, 1, 427, 0] : Fin 4 → Nat) a + S1x1x85x128.size a ≤ S8x2x1025x128.size a
  inb_S12x8x32x128_S1x1x32x128_5_7_0_0 : ∀ a, (![5, 7, 0, 0] : Fin 4 → Nat) a + S1x1x32x128.size a ≤ S12x8x32x128.size a
  inb_S8x2x1025x128_S1x1x85x128_7_0_427_0 : ∀ a, (![7, 0, 427, 0] : Fin 4 → Nat) a + S1x1x85x128.size a ≤ S8x2x1025x128.size a
  inb_S8x2x1025x128_S1x1x85x128_7_1_427_0 : ∀ a, (![7, 1, 427, 0] : Fin 4 → Nat) a + S1x1x85x128.size a ≤ S8x2x1025x128.size a
  inb_S12x8x32x128_S1x1x32x128_6_0_0_0 : ∀ a, (![6, 0, 0, 0] : Fin 4 → Nat) a + S1x1x32x128.size a ≤ S12x8x32x128.size a
  inb_S8x2x1025x128_S1x1x85x128_0_0_512_0 : ∀ a, (![0, 0, 512, 0] : Fin 4 → Nat) a + S1x1x85x128.size a ≤ S8x2x1025x128.size a
  inb_S8x2x1025x128_S1x1x85x128_0_1_512_0 : ∀ a, (![0, 1, 512, 0] : Fin 4 → Nat) a + S1x1x85x128.size a ≤ S8x2x1025x128.size a
  inb_S12x8x32x128_S1x1x32x128_6_1_0_0 : ∀ a, (![6, 1, 0, 0] : Fin 4 → Nat) a + S1x1x32x128.size a ≤ S12x8x32x128.size a
  inb_S8x2x1025x128_S1x1x85x128_1_0_512_0 : ∀ a, (![1, 0, 512, 0] : Fin 4 → Nat) a + S1x1x85x128.size a ≤ S8x2x1025x128.size a
  inb_S8x2x1025x128_S1x1x85x128_1_1_512_0 : ∀ a, (![1, 1, 512, 0] : Fin 4 → Nat) a + S1x1x85x128.size a ≤ S8x2x1025x128.size a
  inb_S12x8x32x128_S1x1x32x128_6_2_0_0 : ∀ a, (![6, 2, 0, 0] : Fin 4 → Nat) a + S1x1x32x128.size a ≤ S12x8x32x128.size a
  inb_S8x2x1025x128_S1x1x85x128_2_0_512_0 : ∀ a, (![2, 0, 512, 0] : Fin 4 → Nat) a + S1x1x85x128.size a ≤ S8x2x1025x128.size a
  inb_S8x2x1025x128_S1x1x85x128_2_1_512_0 : ∀ a, (![2, 1, 512, 0] : Fin 4 → Nat) a + S1x1x85x128.size a ≤ S8x2x1025x128.size a
  inb_S12x8x32x128_S1x1x32x128_6_3_0_0 : ∀ a, (![6, 3, 0, 0] : Fin 4 → Nat) a + S1x1x32x128.size a ≤ S12x8x32x128.size a
  inb_S8x2x1025x128_S1x1x85x128_3_0_512_0 : ∀ a, (![3, 0, 512, 0] : Fin 4 → Nat) a + S1x1x85x128.size a ≤ S8x2x1025x128.size a
  inb_S8x2x1025x128_S1x1x85x128_3_1_512_0 : ∀ a, (![3, 1, 512, 0] : Fin 4 → Nat) a + S1x1x85x128.size a ≤ S8x2x1025x128.size a
  inb_S12x8x32x128_S1x1x32x128_6_4_0_0 : ∀ a, (![6, 4, 0, 0] : Fin 4 → Nat) a + S1x1x32x128.size a ≤ S12x8x32x128.size a
  inb_S8x2x1025x128_S1x1x85x128_4_0_512_0 : ∀ a, (![4, 0, 512, 0] : Fin 4 → Nat) a + S1x1x85x128.size a ≤ S8x2x1025x128.size a
  inb_S8x2x1025x128_S1x1x85x128_4_1_512_0 : ∀ a, (![4, 1, 512, 0] : Fin 4 → Nat) a + S1x1x85x128.size a ≤ S8x2x1025x128.size a
  inb_S12x8x32x128_S1x1x32x128_6_5_0_0 : ∀ a, (![6, 5, 0, 0] : Fin 4 → Nat) a + S1x1x32x128.size a ≤ S12x8x32x128.size a
  inb_S8x2x1025x128_S1x1x85x128_5_0_512_0 : ∀ a, (![5, 0, 512, 0] : Fin 4 → Nat) a + S1x1x85x128.size a ≤ S8x2x1025x128.size a
  inb_S8x2x1025x128_S1x1x85x128_5_1_512_0 : ∀ a, (![5, 1, 512, 0] : Fin 4 → Nat) a + S1x1x85x128.size a ≤ S8x2x1025x128.size a
  inb_S12x8x32x128_S1x1x32x128_6_6_0_0 : ∀ a, (![6, 6, 0, 0] : Fin 4 → Nat) a + S1x1x32x128.size a ≤ S12x8x32x128.size a
  inb_S8x2x1025x128_S1x1x85x128_6_0_512_0 : ∀ a, (![6, 0, 512, 0] : Fin 4 → Nat) a + S1x1x85x128.size a ≤ S8x2x1025x128.size a
  inb_S8x2x1025x128_S1x1x85x128_6_1_512_0 : ∀ a, (![6, 1, 512, 0] : Fin 4 → Nat) a + S1x1x85x128.size a ≤ S8x2x1025x128.size a
  inb_S12x8x32x128_S1x1x32x128_6_7_0_0 : ∀ a, (![6, 7, 0, 0] : Fin 4 → Nat) a + S1x1x32x128.size a ≤ S12x8x32x128.size a
  inb_S8x2x1025x128_S1x1x85x128_7_0_512_0 : ∀ a, (![7, 0, 512, 0] : Fin 4 → Nat) a + S1x1x85x128.size a ≤ S8x2x1025x128.size a
  inb_S8x2x1025x128_S1x1x85x128_7_1_512_0 : ∀ a, (![7, 1, 512, 0] : Fin 4 → Nat) a + S1x1x85x128.size a ≤ S8x2x1025x128.size a
  inb_S12x8x32x128_S1x1x32x128_7_0_0_0 : ∀ a, (![7, 0, 0, 0] : Fin 4 → Nat) a + S1x1x32x128.size a ≤ S12x8x32x128.size a
  inb_S8x2x1025x128_S1x1x86x128_0_0_597_0 : ∀ a, (![0, 0, 597, 0] : Fin 4 → Nat) a + S1x1x86x128.size a ≤ S8x2x1025x128.size a
  inb_S8x2x1025x128_S1x1x86x128_0_1_597_0 : ∀ a, (![0, 1, 597, 0] : Fin 4 → Nat) a + S1x1x86x128.size a ≤ S8x2x1025x128.size a
  inb_S12x8x32x128_S1x1x32x128_7_1_0_0 : ∀ a, (![7, 1, 0, 0] : Fin 4 → Nat) a + S1x1x32x128.size a ≤ S12x8x32x128.size a
  inb_S8x2x1025x128_S1x1x86x128_1_0_597_0 : ∀ a, (![1, 0, 597, 0] : Fin 4 → Nat) a + S1x1x86x128.size a ≤ S8x2x1025x128.size a
  inb_S8x2x1025x128_S1x1x86x128_1_1_597_0 : ∀ a, (![1, 1, 597, 0] : Fin 4 → Nat) a + S1x1x86x128.size a ≤ S8x2x1025x128.size a
  inb_S12x8x32x128_S1x1x32x128_7_2_0_0 : ∀ a, (![7, 2, 0, 0] : Fin 4 → Nat) a + S1x1x32x128.size a ≤ S12x8x32x128.size a
  inb_S8x2x1025x128_S1x1x86x128_2_0_597_0 : ∀ a, (![2, 0, 597, 0] : Fin 4 → Nat) a + S1x1x86x128.size a ≤ S8x2x1025x128.size a
  inb_S8x2x1025x128_S1x1x86x128_2_1_597_0 : ∀ a, (![2, 1, 597, 0] : Fin 4 → Nat) a + S1x1x86x128.size a ≤ S8x2x1025x128.size a
  inb_S12x8x32x128_S1x1x32x128_7_3_0_0 : ∀ a, (![7, 3, 0, 0] : Fin 4 → Nat) a + S1x1x32x128.size a ≤ S12x8x32x128.size a
  inb_S8x2x1025x128_S1x1x86x128_3_0_597_0 : ∀ a, (![3, 0, 597, 0] : Fin 4 → Nat) a + S1x1x86x128.size a ≤ S8x2x1025x128.size a
  inb_S8x2x1025x128_S1x1x86x128_3_1_597_0 : ∀ a, (![3, 1, 597, 0] : Fin 4 → Nat) a + S1x1x86x128.size a ≤ S8x2x1025x128.size a
  inb_S12x8x32x128_S1x1x32x128_7_4_0_0 : ∀ a, (![7, 4, 0, 0] : Fin 4 → Nat) a + S1x1x32x128.size a ≤ S12x8x32x128.size a
  inb_S8x2x1025x128_S1x1x86x128_4_0_597_0 : ∀ a, (![4, 0, 597, 0] : Fin 4 → Nat) a + S1x1x86x128.size a ≤ S8x2x1025x128.size a
  inb_S8x2x1025x128_S1x1x86x128_4_1_597_0 : ∀ a, (![4, 1, 597, 0] : Fin 4 → Nat) a + S1x1x86x128.size a ≤ S8x2x1025x128.size a
  inb_S12x8x32x128_S1x1x32x128_7_5_0_0 : ∀ a, (![7, 5, 0, 0] : Fin 4 → Nat) a + S1x1x32x128.size a ≤ S12x8x32x128.size a
  inb_S8x2x1025x128_S1x1x86x128_5_0_597_0 : ∀ a, (![5, 0, 597, 0] : Fin 4 → Nat) a + S1x1x86x128.size a ≤ S8x2x1025x128.size a
  inb_S8x2x1025x128_S1x1x86x128_5_1_597_0 : ∀ a, (![5, 1, 597, 0] : Fin 4 → Nat) a + S1x1x86x128.size a ≤ S8x2x1025x128.size a
  inb_S12x8x32x128_S1x1x32x128_7_6_0_0 : ∀ a, (![7, 6, 0, 0] : Fin 4 → Nat) a + S1x1x32x128.size a ≤ S12x8x32x128.size a
  inb_S8x2x1025x128_S1x1x86x128_6_0_597_0 : ∀ a, (![6, 0, 597, 0] : Fin 4 → Nat) a + S1x1x86x128.size a ≤ S8x2x1025x128.size a
  inb_S8x2x1025x128_S1x1x86x128_6_1_597_0 : ∀ a, (![6, 1, 597, 0] : Fin 4 → Nat) a + S1x1x86x128.size a ≤ S8x2x1025x128.size a
  inb_S12x8x32x128_S1x1x32x128_7_7_0_0 : ∀ a, (![7, 7, 0, 0] : Fin 4 → Nat) a + S1x1x32x128.size a ≤ S12x8x32x128.size a
  inb_S8x2x1025x128_S1x1x86x128_7_0_597_0 : ∀ a, (![7, 0, 597, 0] : Fin 4 → Nat) a + S1x1x86x128.size a ≤ S8x2x1025x128.size a
  inb_S8x2x1025x128_S1x1x86x128_7_1_597_0 : ∀ a, (![7, 1, 597, 0] : Fin 4 → Nat) a + S1x1x86x128.size a ≤ S8x2x1025x128.size a
  inb_S12x8x32x128_S1x1x32x128_8_0_0_0 : ∀ a, (![8, 0, 0, 0] : Fin 4 → Nat) a + S1x1x32x128.size a ≤ S12x8x32x128.size a
  inb_S8x2x1025x128_S1x1x85x128_0_0_683_0 : ∀ a, (![0, 0, 683, 0] : Fin 4 → Nat) a + S1x1x85x128.size a ≤ S8x2x1025x128.size a
  inb_S8x2x1025x128_S1x1x85x128_0_1_683_0 : ∀ a, (![0, 1, 683, 0] : Fin 4 → Nat) a + S1x1x85x128.size a ≤ S8x2x1025x128.size a
  inb_S12x8x32x128_S1x1x32x128_8_1_0_0 : ∀ a, (![8, 1, 0, 0] : Fin 4 → Nat) a + S1x1x32x128.size a ≤ S12x8x32x128.size a
  inb_S8x2x1025x128_S1x1x85x128_1_0_683_0 : ∀ a, (![1, 0, 683, 0] : Fin 4 → Nat) a + S1x1x85x128.size a ≤ S8x2x1025x128.size a
  inb_S8x2x1025x128_S1x1x85x128_1_1_683_0 : ∀ a, (![1, 1, 683, 0] : Fin 4 → Nat) a + S1x1x85x128.size a ≤ S8x2x1025x128.size a
  inb_S12x8x32x128_S1x1x32x128_8_2_0_0 : ∀ a, (![8, 2, 0, 0] : Fin 4 → Nat) a + S1x1x32x128.size a ≤ S12x8x32x128.size a
  inb_S8x2x1025x128_S1x1x85x128_2_0_683_0 : ∀ a, (![2, 0, 683, 0] : Fin 4 → Nat) a + S1x1x85x128.size a ≤ S8x2x1025x128.size a
  inb_S8x2x1025x128_S1x1x85x128_2_1_683_0 : ∀ a, (![2, 1, 683, 0] : Fin 4 → Nat) a + S1x1x85x128.size a ≤ S8x2x1025x128.size a
  inb_S12x8x32x128_S1x1x32x128_8_3_0_0 : ∀ a, (![8, 3, 0, 0] : Fin 4 → Nat) a + S1x1x32x128.size a ≤ S12x8x32x128.size a
  inb_S8x2x1025x128_S1x1x85x128_3_0_683_0 : ∀ a, (![3, 0, 683, 0] : Fin 4 → Nat) a + S1x1x85x128.size a ≤ S8x2x1025x128.size a
  inb_S8x2x1025x128_S1x1x85x128_3_1_683_0 : ∀ a, (![3, 1, 683, 0] : Fin 4 → Nat) a + S1x1x85x128.size a ≤ S8x2x1025x128.size a
  inb_S12x8x32x128_S1x1x32x128_8_4_0_0 : ∀ a, (![8, 4, 0, 0] : Fin 4 → Nat) a + S1x1x32x128.size a ≤ S12x8x32x128.size a
  inb_S8x2x1025x128_S1x1x85x128_4_0_683_0 : ∀ a, (![4, 0, 683, 0] : Fin 4 → Nat) a + S1x1x85x128.size a ≤ S8x2x1025x128.size a
  inb_S8x2x1025x128_S1x1x85x128_4_1_683_0 : ∀ a, (![4, 1, 683, 0] : Fin 4 → Nat) a + S1x1x85x128.size a ≤ S8x2x1025x128.size a
  inb_S12x8x32x128_S1x1x32x128_8_5_0_0 : ∀ a, (![8, 5, 0, 0] : Fin 4 → Nat) a + S1x1x32x128.size a ≤ S12x8x32x128.size a
  inb_S8x2x1025x128_S1x1x85x128_5_0_683_0 : ∀ a, (![5, 0, 683, 0] : Fin 4 → Nat) a + S1x1x85x128.size a ≤ S8x2x1025x128.size a
  inb_S8x2x1025x128_S1x1x85x128_5_1_683_0 : ∀ a, (![5, 1, 683, 0] : Fin 4 → Nat) a + S1x1x85x128.size a ≤ S8x2x1025x128.size a
  inb_S12x8x32x128_S1x1x32x128_8_6_0_0 : ∀ a, (![8, 6, 0, 0] : Fin 4 → Nat) a + S1x1x32x128.size a ≤ S12x8x32x128.size a
  inb_S8x2x1025x128_S1x1x85x128_6_0_683_0 : ∀ a, (![6, 0, 683, 0] : Fin 4 → Nat) a + S1x1x85x128.size a ≤ S8x2x1025x128.size a
  inb_S8x2x1025x128_S1x1x85x128_6_1_683_0 : ∀ a, (![6, 1, 683, 0] : Fin 4 → Nat) a + S1x1x85x128.size a ≤ S8x2x1025x128.size a
  inb_S12x8x32x128_S1x1x32x128_8_7_0_0 : ∀ a, (![8, 7, 0, 0] : Fin 4 → Nat) a + S1x1x32x128.size a ≤ S12x8x32x128.size a
  inb_S8x2x1025x128_S1x1x85x128_7_0_683_0 : ∀ a, (![7, 0, 683, 0] : Fin 4 → Nat) a + S1x1x85x128.size a ≤ S8x2x1025x128.size a
  inb_S8x2x1025x128_S1x1x85x128_7_1_683_0 : ∀ a, (![7, 1, 683, 0] : Fin 4 → Nat) a + S1x1x85x128.size a ≤ S8x2x1025x128.size a
  inb_S12x8x32x128_S1x1x32x128_9_0_0_0 : ∀ a, (![9, 0, 0, 0] : Fin 4 → Nat) a + S1x1x32x128.size a ≤ S12x8x32x128.size a
  inb_S8x2x1025x128_S1x1x86x128_0_0_768_0 : ∀ a, (![0, 0, 768, 0] : Fin 4 → Nat) a + S1x1x86x128.size a ≤ S8x2x1025x128.size a
  inb_S8x2x1025x128_S1x1x86x128_0_1_768_0 : ∀ a, (![0, 1, 768, 0] : Fin 4 → Nat) a + S1x1x86x128.size a ≤ S8x2x1025x128.size a
  inb_S12x8x32x128_S1x1x32x128_9_1_0_0 : ∀ a, (![9, 1, 0, 0] : Fin 4 → Nat) a + S1x1x32x128.size a ≤ S12x8x32x128.size a
  inb_S8x2x1025x128_S1x1x86x128_1_0_768_0 : ∀ a, (![1, 0, 768, 0] : Fin 4 → Nat) a + S1x1x86x128.size a ≤ S8x2x1025x128.size a
  inb_S8x2x1025x128_S1x1x86x128_1_1_768_0 : ∀ a, (![1, 1, 768, 0] : Fin 4 → Nat) a + S1x1x86x128.size a ≤ S8x2x1025x128.size a
  inb_S12x8x32x128_S1x1x32x128_9_2_0_0 : ∀ a, (![9, 2, 0, 0] : Fin 4 → Nat) a + S1x1x32x128.size a ≤ S12x8x32x128.size a
  inb_S8x2x1025x128_S1x1x86x128_2_0_768_0 : ∀ a, (![2, 0, 768, 0] : Fin 4 → Nat) a + S1x1x86x128.size a ≤ S8x2x1025x128.size a
  inb_S8x2x1025x128_S1x1x86x128_2_1_768_0 : ∀ a, (![2, 1, 768, 0] : Fin 4 → Nat) a + S1x1x86x128.size a ≤ S8x2x1025x128.size a
  inb_S12x8x32x128_S1x1x32x128_9_3_0_0 : ∀ a, (![9, 3, 0, 0] : Fin 4 → Nat) a + S1x1x32x128.size a ≤ S12x8x32x128.size a
  inb_S8x2x1025x128_S1x1x86x128_3_0_768_0 : ∀ a, (![3, 0, 768, 0] : Fin 4 → Nat) a + S1x1x86x128.size a ≤ S8x2x1025x128.size a
  inb_S8x2x1025x128_S1x1x86x128_3_1_768_0 : ∀ a, (![3, 1, 768, 0] : Fin 4 → Nat) a + S1x1x86x128.size a ≤ S8x2x1025x128.size a
  inb_S12x8x32x128_S1x1x32x128_9_4_0_0 : ∀ a, (![9, 4, 0, 0] : Fin 4 → Nat) a + S1x1x32x128.size a ≤ S12x8x32x128.size a
  inb_S8x2x1025x128_S1x1x86x128_4_0_768_0 : ∀ a, (![4, 0, 768, 0] : Fin 4 → Nat) a + S1x1x86x128.size a ≤ S8x2x1025x128.size a
  inb_S8x2x1025x128_S1x1x86x128_4_1_768_0 : ∀ a, (![4, 1, 768, 0] : Fin 4 → Nat) a + S1x1x86x128.size a ≤ S8x2x1025x128.size a
  inb_S12x8x32x128_S1x1x32x128_9_5_0_0 : ∀ a, (![9, 5, 0, 0] : Fin 4 → Nat) a + S1x1x32x128.size a ≤ S12x8x32x128.size a
  inb_S8x2x1025x128_S1x1x86x128_5_0_768_0 : ∀ a, (![5, 0, 768, 0] : Fin 4 → Nat) a + S1x1x86x128.size a ≤ S8x2x1025x128.size a
  inb_S8x2x1025x128_S1x1x86x128_5_1_768_0 : ∀ a, (![5, 1, 768, 0] : Fin 4 → Nat) a + S1x1x86x128.size a ≤ S8x2x1025x128.size a
  inb_S12x8x32x128_S1x1x32x128_9_6_0_0 : ∀ a, (![9, 6, 0, 0] : Fin 4 → Nat) a + S1x1x32x128.size a ≤ S12x8x32x128.size a
  inb_S8x2x1025x128_S1x1x86x128_6_0_768_0 : ∀ a, (![6, 0, 768, 0] : Fin 4 → Nat) a + S1x1x86x128.size a ≤ S8x2x1025x128.size a
  inb_S8x2x1025x128_S1x1x86x128_6_1_768_0 : ∀ a, (![6, 1, 768, 0] : Fin 4 → Nat) a + S1x1x86x128.size a ≤ S8x2x1025x128.size a
  inb_S12x8x32x128_S1x1x32x128_9_7_0_0 : ∀ a, (![9, 7, 0, 0] : Fin 4 → Nat) a + S1x1x32x128.size a ≤ S12x8x32x128.size a
  inb_S8x2x1025x128_S1x1x86x128_7_0_768_0 : ∀ a, (![7, 0, 768, 0] : Fin 4 → Nat) a + S1x1x86x128.size a ≤ S8x2x1025x128.size a
  inb_S8x2x1025x128_S1x1x86x128_7_1_768_0 : ∀ a, (![7, 1, 768, 0] : Fin 4 → Nat) a + S1x1x86x128.size a ≤ S8x2x1025x128.size a
  inb_S12x8x32x128_S1x1x32x128_10_0_0_0 : ∀ a, (![10, 0, 0, 0] : Fin 4 → Nat) a + S1x1x32x128.size a ≤ S12x8x32x128.size a
  inb_S8x2x1025x128_S1x1x85x128_0_0_854_0 : ∀ a, (![0, 0, 854, 0] : Fin 4 → Nat) a + S1x1x85x128.size a ≤ S8x2x1025x128.size a
  inb_S8x2x1025x128_S1x1x85x128_0_1_854_0 : ∀ a, (![0, 1, 854, 0] : Fin 4 → Nat) a + S1x1x85x128.size a ≤ S8x2x1025x128.size a
  inb_S12x8x32x128_S1x1x32x128_10_1_0_0 : ∀ a, (![10, 1, 0, 0] : Fin 4 → Nat) a + S1x1x32x128.size a ≤ S12x8x32x128.size a
  inb_S8x2x1025x128_S1x1x85x128_1_0_854_0 : ∀ a, (![1, 0, 854, 0] : Fin 4 → Nat) a + S1x1x85x128.size a ≤ S8x2x1025x128.size a
  inb_S8x2x1025x128_S1x1x85x128_1_1_854_0 : ∀ a, (![1, 1, 854, 0] : Fin 4 → Nat) a + S1x1x85x128.size a ≤ S8x2x1025x128.size a
  inb_S12x8x32x128_S1x1x32x128_10_2_0_0 : ∀ a, (![10, 2, 0, 0] : Fin 4 → Nat) a + S1x1x32x128.size a ≤ S12x8x32x128.size a
  inb_S8x2x1025x128_S1x1x85x128_2_0_854_0 : ∀ a, (![2, 0, 854, 0] : Fin 4 → Nat) a + S1x1x85x128.size a ≤ S8x2x1025x128.size a
  inb_S8x2x1025x128_S1x1x85x128_2_1_854_0 : ∀ a, (![2, 1, 854, 0] : Fin 4 → Nat) a + S1x1x85x128.size a ≤ S8x2x1025x128.size a
  inb_S12x8x32x128_S1x1x32x128_10_3_0_0 : ∀ a, (![10, 3, 0, 0] : Fin 4 → Nat) a + S1x1x32x128.size a ≤ S12x8x32x128.size a
  inb_S8x2x1025x128_S1x1x85x128_3_0_854_0 : ∀ a, (![3, 0, 854, 0] : Fin 4 → Nat) a + S1x1x85x128.size a ≤ S8x2x1025x128.size a
  inb_S8x2x1025x128_S1x1x85x128_3_1_854_0 : ∀ a, (![3, 1, 854, 0] : Fin 4 → Nat) a + S1x1x85x128.size a ≤ S8x2x1025x128.size a
  inb_S12x8x32x128_S1x1x32x128_10_4_0_0 : ∀ a, (![10, 4, 0, 0] : Fin 4 → Nat) a + S1x1x32x128.size a ≤ S12x8x32x128.size a
  inb_S8x2x1025x128_S1x1x85x128_4_0_854_0 : ∀ a, (![4, 0, 854, 0] : Fin 4 → Nat) a + S1x1x85x128.size a ≤ S8x2x1025x128.size a
  inb_S8x2x1025x128_S1x1x85x128_4_1_854_0 : ∀ a, (![4, 1, 854, 0] : Fin 4 → Nat) a + S1x1x85x128.size a ≤ S8x2x1025x128.size a
  inb_S12x8x32x128_S1x1x32x128_10_5_0_0 : ∀ a, (![10, 5, 0, 0] : Fin 4 → Nat) a + S1x1x32x128.size a ≤ S12x8x32x128.size a
  inb_S8x2x1025x128_S1x1x85x128_5_0_854_0 : ∀ a, (![5, 0, 854, 0] : Fin 4 → Nat) a + S1x1x85x128.size a ≤ S8x2x1025x128.size a
  inb_S8x2x1025x128_S1x1x85x128_5_1_854_0 : ∀ a, (![5, 1, 854, 0] : Fin 4 → Nat) a + S1x1x85x128.size a ≤ S8x2x1025x128.size a
  inb_S12x8x32x128_S1x1x32x128_10_6_0_0 : ∀ a, (![10, 6, 0, 0] : Fin 4 → Nat) a + S1x1x32x128.size a ≤ S12x8x32x128.size a
  inb_S8x2x1025x128_S1x1x85x128_6_0_854_0 : ∀ a, (![6, 0, 854, 0] : Fin 4 → Nat) a + S1x1x85x128.size a ≤ S8x2x1025x128.size a
  inb_S8x2x1025x128_S1x1x85x128_6_1_854_0 : ∀ a, (![6, 1, 854, 0] : Fin 4 → Nat) a + S1x1x85x128.size a ≤ S8x2x1025x128.size a
  inb_S12x8x32x128_S1x1x32x128_10_7_0_0 : ∀ a, (![10, 7, 0, 0] : Fin 4 → Nat) a + S1x1x32x128.size a ≤ S12x8x32x128.size a
  inb_S8x2x1025x128_S1x1x85x128_7_0_854_0 : ∀ a, (![7, 0, 854, 0] : Fin 4 → Nat) a + S1x1x85x128.size a ≤ S8x2x1025x128.size a
  inb_S8x2x1025x128_S1x1x85x128_7_1_854_0 : ∀ a, (![7, 1, 854, 0] : Fin 4 → Nat) a + S1x1x85x128.size a ≤ S8x2x1025x128.size a
  inb_S12x8x32x128_S1x1x32x128_11_0_0_0 : ∀ a, (![11, 0, 0, 0] : Fin 4 → Nat) a + S1x1x32x128.size a ≤ S12x8x32x128.size a
  inb_S8x2x1025x128_S1x1x86x128_0_0_939_0 : ∀ a, (![0, 0, 939, 0] : Fin 4 → Nat) a + S1x1x86x128.size a ≤ S8x2x1025x128.size a
  inb_S8x2x1025x128_S1x1x86x128_0_1_939_0 : ∀ a, (![0, 1, 939, 0] : Fin 4 → Nat) a + S1x1x86x128.size a ≤ S8x2x1025x128.size a
  inb_S12x8x32x128_S1x1x32x128_11_1_0_0 : ∀ a, (![11, 1, 0, 0] : Fin 4 → Nat) a + S1x1x32x128.size a ≤ S12x8x32x128.size a
  inb_S8x2x1025x128_S1x1x86x128_1_0_939_0 : ∀ a, (![1, 0, 939, 0] : Fin 4 → Nat) a + S1x1x86x128.size a ≤ S8x2x1025x128.size a
  inb_S8x2x1025x128_S1x1x86x128_1_1_939_0 : ∀ a, (![1, 1, 939, 0] : Fin 4 → Nat) a + S1x1x86x128.size a ≤ S8x2x1025x128.size a
  inb_S12x8x32x128_S1x1x32x128_11_2_0_0 : ∀ a, (![11, 2, 0, 0] : Fin 4 → Nat) a + S1x1x32x128.size a ≤ S12x8x32x128.size a
  inb_S8x2x1025x128_S1x1x86x128_2_0_939_0 : ∀ a, (![2, 0, 939, 0] : Fin 4 → Nat) a + S1x1x86x128.size a ≤ S8x2x1025x128.size a
  inb_S8x2x1025x128_S1x1x86x128_2_1_939_0 : ∀ a, (![2, 1, 939, 0] : Fin 4 → Nat) a + S1x1x86x128.size a ≤ S8x2x1025x128.size a
  inb_S12x8x32x128_S1x1x32x128_11_3_0_0 : ∀ a, (![11, 3, 0, 0] : Fin 4 → Nat) a + S1x1x32x128.size a ≤ S12x8x32x128.size a
  inb_S8x2x1025x128_S1x1x86x128_3_0_939_0 : ∀ a, (![3, 0, 939, 0] : Fin 4 → Nat) a + S1x1x86x128.size a ≤ S8x2x1025x128.size a
  inb_S8x2x1025x128_S1x1x86x128_3_1_939_0 : ∀ a, (![3, 1, 939, 0] : Fin 4 → Nat) a + S1x1x86x128.size a ≤ S8x2x1025x128.size a
  inb_S12x8x32x128_S1x1x32x128_11_4_0_0 : ∀ a, (![11, 4, 0, 0] : Fin 4 → Nat) a + S1x1x32x128.size a ≤ S12x8x32x128.size a
  inb_S8x2x1025x128_S1x1x86x128_4_0_939_0 : ∀ a, (![4, 0, 939, 0] : Fin 4 → Nat) a + S1x1x86x128.size a ≤ S8x2x1025x128.size a
  inb_S8x2x1025x128_S1x1x86x128_4_1_939_0 : ∀ a, (![4, 1, 939, 0] : Fin 4 → Nat) a + S1x1x86x128.size a ≤ S8x2x1025x128.size a
  inb_S12x8x32x128_S1x1x32x128_11_5_0_0 : ∀ a, (![11, 5, 0, 0] : Fin 4 → Nat) a + S1x1x32x128.size a ≤ S12x8x32x128.size a
  inb_S8x2x1025x128_S1x1x86x128_5_0_939_0 : ∀ a, (![5, 0, 939, 0] : Fin 4 → Nat) a + S1x1x86x128.size a ≤ S8x2x1025x128.size a
  inb_S8x2x1025x128_S1x1x86x128_5_1_939_0 : ∀ a, (![5, 1, 939, 0] : Fin 4 → Nat) a + S1x1x86x128.size a ≤ S8x2x1025x128.size a
  inb_S12x8x32x128_S1x1x32x128_11_6_0_0 : ∀ a, (![11, 6, 0, 0] : Fin 4 → Nat) a + S1x1x32x128.size a ≤ S12x8x32x128.size a
  inb_S8x2x1025x128_S1x1x86x128_6_0_939_0 : ∀ a, (![6, 0, 939, 0] : Fin 4 → Nat) a + S1x1x86x128.size a ≤ S8x2x1025x128.size a
  inb_S8x2x1025x128_S1x1x86x128_6_1_939_0 : ∀ a, (![6, 1, 939, 0] : Fin 4 → Nat) a + S1x1x86x128.size a ≤ S8x2x1025x128.size a
  inb_S12x8x32x128_S1x1x32x128_11_7_0_0 : ∀ a, (![11, 7, 0, 0] : Fin 4 → Nat) a + S1x1x32x128.size a ≤ S12x8x32x128.size a
  inb_S8x2x1025x128_S1x1x86x128_7_0_939_0 : ∀ a, (![7, 0, 939, 0] : Fin 4 → Nat) a + S1x1x86x128.size a ≤ S8x2x1025x128.size a
  inb_S8x2x1025x128_S1x1x86x128_7_1_939_0 : ∀ a, (![7, 1, 939, 0] : Fin 4 → Nat) a + S1x1x86x128.size a ≤ S8x2x1025x128.size a
  dot_S170x32_S32x128_S170x128_1_0_0_1_n_n_wf : DotDims.WF S170x32 S32x128 S170x128 [1] [0] [0] [1] [] []
  dot_S172x32_S32x128_S172x128_1_0_0_1_n_n_wf : DotDims.WF S172x32 S32x128 S172x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x8x32x128.size a ≤ S12x8x32x4096.size a
  hwx0_0 : ∀ i : grid0.Coords, EltTy.bits .f32 = 32 ∨ (Rect.block (s := S12x8x32x4096) S12x8x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S170x32.size a ≤ S170x32.size a
  hwx0_1 : ∀ i : grid0.Coords, EltTy.bits .f32 = 32 ∨ (Rect.block (s := S170x32) S170x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S170.size a ≤ S170.size a
  hwx0_2 : ∀ i : grid0.Coords, EltTy.bits .f32 = 32 ∨ (Rect.block (s := S170) S170.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S170x32.size a ≤ S170x32.size a
  hwx0_3 : ∀ i : grid0.Coords, EltTy.bits .f32 = 32 ∨ (Rect.block (s := S170x32) S170x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S170.size a ≤ S170.size a
  hwx0_4 : ∀ i : grid0.Coords, EltTy.bits .f32 = 32 ∨ (Rect.block (s := S170) S170.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S172x32.size a ≤ S172x32.size a
  hwx0_5 : ∀ i : grid0.Coords, EltTy.bits .f32 = 32 ∨ (Rect.block (s := S172x32) S172x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S172.size a ≤ S172.size a
  hwx0_6 : ∀ i : grid0.Coords, EltTy.bits .f32 = 32 ∨ (Rect.block (s := S172) S172.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S170x32.size a ≤ S170x32.size a
  hwx0_7 : ∀ i : grid0.Coords, EltTy.bits .f32 = 32 ∨ (Rect.block (s := S170x32) S170x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S170.size a ≤ S170.size a
  hwx0_8 : ∀ i : grid0.Coords, EltTy.bits .f32 = 32 ∨ (Rect.block (s := S170) S170.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172x32.size a ≤ S172x32.size a
  hwx0_9 : ∀ i : grid0.Coords, EltTy.bits .f32 = 32 ∨ (Rect.block (s := S172x32) S172x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S172.size a ≤ S172.size a
  hwx0_10 : ∀ i : grid0.Coords, EltTy.bits .f32 = 32 ∨ (Rect.block (s := S172) S172.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S170x32.size a ≤ S170x32.size a
  hwx0_11 : ∀ i : grid0.Coords, EltTy.bits .f32 = 32 ∨ (Rect.block (s := S170x32) S170x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S170.size a ≤ S170.size a
  hwx0_12 : ∀ i : grid0.Coords, EltTy.bits .f32 = 32 ∨ (Rect.block (s := S170) S170.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S170x32.size a ≤ S170x32.size a
  hwx0_13 : ∀ i : grid0.Coords, EltTy.bits .f32 = 32 ∨ (Rect.block (s := S170x32) S170x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S170.size a ≤ S170.size a
  hwx0_14 : ∀ i : grid0.Coords, EltTy.bits .f32 = 32 ∨ (Rect.block (s := S170) S170.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S172x32.size a ≤ S172x32.size a
  hwx0_15 : ∀ i : grid0.Coords, EltTy.bits .f32 = 32 ∨ (Rect.block (s := S172x32) S172x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S172.size a ≤ S172.size a
  hwx0_16 : ∀ i : grid0.Coords, EltTy.bits .f32 = 32 ∨ (Rect.block (s := S172) S172.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S170x32.size a ≤ S170x32.size a
  hwx0_17 : ∀ i : grid0.Coords, EltTy.bits .f32 = 32 ∨ (Rect.block (s := S170x32) S170x32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S170.size a ≤ S170.size a
  hwx0_18 : ∀ i : grid0.Coords, EltTy.bits .f32 = 32 ∨ (Rect.block (s := S170) S170.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S172x32.size a ≤ S172x32.size a
  hwx0_19 : ∀ i : grid0.Coords, EltTy.bits .f32 = 32 ∨ (Rect.block (s := S172x32) S172x32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S172.size a ≤ S172.size a
  hwx0_20 : ∀ i : grid0.Coords, EltTy.bits .f32 = 32 ∨ (Rect.block (s := S172) S172.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S170x32.size a ≤ S170x32.size a
  hwx0_21 : ∀ i : grid0.Coords, EltTy.bits .f32 = 32 ∨ (Rect.block (s := S170x32) S170x32.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S170.size a ≤ S170.size a
  hwx0_22 : ∀ i : grid0.Coords, EltTy.bits .f32 = 32 ∨ (Rect.block (s := S170) S170.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S172x32.size a ≤ S172x32.size a
  hwx0_23 : ∀ i : grid0.Coords, EltTy.bits .f32 = 32 ∨ (Rect.block (s := S172x32) S172x32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S172.size a ≤ S172.size a
  hwx0_24 : ∀ i : grid0.Coords, EltTy.bits .f32 = 32 ∨ (Rect.block (s := S172) S172.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S8x2x1025x128.size a ≤ S8x2x1025x4096.size a
  hwx0_25 : ∀ i : grid0.Coords, EltTy.bits .f32 = 32 ∨ (Rect.block (s := S8x2x1025x4096) S8x2x1025x128.size (cc0_transform_25 i) (hinb0_25 i)).WholeWords (EltTy.packing .f32)

variable [Facts₀]

def dot_S170x32_S32x128_S170x128_1_0_0_1_n_n : DotDims S170x32 S32x128 S170x128 where
  lhsContracting := [1]
  rhsContracting := [0]
  lhsNonContracting := [0]
  rhsNonContracting := [1]
  lhsBatch := []
  rhsBatch := []
  wf := dot_S170x32_S32x128_S170x128_1_0_0_1_n_n_wf
def dot_S172x32_S32x128_S172x128_1_0_0_1_n_n : DotDims S172x32 S32x128 S172x128 where
  lhsContracting := [1]
  rhsContracting := [0]
  lhsNonContracting := [0]
  rhsNonContracting := [1]
  lhsBatch := []
  rhsBatch := []
  wf := dot_S172x32_S32x128_S172x128_1_0_0_1_n_n_wf

abbrev win0_0 : Pipeline.Window sig grid0 :=
  Pipeline.Window.ofSpec (Memref.whole main_v2) S12x8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S170x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S170.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S170x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S170.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S172x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S172.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S170x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S170.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S172x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S172.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S170x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S170.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S170x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S170.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S172x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S172.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S170x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S170.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S172x32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S172.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S170x32.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S170.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S172x32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S172.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v3) S8x2x1025x128.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S8x32x12x4096 : Shape := ⟨4, ![8, 32, 12, 4096]⟩
abbrev S8x4096x12x32 : Shape := ⟨4, ![8, 4096, 12, 32]⟩
abbrev S8x4096x1x32 : Shape := ⟨4, ![8, 4096, 1, 32]⟩
abbrev S8x4096x32 : Shape := ⟨3, ![8, 4096, 32]⟩
abbrev S8x4096x170 : Shape := ⟨3, ![8, 4096, 170]⟩
abbrev S1x1x170 : Shape := ⟨3, ![1, 1, 170]⟩
abbrev S8x4096x2x85 : Shape := ⟨4, ![8, 4096, 2, 85]⟩
abbrev S8x2x85x4096 : Shape := ⟨4, ![8, 2, 85, 4096]⟩
abbrev S8x4096x172 : Shape := ⟨3, ![8, 4096, 172]⟩
abbrev S1x1x172 : Shape := ⟨3, ![1, 1, 172]⟩
abbrev S8x4096x2x86 : Shape := ⟨4, ![8, 4096, 2, 86]⟩
abbrev S8x2x86x4096 : Shape := ⟨4, ![8, 2, 86, 4096]⟩
abbrev S8x2x1025x4096 : Shape := ⟨4, ![8, 2, 1025, 4096]⟩

abbrev nBuf : Space → Nat
  | .hbm => 124
  | .vmem => 0
  | .smem => 0
  | _ => 0

abbrev bufTy : (tb : Table) → Fin (tcTables nBuf tb) → BufTy
  | .hbm, ⟨0, _⟩ => ⟨S8x384x1x4096, .f32⟩
  | .hbm, ⟨1, _⟩ => ⟨S170x32, .f32⟩
  | .hbm, ⟨2, _⟩ => ⟨S170, .f32⟩
  | .hbm, ⟨3, _⟩ => ⟨S170x32, .f32⟩
  | .hbm, ⟨4, _⟩ => ⟨S170, .f32⟩
  | .hbm, ⟨5, _⟩ => ⟨S172x32, .f32⟩
  | .hbm, ⟨6, _⟩ => ⟨S172, .f32⟩
  | .hbm, ⟨7, _⟩ => ⟨S170x32, .f32⟩
  | .hbm, ⟨8, _⟩ => ⟨S170, .f32⟩
  | .hbm, ⟨9, _⟩ => ⟨S172x32, .f32⟩
  | .hbm, ⟨10, _⟩ => ⟨S172, .f32⟩
  | .hbm, ⟨11, _⟩ => ⟨S170x32, .f32⟩
  | .hbm, ⟨12, _⟩ => ⟨S170, .f32⟩
  | .hbm, ⟨13, _⟩ => ⟨S170x32, .f32⟩
  | .hbm, ⟨14, _⟩ => ⟨S170, .f32⟩
  | .hbm, ⟨15, _⟩ => ⟨S172x32, .f32⟩
  | .hbm, ⟨16, _⟩ => ⟨S172, .f32⟩
  | .hbm, ⟨17, _⟩ => ⟨S170x32, .f32⟩
  | .hbm, ⟨18, _⟩ => ⟨S170, .f32⟩
  | .hbm, ⟨19, _⟩ => ⟨S172x32, .f32⟩
  | .hbm, ⟨20, _⟩ => ⟨S172, .f32⟩
  | .hbm, ⟨21, _⟩ => ⟨S170x32, .f32⟩
  | .hbm, ⟨22, _⟩ => ⟨S170, .f32⟩
  | .hbm, ⟨23, _⟩ => ⟨S172x32, .f32⟩
  | .hbm, ⟨24, _⟩ => ⟨S172, .f32⟩
  | .hbm, ⟨25, _⟩ => ⟨S8x32x12x4096, .f32⟩
  | .hbm, ⟨26, _⟩ => ⟨S8x4096x12x32, .f32⟩
  | .hbm, ⟨27, _⟩ => ⟨S8x4096x1x32, .f32⟩
  | .hbm, ⟨28, _⟩ => ⟨S8x4096x32, .f32⟩
  | .hbm, ⟨29, _⟩ => ⟨S8x4096x170, .f32⟩
  | .hbm, ⟨30, _⟩ => ⟨S1x1x170, .f32⟩
  | .hbm, ⟨31, _⟩ => ⟨S8x4096x170, .f32⟩
  | .hbm, ⟨32, _⟩ => ⟨S8x4096x170, .f32⟩
  | .hbm, ⟨33, _⟩ => ⟨S8x4096x2x85, .f32⟩
  | .hbm, ⟨34, _⟩ => ⟨S8x2x85x4096, .f32⟩
  | .hbm, ⟨35, _⟩ => ⟨S8x4096x1x32, .f32⟩
  | .hbm, ⟨36, _⟩ => ⟨S8x4096x32, .f32⟩
  | .hbm, ⟨37, _⟩ => ⟨S8x4096x170, .f32⟩
  | .hbm, ⟨38, _⟩ => ⟨S1x1x170, .f32⟩
  | .hbm, ⟨39, _⟩ => ⟨S8x4096x170, .f32⟩
  | .hbm, ⟨40, _⟩ => ⟨S8x4096x170, .f32⟩
  | .hbm, ⟨41, _⟩ => ⟨S8x4096x2x85, .f32⟩
  | .hbm, ⟨42, _⟩ => ⟨S8x2x85x4096, .f32⟩
  | .hbm, ⟨43, _⟩ => ⟨S8x4096x1x32, .f32⟩
  | .hbm, ⟨44, _⟩ => ⟨S8x4096x32, .f32⟩
  | .hbm, ⟨45, _⟩ => ⟨S8x4096x172, .f32⟩
  | .hbm, ⟨46, _⟩ => ⟨S1x1x172, .f32⟩
  | .hbm, ⟨47, _⟩ => ⟨S8x4096x172, .f32⟩
  | .hbm, ⟨48, _⟩ => ⟨S8x4096x172, .f32⟩
  | .hbm, ⟨49, _⟩ => ⟨S8x4096x2x86, .f32⟩
  | .hbm, ⟨50, _⟩ => ⟨S8x2x86x4096, .f32⟩
  | .hbm, ⟨51, _⟩ => ⟨S8x4096x1x32, .f32⟩
  | .hbm, ⟨52, _⟩ => ⟨S8x4096x32, .f32⟩
  | .hbm, ⟨53, _⟩ => ⟨S8x4096x170, .f32⟩
  | .hbm, ⟨54, _⟩ => ⟨S1x1x170, .f32⟩
  | .hbm, ⟨55, _⟩ => ⟨S8x4096x170, .f32⟩
  | .hbm, ⟨56, _⟩ => ⟨S8x4096x170, .f32⟩
  | .hbm, ⟨57, _⟩ => ⟨S8x4096x2x85, .f32⟩
  | .hbm, ⟨58, _⟩ => ⟨S8x2x85x4096, .f32⟩
  | .hbm, ⟨59, _⟩ => ⟨S8x4096x1x32, .f32⟩
  | .hbm, ⟨60, _⟩ => ⟨S8x4096x32, .f32⟩
  | .hbm, ⟨61, _⟩ => ⟨S8x4096x172, .f32⟩
  | .hbm, ⟨62, _⟩ => ⟨S1x1x172, .f32⟩
  | .hbm, ⟨63, _⟩ => ⟨S8x4096x172, .f32⟩
  | .hbm, ⟨64, _⟩ => ⟨S8x4096x172, .f32⟩
  | .hbm, ⟨65, _⟩ => ⟨S8x4096x2x86, .f32⟩
  | .hbm, ⟨66, _⟩ => ⟨S8x2x86x4096, .f32⟩
  | .hbm, ⟨67, _⟩ => ⟨S8x4096x1x32, .f32⟩
  | .hbm, ⟨68, _⟩ => ⟨S8x4096x32, .f32⟩
  | .hbm, ⟨69, _⟩ => ⟨S8x4096x170, .f32⟩
  | .hbm, ⟨70, _⟩ => ⟨S1x1x170, .f32⟩
  | .hbm, ⟨71, _⟩ => ⟨S8x4096x170, .f32⟩
  | .hbm, ⟨72, _⟩ => ⟨S8x4096x170, .f32⟩
  | .hbm, ⟨73, _⟩ => ⟨S8x4096x2x85, .f32⟩
  | .hbm, ⟨74, _⟩ => ⟨S8x2x85x4096, .f32⟩
  | .hbm, ⟨75, _⟩ => ⟨S8x4096x1x32, .f32⟩
  | .hbm, ⟨76, _⟩ => ⟨S8x4096x32, .f32⟩
  | .hbm, ⟨77, _⟩ => ⟨S8x4096x170, .f32⟩
  | .hbm, ⟨78, _⟩ => ⟨S1x1x170, .f32⟩
  | .hbm, ⟨79, _⟩ => ⟨S8x4096x170, .f32⟩
  | .hbm, ⟨80, _⟩ => ⟨S8x4096x170, .f32⟩
  | .hbm, ⟨81, _⟩ => ⟨S8x4096x2x85, .f32⟩
  | .hbm, ⟨82, _⟩ => ⟨S8x2x85x4096, .f32⟩
  | .hbm, ⟨83, _⟩ => ⟨S8x4096x1x32, .f32⟩
  | .hbm, ⟨84, _⟩ => ⟨S8x4096x32, .f32⟩
  | .hbm, ⟨85, _⟩ => ⟨S8x4096x172, .f32⟩
  | .hbm, ⟨86, _⟩ => ⟨S1x1x172, .f32⟩
  | .hbm, ⟨87, _⟩ => ⟨S8x4096x172, .f32⟩
  | .hbm, ⟨88, _⟩ => ⟨S8x4096x172, .f32⟩
  | .hbm, ⟨89, _⟩ => ⟨S8x4096x2x86, .f32⟩
  | .hbm, ⟨90, _⟩ => ⟨S8x2x86x4096, .f32⟩
  | .hbm, ⟨91, _⟩ => ⟨S8x4096x1x32, .f32⟩
  | .hbm, ⟨92, _⟩ => ⟨S8x4096x32, .f32⟩
  | .hbm, ⟨93, _⟩ => ⟨S8x4096x170, .f32⟩
  | .hbm, ⟨94, _⟩ => ⟨S1x1x170, .f32⟩
  | .hbm, ⟨95, _⟩ => ⟨S8x4096x170, .f32⟩
  | .hbm, ⟨96, _⟩ => ⟨S8x4096x170, .f32⟩
  | .hbm, ⟨97, _⟩ => ⟨S8x4096x2x85, .f32⟩
  | .hbm, ⟨98, _⟩ => ⟨S8x2x85x4096, .f32⟩
  | .hbm, ⟨99, _⟩ => ⟨S8x4096x1x32, .f32⟩
  | .hbm, ⟨100, _⟩ => ⟨S8x4096x32, .f32⟩
  | .hbm, ⟨101, _⟩ => ⟨S8x4096x172, .f32⟩
  | .hbm, ⟨102, _⟩ => ⟨S1x1x172, .f32⟩
  | .hbm, ⟨103, _⟩ => ⟨S8x4096x172, .f32⟩
  | .hbm, ⟨104, _⟩ => ⟨S8x4096x172, .f32⟩
  | .hbm, ⟨105, _⟩ => ⟨S8x4096x2x86, .f32⟩
  | .hbm, ⟨106, _⟩ => ⟨S8x2x86x4096, .f32⟩
  | .hbm, ⟨107, _⟩ => ⟨S8x4096x1x32, .f32⟩
  | .hbm, ⟨108, _⟩ => ⟨S8x4096x32, .f32⟩
  | .hbm, ⟨109, _⟩ => ⟨S8x4096x170, .f32⟩
  | .hbm, ⟨110, _⟩ => ⟨S1x1x170, .f32⟩
  | .hbm, ⟨111, _⟩ => ⟨S8x4096x170, .f32⟩
  | .hbm, ⟨112, _⟩ => ⟨S8x4096x170, .f32⟩
  | .hbm, ⟨113, _⟩ => ⟨S8x4096x2x85, .f32⟩
  | .hbm, ⟨114, _⟩ => ⟨S8x2x85x4096, .f32⟩
  | .hbm, ⟨115, _⟩ => ⟨S8x4096x1x32, .f32⟩
  | .hbm, ⟨116, _⟩ => ⟨S8x4096x32, .f32⟩
  | .hbm, ⟨117, _⟩ => ⟨S8x4096x172, .f32⟩
  | .hbm, ⟨118, _⟩ => ⟨S1x1x172, .f32⟩
  | .hbm, ⟨119, _⟩ => ⟨S8x4096x172, .f32⟩
  | .hbm, ⟨120, _⟩ => ⟨S8x4096x172, .f32⟩
  | .hbm, ⟨121, _⟩ => ⟨S8x4096x2x86, .f32⟩
  | .hbm, ⟨122, _⟩ => ⟨S8x2x86x4096, .f32⟩
  | .hbm, ⟨123, _⟩ => ⟨S8x2x1025x4096, .f32⟩
  | _, _ => ⟨S8x384x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]

class Facts₀ : Prop where
  shapeCasts_S8x384x1x4096_S8x32x12x4096 : S8x384x1x4096.ShapeCasts S8x32x12x4096
  transposes_S8x32x12x4096_S8x4096x12x32_0_3_2_1 : S8x32x12x4096.Transposes [0, 3, 2, 1] S8x4096x12x32
  slices_S8x4096x12x32_S8x4096x1x32_0_0_0_0 : S8x4096x12x32.Slices ![0, 0, 0, 0] S8x4096x1x32
  shapeCasts_S8x4096x1x32_S8x4096x32 : S8x4096x1x32.ShapeCasts S8x4096x32
  bcast_S170_S1x1x170_2 : S170.BroadcastsInDim S1x1x170 (![2] : Fin 1 → Fin S1x1x170.rank)
  bcast_S1x1x170_S8x4096x170_0_1_2 : S1x1x170.BroadcastsInDim S8x4096x170 (![0, 1, 2] : Fin 3 → Fin S8x4096x170.rank)
  shapeCasts_S8x4096x170_S8x4096x2x85 : S8x4096x170.ShapeCasts S8x4096x2x85
  transposes_S8x4096x2x85_S8x2x85x4096_0_2_3_1 : S8x4096x2x85.Transposes [0, 2, 3, 1] S8x2x85x4096
  slices_S8x4096x12x32_S8x4096x1x32_0_0_1_0 : S8x4096x12x32.Slices ![0, 0, 1, 0] S8x4096x1x32
  slices_S8x4096x12x32_S8x4096x1x32_0_0_2_0 : S8x4096x12x32.Slices ![0, 0, 2, 0] S8x4096x1x32
  bcast_S172_S1x1x172_2 : S172.BroadcastsInDim S1x1x172 (![2] : Fin 1 → Fin S1x1x172.rank)
  bcast_S1x1x172_S8x4096x172_0_1_2 : S1x1x172.BroadcastsInDim S8x4096x172 (![0, 1, 2] : Fin 3 → Fin S8x4096x172.rank)
  shapeCasts_S8x4096x172_S8x4096x2x86 : S8x4096x172.ShapeCasts S8x4096x2x86
  transposes_S8x4096x2x86_S8x2x86x4096_0_2_3_1 : S8x4096x2x86.Transposes [0, 2, 3, 1] S8x2x86x4096
  slices_S8x4096x12x32_S8x4096x1x32_0_0_3_0 : S8x4096x12x32.Slices ![0, 0, 3, 0] S8x4096x1x32
  slices_S8x4096x12x32_S8x4096x1x32_0_0_4_0 : S8x4096x12x32.Slices ![0, 0, 4, 0] S8x4096x1x32
  slices_S8x4096x12x32_S8x4096x1x32_0_0_5_0 : S8x4096x12x32.Slices ![0, 0, 5, 0] S8x4096x1x32
  slices_S8x4096x12x32_S8x4096x1x32_0_0_6_0 : S8x4096x12x32.Slices ![0, 0, 6, 0] S8x4096x1x32
  slices_S8x4096x12x32_S8x4096x1x32_0_0_7_0 : S8x4096x12x32.Slices ![0, 0, 7, 0] S8x4096x1x32
  slices_S8x4096x12x32_S8x4096x1x32_0_0_8_0 : S8x4096x12x32.Slices ![0, 0, 8, 0] S8x4096x1x32
  slices_S8x4096x12x32_S8x4096x1x32_0_0_9_0 : S8x4096x12x32.Slices ![0, 0, 9, 0] S8x4096x1x32
  slices_S8x4096x12x32_S8x4096x1x32_0_0_10_0 : S8x4096x12x32.Slices ![0, 0, 10, 0] S8x4096x1x32
  slices_S8x4096x12x32_S8x4096x1x32_0_0_11_0 : S8x4096x12x32.Slices ![0, 0, 11, 0] S8x4096x1x32
  concatenates_S8x2x85x4096_S8x2x85x4096_S8x2x86x4096_S8x2x85x4096_S8x2x86x4096_S8x2x85x4096_S8x2x85x4096_S8x2x86x4096_S8x2x85x4096_S8x2x86x4096_S8x2x85x4096_S8x2x86x4096_S8x2x1025x4096_d2 : Shape.Concatenates [S8x2x85x4096, S8x2x85x4096, S8x2x86x4096, S8x2x85x4096, S8x2x86x4096, S8x2x85x4096, S8x2x85x4096, S8x2x86x4096, S8x2x85x4096, S8x2x86x4096, S8x2x85x4096, S8x2x86x4096] S8x2x1025x4096 2
  dot_S8x4096x32_S170x32_S8x4096x170_2_1_01_0_n_n_wf : DotDims.WF S8x4096x32 S170x32 S8x4096x170 [2] [1] [0, 1] [0] [] []
  dot_S8x4096x32_S172x32_S8x4096x172_2_1_01_0_n_n_wf : DotDims.WF S8x4096x32 S172x32 S8x4096x172 [2] [1] [0, 1] [0] [] []

variable [Facts₀]

def dot_S8x4096x32_S170x32_S8x4096x170_2_1_01_0_n_n : DotDims S8x4096x32 S170x32 S8x4096x170 where
  lhsContracting := [2]
  rhsContracting := [1]
  lhsNonContracting := [0, 1]
  rhsNonContracting := [0]
  lhsBatch := []
  rhsBatch := []
  wf := dot_S8x4096x32_S170x32_S8x4096x170_2_1_01_0_n_n_wf
def dot_S8x4096x32_S172x32_S8x4096x172_2_1_01_0_n_n : DotDims S8x4096x32 S172x32 S8x4096x172 where
  lhsContracting := [2]
  rhsContracting := [1]
  lhsNonContracting := [0, 1]
  rhsNonContracting := [0]
  lhsBatch := []
  rhsBatch := []
  wf := dot_S8x4096x32_S172x32_S8x4096x172_2_1_01_0_n_n_wf

class Facts : Prop extends Facts₀ where

variable [Facts]
-- ==== Proof.BandLinear.lean ====
/-
  The band-wise linear map both programs compute, as one function of the argument arrays.

  The input x has shape [8, 384, 1, 4096]; its 384 channels are 32 groups of 12 bands, channel g·12 + n being group g of
  band n. The 1025 frequency rows of the result are cut into twelve consecutive bands of 85 or 86 rows (band n begins at
  row `bandStart n` and is `bandWidth n` rows wide). Band n has its own weight matrix of 2·w rows and 32 columns and its own
  bias vector of 2·w entries, w the band's width; output channel c of a row at position p inside band n uses row c·w + p
  of that matrix. The result at (b, c, f, t), with n the band of f and p = f − bandStart n, is
      Σ_g W_n (c·w + p, g) · x (b, g·12 + n, 0, t)  +  bias_n (c·w + p)
  on the extended reals.
-/
import Idealize.ShloMosaic.Lib.ValueIdx
import Idealize.ShloMosaic.PureOps.Ideal

noncomputable section

open scoped BigOperators

namespace Cert.BandLinear

open Idealize.ShloMosaic Idealize.ShloMosaic.ValueIdx

/-- A weight matrix of a band of width 85, and of width 86; their bias vectors. -/
abbrev M170 : Type := (⟨2, ![170, 32]⟩ : Shape).Idx → EReal
abbrev M172 : Type := (⟨2, ![172, 32]⟩ : Shape).Idx → EReal
abbrev V170 : Type := (⟨1, ![170]⟩ : Shape).Idx → EReal
abbrev V172 : Type := (⟨1, ![172]⟩ : Shape).Idx → EReal

/-- Entry (r, g) of a weight matrix, for any natural row number (zero past the last row). -/
def w170 (W : M170) (r : ℕ) (g : Fin 32) : EReal := if h : r < 170 then W (ix2 ⟨r, h⟩ g) else 0
def w172 (W : M172) (r : ℕ) (g : Fin 32) : EReal := if h : r < 172 then W (ix2 ⟨r, h⟩ g) else 0
/-- Entry r of a bias vector, for any natural number (zero past the end). -/
def v170 (v : V170) (r : ℕ) : EReal := if h : r < 170 then v (ix1 ⟨r, h⟩) else 0
def v172 (v : V172) (r : ℕ) : EReal := if h : r < 172 then v (ix1 ⟨r, h⟩) else 0

theorem w170_of_lt (W : M170) {r : ℕ} (h : r < 170) (g : Fin 32) : w170 W r g = W (ix2 ⟨r, h⟩ g) := dif_pos h
theorem w172_of_lt (W : M172) {r : ℕ} (h : r < 172) (g : Fin 32) : w172 W r g = W (ix2 ⟨r, h⟩ g) := dif_pos h
theorem v170_of_lt (v : V170) {r : ℕ} (h : r < 170) : v170 v r = v (ix1 ⟨r, h⟩) := dif_pos h
theorem v172_of_lt (v : V172) {r : ℕ} (h : r < 172) : v172 v r = v (ix1 ⟨r, h⟩) := dif_pos h

/-- The twelve weight matrices and bias vectors. -/
structure Params where
  W0 : M170
  b0 : V170
  W1 : M170
  b1 : V170
  W2 : M172
  b2 : V172
  W3 : M170
  b3 : V170
  W4 : M172
  b4 : V172
  W5 : M170
  b5 : V170
  W6 : M170
  b6 : V170
  W7 : M172
  b7 : V172
  W8 : M170
  b8 : V170
  W9 : M172
  b9 : V172
  W10 : M170
  b10 : V170
  W11 : M172
  b11 : V172

/-- Entry (r, g) of band n's weight matrix. -/
def Params.W (P : Params) (n : ℕ) (r : ℕ) (g : Fin 32) : EReal :=
  match n with
  | 0 => w170 P.W0 r g
  | 1 => w170 P.W1 r g
  | 2 => w172 P.W2 r g
  | 3 => w170 P.W3 r g
  | 4 => w172 P.W4 r g
  | 5 => w170 P.W5 r g
  | 6 => w170 P.W6 r g
  | 7 => w172 P.W7 r g
  | 8 => w170 P.W8 r g
  | 9 => w172 P.W9 r g
  | 10 => w170 P.W10 r g
  | 11 => w172 P.W11 r g
  | _ => 0

/-- Entry r of band n's bias vector. -/
def Params.b (P : Params) (n : ℕ) (r : ℕ) : EReal :=
  match n with
  | 0 => v170 P.b0 r
  | 1 => v170 P.b1 r
  | 2 => v172 P.b2 r
  | 3 => v170 P.b3 r
  | 4 => v172 P.b4 r
  | 5 => v170 P.b5 r
  | 6 => v170 P.b6 r
  | 7 => v172 P.b7 r
  | 8 => v170 P.b8 r
  | 9 => v172 P.b9 r
  | 10 => v170 P.b10 r
  | 11 => v172 P.b11 r
  | _ => 0

/-- The first frequency row of band n. -/
def bandStart (n : ℕ) : ℕ :=
  match n with
  | 0 => 0 | 1 => 85 | 2 => 170 | 3 => 256 | 4 => 341 | 5 => 427 | 6 => 512 | 7 => 597 | 8 => 683 | 9 => 768 | 10 => 854 | 11 => 939
  | _ => 1025

/-- The number of rows of band n. -/
def bandWidth (n : ℕ) : ℕ :=
  match n with
  | 2 => 86 | 4 => 86 | 7 => 86 | 9 => 86 | 11 => 86
  | _ => 85

/-- The band a frequency row lies in. -/
def band (f : ℕ) : ℕ :=
  if f < 85 then 0 else if f < 170 then 1 else if f < 256 then 2 else if f < 341 then 3 else if f < 427 then 4
  else if f < 512 then 5 else if f < 597 then 6 else if f < 683 then 7 else if f < 768 then 8 else if f < 854 then 9
  else if f < 939 then 10 else 11

theorem band_lt (f : ℕ) : band f < 12 := by
  unfold band; split_ifs <;> omega

set_option maxHeartbeats 4000000 in
/-- A row between a band's first row and the next band's first row lies in that band. -/
theorem band_eq_of_bounds {n f : ℕ} (hn : n < 12) (hlo : bandStart n ≤ f) (hhi : f < bandStart n + bandWidth n) : band f = n := by
  have h12 : n = 0 ∨ n = 1 ∨ n = 2 ∨ n = 3 ∨ n = 4 ∨ n = 5 ∨ n = 6 ∨ n = 7 ∨ n = 8 ∨ n = 9 ∨ n = 10 ∨ n = 11 := by omega
  rcases h12 with rfl | rfl | rfl | rfl | rfl | rfl | rfl | rfl | rfl | rfl | rfl | rfl <;>
    (simp only [bandStart, bandWidth] at hlo hhi; unfold band; split_ifs <;> omega)

/-- The band of a frequency row, as one of the twelve. -/
def bandFin (f : ℕ) : Fin 12 := ⟨band f, band_lt f⟩

theorem bandFin_eq {f n : ℕ} (h : band f = n) (hn : n < 12) : bandFin f = ⟨n, hn⟩ := Fin.ext h

/-- Channel g·12 + n of x: group g of band n. -/
def chan (g : Fin 32) (n : Fin 12) : Fin 384 := ⟨g.val * 12 + n.val, by have := g.isLt; have := n.isLt; omega⟩

/-- The value at output channel c, at position p of band n, of one batch entry and one time step whose 32 group
    values in that band are `xs`. -/
def rowValue (P : Params) (n c p : ℕ) (xs : Fin 32 → EReal) : EReal :=
  (∑ g : Fin 32, P.W n (c * bandWidth n + p) g * xs g) + P.b n (c * bandWidth n + p)

/-- The whole result: at (b, c, f, t) the row value of the band of f, over the 32 groups of that band of x at (b, ·, 0, t). -/
def result (x : (⟨4, ![8, 384, 1, 4096]⟩ : Shape).Idx → EReal) (P : Params) (j : (⟨4, ![8, 2, 1025, 4096]⟩ : Shape).Idx) : EReal :=
  rowValue P (band (j 2).val) (j 1).val ((j 2).val - bandStart (band (j 2).val))
    (fun g => x (ix4 ⟨(j 0).val, (j 0).isLt⟩ (chan g (bandFin (j 2).val)) (0 : Fin 1) ⟨(j 3).val, (j 3).isLt⟩))

/-- What one grid step leaves in its [8, 2, 1025, 128] block of the result, from the step's [12, 8, 32, 128] block X of x
    re-laid band-major (band, batch, group, time): the row value over the 32 groups of X at (band of f, b, ·, l). -/
def blockValue (X : (⟨4, ![12, 8, 32, 128]⟩ : Shape).Idx → EReal) (P : Params) (y : (⟨4, ![8, 2, 1025, 128]⟩ : Shape).Idx) : EReal :=
  rowValue P (band (y 2).val) (y 1).val ((y 2).val - bandStart (band (y 2).val))
    (fun g => X (ix4 (bandFin (y 2).val) ⟨(y 0).val, (y 0).isLt⟩ g ⟨(y 3).val, (y 3).isLt⟩))

end Cert.BandLinear

end
-- ==== Proof.BandBounds.lean ====
/-
  Where the twelve bands lie among the 1025 frequency rows.
-/
import proofs.«119640_j67224828117616_1_alg».proof.Proof.BandLinear

namespace Cert.BandLinear

/-- A frequency row lies between the first row of its band and the first row of the next. -/
theorem band_spec {f : ℕ} (hf : f < 1025) : bandStart (band f) ≤ f ∧ f < bandStart (band f) + bandWidth (band f) := by
  unfold band
  split_ifs <;> simp only [bandStart, bandWidth] <;> omega

/-- Every band ends inside the 1025 rows. -/
theorem bandStart_add_width {n : ℕ} (hn : n < 12) : bandStart n + bandWidth n ≤ 1025 := by
  have h12 : n = 0 ∨ n = 1 ∨ n = 2 ∨ n = 3 ∨ n = 4 ∨ n = 5 ∨ n = 6 ∨ n = 7 ∨ n = 8 ∨ n = 9 ∨ n = 10 ∨ n = 11 := by omega
  rcases h12 with rfl | rfl | rfl | rfl | rfl | rfl | rfl | rfl | rfl | rfl | rfl | rfl <;> simp only [bandStart, bandWidth] <;> omega

end Cert.BandLinear
-- ==== Proof.CoverBits.lean ====
/-
  The kernel's 192 stores cover its output block.

  In program order store q writes rows [start, start + width) of band q / 16, in channel q mod 2 of batch entry
  (q / 2) mod 8; the run lists its pieces last store first. A block index (b, c, f, l) lies under the store of the band
  of f, batch entry b and channel c.
-/
import proofs.«119640_j67224828117616_1_alg».proof.Proof.Gen.Kernel.Frame.RunA
import proofs.«119640_j67224828117616_1_alg».proof.Proof.BandBounds

set_option maxRecDepth 16384

noncomputable section

namespace Cert.Kernel.Cover

open Cert.Kernel Cert.Kernel.Gen Cert.BandLinear
open Idealize.ShloMosaic Idealize.ShloMosaic.TcCoe Idealize.SL.Sem

variable {F : FTy → Type} [FloatOps F]

/-- Store q's rectangle lies inside the block. -/
theorem storeRect_inb (q : ℕ) (hq : q < 192) :
    ∀ a, (![(q / 2) % 8, q % 2, bandStart (q / 16), 0] : Fin 4 → ℕ) a + (![1, 1, bandWidth (q / 16), 128] : Fin 4 → ℕ) a
      ≤ S8x2x1025x128.size a := by
  have hn : q / 16 < 12 := by omega
  have hbw := bandStart_add_width hn
  intro a
  match a with
  | ⟨0, _⟩ => show (q / 2) % 8 + 1 ≤ 8; omega
  | ⟨1, _⟩ => show q % 2 + 1 ≤ 2; omega
  | ⟨2, _⟩ => exact hbw
  | ⟨3, _⟩ => show 0 + 128 ≤ 128; omega

/-- The rectangle of store q (the whole block for a number that is no store's). -/
def storeRect (q : ℕ) : Rect S8x2x1025x128 :=
  if h : q < 192 then
    Rect.unit (s := S8x2x1025x128) ![(q / 2) % 8, q % 2, bandStart (q / 16), 0] ![1, 1, bandWidth (q / 16), 128] (storeRect_inb q h)
  else Rect.whole S8x2x1025x128

/-- The rectangles of the run's pieces, first to last, are those of stores 191 down to 0. -/
theorem rects_eq (c : Dev nD) (i : grid0.Coords) (arg1 : Memref sig .tc .vmem S12x8x32x128 .f32) (harg1 : arg1.IsWhole) (arg2 : Memref sig .tc .vmem S170x32 .f32) (harg2 : arg2.IsWhole) (arg3 : Memref sig .tc .vmem S170 .f32) (harg3 : arg3.IsWhole) (arg4 : Memref sig .tc .vmem S170x32 .f32) (harg4 : arg4.IsWhole) (arg5 : Memref sig .tc .vmem S170 .f32) (harg5 : arg5.IsWhole) (arg6 : Memref sig .tc .vmem S172x32 .f32) (harg6 : arg6.IsWhole) (arg7 : Memref sig .tc .vmem S172 .f32) (harg7 : arg7.IsWhole) (arg8 : Memref sig .tc .vmem S170x32 .f32) (harg8 : arg8.IsWhole) (arg9 : Memref sig .tc .vmem S170 .f32) (harg9 : arg9.IsWhole) (arg10 : Memref sig .tc .vmem S172x32 .f32) (harg10 : arg10.IsWhole) (arg11 : Memref sig .tc .vmem S172 .f32) (harg11 : arg11.IsWhole) (arg12 : Memref sig .tc .vmem S170x32 .f32) (harg12 : arg12.IsWhole) (arg13 : Memref sig .tc .vmem S170 .f32) (harg13 : arg13.IsWhole) (arg14 : Memref sig .tc .vmem S170x32 .f32) (harg14 : arg14.IsWhole) (arg15 : Memref sig .tc .vmem S170 .f32) (harg15 : arg15.IsWhole) (arg16 : Memref sig .tc .vmem S172x32 .f32) (harg16 : arg16.IsWhole) (arg17 : Memref sig .tc .vmem S172 .f32) (harg17 : arg17.IsWhole) (arg18 : Memref sig .tc .vmem S170x32 .f32) (harg18 : arg18.IsWhole) (arg19 : Memref sig .tc .vmem S170 .f32) (harg19 : arg19.IsWhole) (arg20 : Memref sig .tc .vmem S172x32 .f32) (harg20 : arg20.IsWhole) (arg21 : Memref sig .tc .vmem S172 .f32) (harg21 : arg21.IsWhole) (arg22 : Memref sig .tc .vmem S170x32 .f32) (harg22 : arg22.IsWhole) (arg23 : Memref sig .tc .vmem S170 .f32) (harg23 : arg23.IsWhole) (arg24 : Memref sig .tc .vmem S172x32 .f32) (harg24 : arg24.IsWhole) (arg25 : Memref sig .tc .vmem S172 .f32) (harg25 : arg25.IsWhole) (arg26 : Memref sig .tc .vmem S8x2x1025x128 .f32) (harg26 : arg26.IsWhole)
    (x0 : Vec F S12x8x32x128 .f32) (x1 : Vec F S170x32 .f32) (x2 : Vec F S170 .f32) (x3 : Vec F S170x32 .f32) (x4 : Vec F S170 .f32) (x5 : Vec F S172x32 .f32) (x6 : Vec F S172 .f32) (x7 : Vec F S170x32 .f32) (x8 : Vec F S170 .f32) (x9 : Vec F S172x32 .f32) (x10 : Vec F S172 .f32) (x11 : Vec F S170x32 .f32) (x12 : Vec F S170 .f32) (x13 : Vec F S170x32 .f32) (x14 : Vec F S170 .f32) (x15 : Vec F S172x32 .f32) (x16 : Vec F S172 .f32) (x17 : Vec F S170x32 .f32) (x18 : Vec F S170 .f32) (x19 : Vec F S172x32 .f32) (x20 : Vec F S172 .f32) (x21 : Vec F S170x32 .f32) (x22 : Vec F S170 .f32) (x23 : Vec F S172x32 .f32) (x24 : Vec F S172 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24).1.map (·.1) = (List.range 192).map fun k => storeRect (191 - k) := by
  rfl

/-- Every block index lies under one of the run's pieces. -/
theorem cover (c : Dev nD) (i : grid0.Coords) (arg1 : Memref sig .tc .vmem S12x8x32x128 .f32) (harg1 : arg1.IsWhole) (arg2 : Memref sig .tc .vmem S170x32 .f32) (harg2 : arg2.IsWhole) (arg3 : Memref sig .tc .vmem S170 .f32) (harg3 : arg3.IsWhole) (arg4 : Memref sig .tc .vmem S170x32 .f32) (harg4 : arg4.IsWhole) (arg5 : Memref sig .tc .vmem S170 .f32) (harg5 : arg5.IsWhole) (arg6 : Memref sig .tc .vmem S172x32 .f32) (harg6 : arg6.IsWhole) (arg7 : Memref sig .tc .vmem S172 .f32) (harg7 : arg7.IsWhole) (arg8 : Memref sig .tc .vmem S170x32 .f32) (harg8 : arg8.IsWhole) (arg9 : Memref sig .tc .vmem S170 .f32) (harg9 : arg9.IsWhole) (arg10 : Memref sig .tc .vmem S172x32 .f32) (harg10 : arg10.IsWhole) (arg11 : Memref sig .tc .vmem S172 .f32) (harg11 : arg11.IsWhole) (arg12 : Memref sig .tc .vmem S170x32 .f32) (harg12 : arg12.IsWhole) (arg13 : Memref sig .tc .vmem S170 .f32) (harg13 : arg13.IsWhole) (arg14 : Memref sig .tc .vmem S170x32 .f32) (harg14 : arg14.IsWhole) (arg15 : Memref sig .tc .vmem S170 .f32) (harg15 : arg15.IsWhole) (arg16 : Memref sig .tc .vmem S172x32 .f32) (harg16 : arg16.IsWhole) (arg17 : Memref sig .tc .vmem S172 .f32) (harg17 : arg17.IsWhole) (arg18 : Memref sig .tc .vmem S170x32 .f32) (harg18 : arg18.IsWhole) (arg19 : Memref sig .tc .vmem S170 .f32) (harg19 : arg19.IsWhole) (arg20 : Memref sig .tc .vmem S172x32 .f32) (harg20 : arg20.IsWhole) (arg21 : Memref sig .tc .vmem S172 .f32) (harg21 : arg21.IsWhole) (arg22 : Memref sig .tc .vmem S170x32 .f32) (harg22 : arg22.IsWhole) (arg23 : Memref sig .tc .vmem S170 .f32) (harg23 : arg23.IsWhole) (arg24 : Memref sig .tc .vmem S172x32 .f32) (harg24 : arg24.IsWhole) (arg25 : Memref sig .tc .vmem S172 .f32) (harg25 : arg25.IsWhole) (arg26 : Memref sig .tc .vmem S8x2x1025x128 .f32) (harg26 : arg26.IsWhole)
    (x0 : Vec F S12x8x32x128 .f32) (x1 : Vec F S170x32 .f32) (x2 : Vec F S170 .f32) (x3 : Vec F S170x32 .f32) (x4 : Vec F S170 .f32) (x5 : Vec F S172x32 .f32) (x6 : Vec F S172 .f32) (x7 : Vec F S170x32 .f32) (x8 : Vec F S170 .f32) (x9 : Vec F S172x32 .f32) (x10 : Vec F S172 .f32) (x11 : Vec F S170x32 .f32) (x12 : Vec F S170 .f32) (x13 : Vec F S170x32 .f32) (x14 : Vec F S170 .f32) (x15 : Vec F S172x32 .f32) (x16 : Vec F S172 .f32) (x17 : Vec F S170x32 .f32) (x18 : Vec F S170 .f32) (x19 : Vec F S172x32 .f32) (x20 : Vec F S172 .f32) (x21 : Vec F S170x32 .f32) (x22 : Vec F S170 .f32) (x23 : Vec F S172x32 .f32) (x24 : Vec F S172 .f32) (y : S8x2x1025x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24).1, y ∈ pc.1.set := by
  have hb : (y 0).val < 8 := (y 0).isLt
  have hc : (y 1).val < 2 := (y 1).isLt
  have hf : (y 2).val < 1025 := (y 2).isLt
  have hl : (y 3).val < 128 := (y 3).isLt
  have hn := band_lt (y 2).val
  obtain ⟨hlo, hhi⟩ := band_spec hf
  -- the store under y
  have hq : (band (y 2).val * 8 + (y 0).val) * 2 + (y 1).val < 192 := by omega
  have hmem : storeRect ((band (y 2).val * 8 + (y 0).val) * 2 + (y 1).val)
      ∈ (List.range 192).map fun k => storeRect (191 - k) :=
    List.mem_map.2 ⟨191 - ((band (y 2).val * 8 + (y 0).val) * 2 + (y 1).val), List.mem_range.2 (by omega), by congr 1; omega⟩
  rw [← rects_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24] at hmem
  obtain ⟨pc, hpc, hpc1⟩ := List.mem_map.1 hmem
  refine ⟨pc, hpc, ?_⟩
  rw [hpc1, storeRect, dif_pos hq, Rect.mem_set_unit]
  have e16 : ((band (y 2).val * 8 + (y 0).val) * 2 + (y 1).val) / 16 = band (y 2).val := by omega
  intro a
  match a with
  | ⟨0, _⟩ =>
    show ((band (y 2).val * 8 + (y 0).val) * 2 + (y 1).val) / 2 % 8 ≤ (y 0).val
      ∧ (y 0).val < ((band (y 2).val * 8 + (y 0).val) * 2 + (y 1).val) / 2 % 8 + 1
    omega
  | ⟨1, _⟩ =>
    show ((band (y 2).val * 8 + (y 0).val) * 2 + (y 1).val) % 2 ≤ (y 1).val
      ∧ (y 1).val < ((band (y 2).val * 8 + (y 0).val) * 2 + (y 1).val) % 2 + 1
    omega
  | ⟨2, _⟩ =>
    show bandStart (((band (y 2).val * 8 + (y 0).val) * 2 + (y 1).val) / 16) ≤ (y 2).val
      ∧ (y 2).val < bandStart (((band (y 2).val * 8 + (y 0).val) * 2 + (y 1).val) / 16)
          + bandWidth (((band (y 2).val * 8 + (y 0).val) * 2 + (y 1).val) / 16)
    rw [e16]
    exact ⟨hlo, hhi⟩
  | ⟨3, _⟩ =>
    show 0 ≤ (y 3).val ∧ (y 3).val < 0 + 128
    omega

end Cert.Kernel.Cover

end
-- ==== Proof.CoverIdeal.lean ====
/-
  The kernel's 192 stores cover its output block.

  In program order store q writes rows [start, start + width) of band q / 16, in channel q mod 2 of batch entry
  (q / 2) mod 8; the run lists its pieces last store first. A block index (b, c, f, l) lies under the store of the band
  of f, batch entry b and channel c.
-/
import proofs.«119640_j67224828117616_1_alg».proof.Proof.Gen.KernelIdeal.Frame.RunA
import proofs.«119640_j67224828117616_1_alg».proof.Proof.BandBounds

set_option maxRecDepth 16384

noncomputable section

namespace Cert.KernelIdeal.Cover

open Cert.KernelIdeal Cert.KernelIdeal.Gen Cert.BandLinear
open Idealize.ShloMosaic Idealize.ShloMosaic.TcCoe Idealize.SL.Sem

variable {F : FTy → Type} [FloatOps F]

/-- Store q's rectangle lies inside the block. -/
theorem storeRect_inb (q : ℕ) (hq : q < 192) :
    ∀ a, (![(q / 2) % 8, q % 2, bandStart (q / 16), 0] : Fin 4 → ℕ) a + (![1, 1, bandWidth (q / 16), 128] : Fin 4 → ℕ) a
      ≤ S8x2x1025x128.size a := by
  have hn : q / 16 < 12 := by omega
  have hbw := bandStart_add_width hn
  intro a
  match a with
  | ⟨0, _⟩ => show (q / 2) % 8 + 1 ≤ 8; omega
  | ⟨1, _⟩ => show q % 2 + 1 ≤ 2; omega
  | ⟨2, _⟩ => exact hbw
  | ⟨3, _⟩ => show 0 + 128 ≤ 128; omega

/-- The rectangle of store q (the whole block for a number that is no store's). -/
def storeRect (q : ℕ) : Rect S8x2x1025x128 :=
  if h : q < 192 then
    Rect.unit (s := S8x2x1025x128) ![(q / 2) % 8, q % 2, bandStart (q / 16), 0] ![1, 1, bandWidth (q / 16), 128] (storeRect_inb q h)
  else Rect.whole S8x2x1025x128

/-- The rectangles of the run's pieces, first to last, are those of stores 191 down to 0. -/
theorem rects_eq (c : Dev nD) (i : grid0.Coords) (arg1 : Memref sig .tc .vmem S12x8x32x128 .f32) (harg1 : arg1.IsWhole) (arg2 : Memref sig .tc .vmem S170x32 .f32) (harg2 : arg2.IsWhole) (arg3 : Memref sig .tc .vmem S170 .f32) (harg3 : arg3.IsWhole) (arg4 : Memref sig .tc .vmem S170x32 .f32) (harg4 : arg4.IsWhole) (arg5 : Memref sig .tc .vmem S170 .f32) (harg5 : arg5.IsWhole) (arg6 : Memref sig .tc .vmem S172x32 .f32) (harg6 : arg6.IsWhole) (arg7 : Memref sig .tc .vmem S172 .f32) (harg7 : arg7.IsWhole) (arg8 : Memref sig .tc .vmem S170x32 .f32) (harg8 : arg8.IsWhole) (arg9 : Memref sig .tc .vmem S170 .f32) (harg9 : arg9.IsWhole) (arg10 : Memref sig .tc .vmem S172x32 .f32) (harg10 : arg10.IsWhole) (arg11 : Memref sig .tc .vmem S172 .f32) (harg11 : arg11.IsWhole) (arg12 : Memref sig .tc .vmem S170x32 .f32) (harg12 : arg12.IsWhole) (arg13 : Memref sig .tc .vmem S170 .f32) (harg13 : arg13.IsWhole) (arg14 : Memref sig .tc .vmem S170x32 .f32) (harg14 : arg14.IsWhole) (arg15 : Memref sig .tc .vmem S170 .f32) (harg15 : arg15.IsWhole) (arg16 : Memref sig .tc .vmem S172x32 .f32) (harg16 : arg16.IsWhole) (arg17 : Memref sig .tc .vmem S172 .f32) (harg17 : arg17.IsWhole) (arg18 : Memref sig .tc .vmem S170x32 .f32) (harg18 : arg18.IsWhole) (arg19 : Memref sig .tc .vmem S170 .f32) (harg19 : arg19.IsWhole) (arg20 : Memref sig .tc .vmem S172x32 .f32) (harg20 : arg20.IsWhole) (arg21 : Memref sig .tc .vmem S172 .f32) (harg21 : arg21.IsWhole) (arg22 : Memref sig .tc .vmem S170x32 .f32) (harg22 : arg22.IsWhole) (arg23 : Memref sig .tc .vmem S170 .f32) (harg23 : arg23.IsWhole) (arg24 : Memref sig .tc .vmem S172x32 .f32) (harg24 : arg24.IsWhole) (arg25 : Memref sig .tc .vmem S172 .f32) (harg25 : arg25.IsWhole) (arg26 : Memref sig .tc .vmem S8x2x1025x128 .f32) (harg26 : arg26.IsWhole)
    (x0 : Vec F S12x8x32x128 .f32) (x1 : Vec F S170x32 .f32) (x2 : Vec F S170 .f32) (x3 : Vec F S170x32 .f32) (x4 : Vec F S170 .f32) (x5 : Vec F S172x32 .f32) (x6 : Vec F S172 .f32) (x7 : Vec F S170x32 .f32) (x8 : Vec F S170 .f32) (x9 : Vec F S172x32 .f32) (x10 : Vec F S172 .f32) (x11 : Vec F S170x32 .f32) (x12 : Vec F S170 .f32) (x13 : Vec F S170x32 .f32) (x14 : Vec F S170 .f32) (x15 : Vec F S172x32 .f32) (x16 : Vec F S172 .f32) (x17 : Vec F S170x32 .f32) (x18 : Vec F S170 .f32) (x19 : Vec F S172x32 .f32) (x20 : Vec F S172 .f32) (x21 : Vec F S170x32 .f32) (x22 : Vec F S170 .f32) (x23 : Vec F S172x32 .f32) (x24 : Vec F S172 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24).1.map (·.1) = (List.range 192).map fun k => storeRect (191 - k) := by
  rfl

/-- Every block index lies under one of the run's pieces. -/
theorem cover (c : Dev nD) (i : grid0.Coords) (arg1 : Memref sig .tc .vmem S12x8x32x128 .f32) (harg1 : arg1.IsWhole) (arg2 : Memref sig .tc .vmem S170x32 .f32) (harg2 : arg2.IsWhole) (arg3 : Memref sig .tc .vmem S170 .f32) (harg3 : arg3.IsWhole) (arg4 : Memref sig .tc .vmem S170x32 .f32) (harg4 : arg4.IsWhole) (arg5 : Memref sig .tc .vmem S170 .f32) (harg5 : arg5.IsWhole) (arg6 : Memref sig .tc .vmem S172x32 .f32) (harg6 : arg6.IsWhole) (arg7 : Memref sig .tc .vmem S172 .f32) (harg7 : arg7.IsWhole) (arg8 : Memref sig .tc .vmem S170x32 .f32) (harg8 : arg8.IsWhole) (arg9 : Memref sig .tc .vmem S170 .f32) (harg9 : arg9.IsWhole) (arg10 : Memref sig .tc .vmem S172x32 .f32) (harg10 : arg10.IsWhole) (arg11 : Memref sig .tc .vmem S172 .f32) (harg11 : arg11.IsWhole) (arg12 : Memref sig .tc .vmem S170x32 .f32) (harg12 : arg12.IsWhole) (arg13 : Memref sig .tc .vmem S170 .f32) (harg13 : arg13.IsWhole) (arg14 : Memref sig .tc .vmem S170x32 .f32) (harg14 : arg14.IsWhole) (arg15 : Memref sig .tc .vmem S170 .f32) (harg15 : arg15.IsWhole) (arg16 : Memref sig .tc .vmem S172x32 .f32) (harg16 : arg16.IsWhole) (arg17 : Memref sig .tc .vmem S172 .f32) (harg17 : arg17.IsWhole) (arg18 : Memref sig .tc .vmem S170x32 .f32) (harg18 : arg18.IsWhole) (arg19 : Memref sig .tc .vmem S170 .f32) (harg19 : arg19.IsWhole) (arg20 : Memref sig .tc .vmem S172x32 .f32) (harg20 : arg20.IsWhole) (arg21 : Memref sig .tc .vmem S172 .f32) (harg21 : arg21.IsWhole) (arg22 : Memref sig .tc .vmem S170x32 .f32) (harg22 : arg22.IsWhole) (arg23 : Memref sig .tc .vmem S170 .f32) (harg23 : arg23.IsWhole) (arg24 : Memref sig .tc .vmem S172x32 .f32) (harg24 : arg24.IsWhole) (arg25 : Memref sig .tc .vmem S172 .f32) (harg25 : arg25.IsWhole) (arg26 : Memref sig .tc .vmem S8x2x1025x128 .f32) (harg26 : arg26.IsWhole)
    (x0 : Vec F S12x8x32x128 .f32) (x1 : Vec F S170x32 .f32) (x2 : Vec F S170 .f32) (x3 : Vec F S170x32 .f32) (x4 : Vec F S170 .f32) (x5 : Vec F S172x32 .f32) (x6 : Vec F S172 .f32) (x7 : Vec F S170x32 .f32) (x8 : Vec F S170 .f32) (x9 : Vec F S172x32 .f32) (x10 : Vec F S172 .f32) (x11 : Vec F S170x32 .f32) (x12 : Vec F S170 .f32) (x13 : Vec F S170x32 .f32) (x14 : Vec F S170 .f32) (x15 : Vec F S172x32 .f32) (x16 : Vec F S172 .f32) (x17 : Vec F S170x32 .f32) (x18 : Vec F S170 .f32) (x19 : Vec F S172x32 .f32) (x20 : Vec F S172 .f32) (x21 : Vec F S170x32 .f32) (x22 : Vec F S170 .f32) (x23 : Vec F S172x32 .f32) (x24 : Vec F S172 .f32) (y : S8x2x1025x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24).1, y ∈ pc.1.set := by
  have hb : (y 0).val < 8 := (y 0).isLt
  have hc : (y 1).val < 2 := (y 1).isLt
  have hf : (y 2).val < 1025 := (y 2).isLt
  have hl : (y 3).val < 128 := (y 3).isLt
  have hn := band_lt (y 2).val
  obtain ⟨hlo, hhi⟩ := band_spec hf
  -- the store under y
  have hq : (band (y 2).val * 8 + (y 0).val) * 2 + (y 1).val < 192 := by omega
  have hmem : storeRect ((band (y 2).val * 8 + (y 0).val) * 2 + (y 1).val)
      ∈ (List.range 192).map fun k => storeRect (191 - k) :=
    List.mem_map.2 ⟨191 - ((band (y 2).val * 8 + (y 0).val) * 2 + (y 1).val), List.mem_range.2 (by omega), by congr 1; omega⟩
  rw [← rects_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24] at hmem
  obtain ⟨pc, hpc, hpc1⟩ := List.mem_map.1 hmem
  refine ⟨pc, hpc, ?_⟩
  rw [hpc1, storeRect, dif_pos hq, Rect.mem_set_unit]
  have e16 : ((band (y 2).val * 8 + (y 0).val) * 2 + (y 1).val) / 16 = band (y 2).val := by omega
  intro a
  match a with
  | ⟨0, _⟩ =>
    show ((band (y 2).val * 8 + (y 0).val) * 2 + (y 1).val) / 2 % 8 ≤ (y 0).val
      ∧ (y 0).val < ((band (y 2).val * 8 + (y 0).val) * 2 + (y 1).val) / 2 % 8 + 1
    omega
  | ⟨1, _⟩ =>
    show ((band (y 2).val * 8 + (y 0).val) * 2 + (y 1).val) % 2 ≤ (y 1).val
      ∧ (y 1).val < ((band (y 2).val * 8 + (y 0).val) * 2 + (y 1).val) % 2 + 1
    omega
  | ⟨2, _⟩ =>
    show bandStart (((band (y 2).val * 8 + (y 0).val) * 2 + (y 1).val) / 16) ≤ (y 2).val
      ∧ (y 2).val < bandStart (((band (y 2).val * 8 + (y 0).val) * 2 + (y 1).val) / 16)
          + bandWidth (((band (y 2).val * 8 + (y 0).val) * 2 + (y 1).val) / 16)
    rw [e16]
    exact ⟨hlo, hhi⟩
  | ⟨3, _⟩ =>
    show 0 ≤ (y 3).val ∧ (y 3).val < 0 + 128
    omega

end Cert.KernelIdeal.Cover

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«119640_j67224828117616_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.StoredRows.lean ====
/-
  One store of the kernel, read at an index.

  Each store of the kernel writes w consecutive rows of a [2·w, 128] array computed from one band's weight matrix W
  ([R, 32], R = 2·w), that band's bias vector and one [32, 128] slab of x: the matrix product W · X (both operands first
  narrowed to bf16, which on the extended reals changes nothing) into a zero accumulator, plus the bias stood up as a
  column and repeated along the 128 lanes. Row p, lane l of the rows kept from row o on is
      Σ_g W (o + p, g) · X (g, l)  +  bias (o + p).
-/
import proofs.«119640_j67224828117616_1_alg».proof.Proof.BandLinear
import proofs.«119640_j67224828117616_1_alg».proof.Proof.LibPlainDotAny
import proofs.«119640_j67224828117616_1_alg».proof.Proof.LibKeepdims
import Idealize.ShloMosaic.Lib.Pipeline.Value
import Idealize.ShloMosaic.Lib.ValueIdx

noncomputable section

open scoped BigOperators

namespace Cert.BandLinear

open Idealize.ShloMosaic Idealize.ShloMosaic.ValueIdx

/-- The stored value at local index (0, 0, p, l): the product's row o + p against the slab's lane l, plus the bias
    entry o + p. -/
theorem storedRows_at {R w o : ℕ}
    (D : DotDims ⟨2, ![R, 32]⟩ ⟨2, ![32, 128]⟩ ⟨2, ![R, 128]⟩) (hD : D = DotDims.plain R 32 128)
    (Wv : FVec Ideal ⟨2, ![R, 32]⟩ .f32) (bv : FVec Ideal ⟨1, ![R]⟩ .f32) (Xb : FVec Ideal ⟨4, ![1, 1, 32, 128]⟩ .f32)
    (hbits : FTy.bits .bf16 < FTy.bits .f32)
    (hcX : (⟨4, ![1, 1, 32, 128]⟩ : Shape).ShapeCasts ⟨2, ![32, 128]⟩)
    (hcb : (⟨1, ![R]⟩ : Shape).ShapeCasts ⟨2, ![R, 1]⟩)
    (hbc : (⟨2, ![R, 1]⟩ : Shape).Broadcasts ⟨2, ![R, 128]⟩)
    (hs : (⟨2, ![R, 128]⟩ : Shape).Slices ![o, 0] ⟨2, ![w, 128]⟩)
    (hco : (⟨2, ![w, 128]⟩ : Shape).ShapeCasts ⟨4, ![1, 1, w, 128]⟩)
    (p : Fin w) (l : Fin 128) (hr : o + p.val < R) :
    shapeCast ⟨4, ![1, 1, w, 128]⟩ (extractStridedSlice ⟨2, ![w, 128]⟩ ![o, 0]
      (addf (matmul D none (truncf .bf16 Wv hbits) (truncf .bf16 (shapeCast ⟨2, ![32, 128]⟩ Xb hcX) hbits)
          (constant ⟨2, ![R, 128]⟩ .f32 0x00000000#32))
        (broadcastTo ⟨2, ![R, 128]⟩ (shapeCast ⟨2, ![R, 1]⟩ bv hcb) hbc)) hs) hco (ix4 (0 : Fin 1) (0 : Fin 1) p l)
      = (∑ g : Fin 32, Wv (ix2 ⟨o + p.val, hr⟩ g) * Xb (ix4 0 0 g l)) + bv (ix1 ⟨o + p.val, hr⟩) := by
  subst hD
  -- the two unit axes in front: (0, 0, p, l) is entry (p, l) of the kept rows
  refine (shapeCast_apply _ hco (ix4 (0 : Fin 1) (0 : Fin 1) p l) (ix2 p l) ?_).trans ?_
  · rw [Shape.rowMajor_val_two, Shape.rowMajor_val_four]
    show p.val * 128 + l.val = (((0 : ℕ) * 1 + 0) * w + p.val) * 128 + l.val
    omega
  -- kept row p is row o + p
  refine (extractStridedSlice_apply ![o, 0] _ hs (ix2 p l) (ix2 ⟨o + p.val, hr⟩ l) ?_).trans ?_
  · intro a
    match a with
    | ⟨0, _⟩ => rfl
    | ⟨1, _⟩ => show l.val = 0 + l.val; omega
  rw [addf_apply]
  congr 1
  · -- the product
    show FloatOps.matmul (DotDims.plain R 32 128) none _ _ _ _ = _
    rw [PlainDot.matmul_zero_apply_any]
    refine Finset.sum_congr rfl fun g _ => ?_
    rw [truncf_apply, truncf_apply]
    congr 1
    refine shapeCast_apply Xb hcX (ix2 g l) (ix4 0 0 g l) ?_
    rw [Shape.rowMajor_val_two, Shape.rowMajor_val_four]
    show (((0 : ℕ) * 1 + 0) * 32 + g.val) * 128 + l.val = g.val * 128 + l.val
    omega
  · -- the bias column repeated along the lanes
    rw [Keepdims.broadcastTo_a1_ab_apply, Keepdims.shapeCast_a_a1_apply]

/-- The same at any local index x of the stored [1, 1, w, 128] value, through x's last two coordinates. -/
theorem storedRows_apply {R w o : ℕ}
    (D : DotDims ⟨2, ![R, 32]⟩ ⟨2, ![32, 128]⟩ ⟨2, ![R, 128]⟩) (hD : D = DotDims.plain R 32 128)
    (Wv : FVec Ideal ⟨2, ![R, 32]⟩ .f32) (bv : FVec Ideal ⟨1, ![R]⟩ .f32) (Xb : FVec Ideal ⟨4, ![1, 1, 32, 128]⟩ .f32)
    (hbits : FTy.bits .bf16 < FTy.bits .f32)
    (hcX : (⟨4, ![1, 1, 32, 128]⟩ : Shape).ShapeCasts ⟨2, ![32, 128]⟩)
    (hcb : (⟨1, ![R]⟩ : Shape).ShapeCasts ⟨2, ![R, 1]⟩)
    (hbc : (⟨2, ![R, 1]⟩ : Shape).Broadcasts ⟨2, ![R, 128]⟩)
    (hs : (⟨2, ![R, 128]⟩ : Shape).Slices ![o, 0] ⟨2, ![w, 128]⟩)
    (hco : (⟨2, ![w, 128]⟩ : Shape).ShapeCasts ⟨4, ![1, 1, w, 128]⟩)
    (x : (⟨4, ![1, 1, w, 128]⟩ : Shape).Idx) (hr : o + (x 2).val < R) :
    shapeCast ⟨4, ![1, 1, w, 128]⟩ (extractStridedSlice ⟨2, ![w, 128]⟩ ![o, 0]
      (addf (matmul D none (truncf .bf16 Wv hbits) (truncf .bf16 (shapeCast ⟨2, ![32, 128]⟩ Xb hcX) hbits)
          (constant ⟨2, ![R, 128]⟩ .f32 0x00000000#32))
        (broadcastTo ⟨2, ![R, 128]⟩ (shapeCast ⟨2, ![R, 1]⟩ bv hcb) hbc)) hs) hco x
      = (∑ g : Fin 32, Wv (ix2 ⟨o + (x 2).val, hr⟩ g) * Xb (ix4 0 0 g ⟨(x 3).val, (x 3).isLt⟩))
        + bv (ix1 ⟨o + (x 2).val, hr⟩) := by
  have h0 : (x 0).val = 0 := by have := (x 0).isLt; simp at this; omega
  have h1 : (x 1).val = 0 := by have := (x 1).isLt; simp at this; omega
  have hx : x = ix4 (0 : Fin 1) (0 : Fin 1) ⟨(x 2).val, (x 2).isLt⟩ ⟨(x 3).val, (x 3).isLt⟩ := by
    funext a
    apply Fin.ext
    match a with
    | ⟨0, _⟩ => exact h0
    | ⟨1, _⟩ => exact h1
    | ⟨2, _⟩ => rfl
    | ⟨3, _⟩ => rfl
  refine Eq.trans (by conv_lhs => rw [hx]) ?_
  exact storedRows_at D hD Wv bv Xb hbits hcX hcb hbc hs hco ⟨(x 2).val, (x 2).isLt⟩ ⟨(x 3).val, (x 3).isLt⟩ hr

end Cert.BandLinear

end
-- ==== Proof.StoredRowsBlock.lean ====
/-
  One store of the kernel is the block value on its rows.

  A store writes, into rows [off, off + w) of channel c of batch entry b of the [8, 2, 1025, 128] output block, rows
  [c·w, c·w + w) of  W · X(n, b) + bias,  where n is the band that begins at row off and has width w, W and bias that band's
  weights, and X(n, b) the [32, 128] slab of the step's input block at band n, batch entry b. So at each of its local
  indices the stored value is the block value (`blockValue`) at the block index under it.
-/
import proofs.«119640_j67224828117616_1_alg».proof.Proof.StoredRows
import Idealize.ShloMosaic.Lib.Pipeline.FrameBody

noncomputable section

open scoped BigOperators

namespace Cert.BandLinear

open Idealize.ShloMosaic Idealize.ShloMosaic.ValueIdx

/-- The stored rows at local index x are the block value at the block index the store's rectangle puts x at. -/
theorem storedRows_eq_blockValue {R w : ℕ} (n b c o off : ℕ) (hn : n < 12) (hw : w = bandWidth n) (hR : R = 2 * w)
    (ho : o = c * w) (hoff : off = bandStart n)
    (P : Params) (Wv : FVec Ideal ⟨2, ![R, 32]⟩ .f32) (bv : FVec Ideal ⟨1, ![R]⟩ .f32)
    (hW : ∀ (r : ℕ) (g : Fin 32), P.W n r g = if h : r < R then Wv (ix2 ⟨r, h⟩ g) else 0)
    (hb : ∀ r : ℕ, P.b n r = if h : r < R then bv (ix1 ⟨r, h⟩) else 0)
    (X : Vec Ideal ⟨4, ![12, 8, 32, 128]⟩ .f32)
    (D : DotDims ⟨2, ![R, 32]⟩ ⟨2, ![32, 128]⟩ ⟨2, ![R, 128]⟩) (hD : D = DotDims.plain R 32 128)
    (hbits : FTy.bits .bf16 < FTy.bits .f32)
    (hcX : (⟨4, ![1, 1, 32, 128]⟩ : Shape).ShapeCasts ⟨2, ![32, 128]⟩)
    (hcb : (⟨1, ![R]⟩ : Shape).ShapeCasts ⟨2, ![R, 1]⟩)
    (hbc : (⟨2, ![R, 1]⟩ : Shape).Broadcasts ⟨2, ![R, 128]⟩)
    (hs : (⟨2, ![R, 128]⟩ : Shape).Slices ![o, 0] ⟨2, ![w, 128]⟩)
    (hco : (⟨2, ![w, 128]⟩ : Shape).ShapeCasts ⟨4, ![1, 1, w, 128]⟩)
    (inbX : ∀ a, (![n, b, 0, 0] : Fin 4 → ℕ) a + (![1, 1, 32, 128] : Fin 4 → ℕ) a ≤ (⟨4, ![12, 8, 32, 128]⟩ : Shape).size a)
    (inbO : ∀ a, (![b, c, off, 0] : Fin 4 → ℕ) a + (![1, 1, w, 128] : Fin 4 → ℕ) a ≤ (⟨4, ![8, 2, 1025, 128]⟩ : Shape).size a)
    (x : (⟨4, ![1, 1, w, 128]⟩ : Shape).Idx) :
    shapeCast ⟨4, ![1, 1, w, 128]⟩ (extractStridedSlice ⟨2, ![w, 128]⟩ ![o, 0]
      (addf (matmul D none (truncf .bf16 Wv hbits)
          (truncf .bf16 (shapeCast ⟨2, ![32, 128]⟩
            (View.ld (Val := Elt Ideal) (e' := .f32) X (Rect.unit (s := ⟨4, ![12, 8, 32, 128]⟩) ![n, b, 0, 0] ![1, 1, 32, 128] inbX)) hcX) hbits)
          (constant ⟨2, ![R, 128]⟩ .f32 0x00000000#32))
        (broadcastTo ⟨2, ![R, 128]⟩ (shapeCast ⟨2, ![R, 1]⟩ bv hcb) hbc)) hs) hco x
      = blockValue X P ((Rect.unit (s := ⟨4, ![8, 2, 1025, 128]⟩) ![b, c, off, 0] ![1, 1, w, 128] inbO).emb x) := by
  have hx2 : (x 2).val < w := (x 2).isLt
  have hc : c ≤ 1 := by have := inbO 1; simp at this; omega
  have hcw : c * w ≤ w := by
    rcases Nat.le_one_iff_eq_zero_or_eq_one.mp hc with rfl | rfl <;> omega
  have hr : o + (x 2).val < R := by omega
  rw [storedRows_apply D hD Wv bv _ hbits hcX hcb hbc hs hco x hr]
  -- the block index under x
  have e0 : (((Rect.unit (s := ⟨4, ![8, 2, 1025, 128]⟩) ![b, c, off, 0] ![1, 1, w, 128] inbO).emb x) 0).val = b := by
    have h0 : (x 0).val = 0 := by have := (x 0).isLt; simp at this; omega
    show b + 1 * (x 0).val = b; omega
  have e1 : (((Rect.unit (s := ⟨4, ![8, 2, 1025, 128]⟩) ![b, c, off, 0] ![1, 1, w, 128] inbO).emb x) 1).val = c := by
    have h1 : (x 1).val = 0 := by have := (x 1).isLt; simp at this; omega
    show c + 1 * (x 1).val = c; omega
  have e2 : (((Rect.unit (s := ⟨4, ![8, 2, 1025, 128]⟩) ![b, c, off, 0] ![1, 1, w, 128] inbO).emb x) 2).val = off + (x 2).val := by
    show off + 1 * (x 2).val = off + (x 2).val; omega
  have e3 : (((Rect.unit (s := ⟨4, ![8, 2, 1025, 128]⟩) ![b, c, off, 0] ![1, 1, w, 128] inbO).emb x) 3).val = (x 3).val := by
    show 0 + 1 * (x 3).val = (x 3).val; omega
  have hband : band (off + (x 2).val) = n := band_eq_of_bounds hn (by omega) (by omega)
  unfold blockValue rowValue
  simp only [e0, e1, e2, e3]
  rw [hband, bandFin_eq hband hn]
  have hidx : c * bandWidth n + (off + (x 2).val - bandStart n) = o + (x 2).val := by
    rw [← hw, ← hoff, ho]; omega
  rw [hidx, hb, dif_pos hr]
  congr 1
  refine Finset.sum_congr rfl fun g _ => ?_
  rw [hW, dif_pos hr]
  congr 1
  -- the slab's entry (g, l) is the input block's entry (n, b, g, l)
  show X ((Rect.unit (s := ⟨4, ![12, 8, 32, 128]⟩) ![n, b, 0, 0] ![1, 1, 32, 128] inbX).idx
      (ix4 (0 : Fin 1) (0 : Fin 1) g ⟨(x 3).val, (x 3).isLt⟩)) = _
  congr 1
  funext a
  apply Fin.ext
  match a with
  | ⟨0, _⟩ => show n + 1 * 0 = n; omega
  | ⟨1, _⟩ => show b + 1 * 0 = b; omega
  | ⟨2, _⟩ => show 0 + 1 * g.val = g.val; omega
  | ⟨3, _⟩ => show 0 + 1 * (x 3).val = (x 3).val; omega

end Cert.BandLinear

end
-- ==== Proof.KernelBlock.lean ====
/-
  What one grid step leaves in its output block.

  The step's 192 stores cover the [8, 2, 1025, 128] block, and each stored value is, at each of its entries, the block
  value (Proof/BandLinear.lean `blockValue`) at the block index under it (Proof/StoredRowsBlock.lean): so the block ends
  holding the block value of the step's input block and the weights.
-/
import proofs.«119640_j67224828117616_1_alg».proof.Proof.FramePIdeal
import proofs.«119640_j67224828117616_1_alg».proof.Proof.StoredRowsBlock

set_option maxRecDepth 16384

noncomputable section

namespace Cert.KernelIdeal.Block

open Cert.KernelIdeal Cert.KernelIdeal.Gen Cert.KernelIdeal.GenP Cert.BandLinear
open Idealize.ShloMosaic Idealize.ShloMosaic.TcCoe Idealize.ShloMosaic.Tactic Idealize.SL.Sem

theorem hz2 : (![0, 0] : Fin 2 → ℕ) = fun _ => 0 := funext fun a => by fin_cases a <;> rfl
theorem hz1 : (![0] : Fin 1 → ℕ) = fun _ => 0 := funext fun a => by fin_cases a <;> rfl

/-- The twelve weight matrices and bias vectors as a grid step finds them in its staging buffers. -/
def blockParams (x1 : Vec Ideal S170x32 .f32) (x2 : Vec Ideal S170 .f32) (x3 : Vec Ideal S170x32 .f32) (x4 : Vec Ideal S170 .f32) (x5 : Vec Ideal S172x32 .f32) (x6 : Vec Ideal S172 .f32) (x7 : Vec Ideal S170x32 .f32) (x8 : Vec Ideal S170 .f32) (x9 : Vec Ideal S172x32 .f32) (x10 : Vec Ideal S172 .f32) (x11 : Vec Ideal S170x32 .f32) (x12 : Vec Ideal S170 .f32) (x13 : Vec Ideal S170x32 .f32) (x14 : Vec Ideal S170 .f32) (x15 : Vec Ideal S172x32 .f32) (x16 : Vec Ideal S172 .f32) (x17 : Vec Ideal S170x32 .f32) (x18 : Vec Ideal S170 .f32) (x19 : Vec Ideal S172x32 .f32) (x20 : Vec Ideal S172 .f32) (x21 : Vec Ideal S170x32 .f32) (x22 : Vec Ideal S170 .f32) (x23 : Vec Ideal S172x32 .f32) (x24 : Vec Ideal S172 .f32) : Params :=
  ⟨x1, x2, x3, x4, x5, x6, x7, x8, x9, x10, x11, x12, x13, x14, x15, x16, x17, x18, x19, x20, x21, x22, x23, x24⟩

set_option maxHeartbeats 8000000 in
/-- The output block after the body: the block value of the input block and the weights. -/
theorem out_eq (c : Dev nD) (i : grid0.Coords) (arg1 : Memref sig .tc .vmem S12x8x32x128 .f32) (harg1 : arg1.IsWhole) (arg2 : Memref sig .tc .vmem S170x32 .f32) (harg2 : arg2.IsWhole) (arg3 : Memref sig .tc .vmem S170 .f32) (harg3 : arg3.IsWhole) (arg4 : Memref sig .tc .vmem S170x32 .f32) (harg4 : arg4.IsWhole) (arg5 : Memref sig .tc .vmem S170 .f32) (harg5 : arg5.IsWhole) (arg6 : Memref sig .tc .vmem S172x32 .f32) (harg6 : arg6.IsWhole) (arg7 : Memref sig .tc .vmem S172 .f32) (harg7 : arg7.IsWhole) (arg8 : Memref sig .tc .vmem S170x32 .f32) (harg8 : arg8.IsWhole) (arg9 : Memref sig .tc .vmem S170 .f32) (harg9 : arg9.IsWhole) (arg10 : Memref sig .tc .vmem S172x32 .f32) (harg10 : arg10.IsWhole) (arg11 : Memref sig .tc .vmem S172 .f32) (harg11 : arg11.IsWhole) (arg12 : Memref sig .tc .vmem S170x32 .f32) (harg12 : arg12.IsWhole) (arg13 : Memref sig .tc .vmem S170 .f32) (harg13 : arg13.IsWhole) (arg14 : Memref sig .tc .vmem S170x32 .f32) (harg14 : arg14.IsWhole) (arg15 : Memref sig .tc .vmem S170 .f32) (harg15 : arg15.IsWhole) (arg16 : Memref sig .tc .vmem S172x32 .f32) (harg16 : arg16.IsWhole) (arg17 : Memref sig .tc .vmem S172 .f32) (harg17 : arg17.IsWhole) (arg18 : Memref sig .tc .vmem S170x32 .f32) (harg18 : arg18.IsWhole) (arg19 : Memref sig .tc .vmem S170 .f32) (harg19 : arg19.IsWhole) (arg20 : Memref sig .tc .vmem S172x32 .f32) (harg20 : arg20.IsWhole) (arg21 : Memref sig .tc .vmem S172 .f32) (harg21 : arg21.IsWhole) (arg22 : Memref sig .tc .vmem S170x32 .f32) (harg22 : arg22.IsWhole) (arg23 : Memref sig .tc .vmem S170 .f32) (harg23 : arg23.IsWhole) (arg24 : Memref sig .tc .vmem S172x32 .f32) (harg24 : arg24.IsWhole) (arg25 : Memref sig .tc .vmem S172 .f32) (harg25 : arg25.IsWhole) (arg26 : Memref sig .tc .vmem S8x2x1025x128 .f32) (harg26 : arg26.IsWhole)
    (x0 : Vec Ideal S12x8x32x128 .f32) (x1 : Vec Ideal S170x32 .f32) (x2 : Vec Ideal S170 .f32) (x3 : Vec Ideal S170x32 .f32) (x4 : Vec Ideal S170 .f32) (x5 : Vec Ideal S172x32 .f32) (x6 : Vec Ideal S172 .f32) (x7 : Vec Ideal S170x32 .f32) (x8 : Vec Ideal S170 .f32) (x9 : Vec Ideal S172x32 .f32) (x10 : Vec Ideal S172 .f32) (x11 : Vec Ideal S170x32 .f32) (x12 : Vec Ideal S170 .f32) (x13 : Vec Ideal S170x32 .f32) (x14 : Vec Ideal S170 .f32) (x15 : Vec Ideal S172x32 .f32) (x16 : Vec Ideal S172 .f32) (x17 : Vec Ideal S170x32 .f32) (x18 : Vec Ideal S170 .f32) (x19 : Vec Ideal S172x32 .f32) (x20 : Vec Ideal S172 .f32) (x21 : Vec Ideal S170x32 .f32) (x22 : Vec Ideal S170 .f32) (x23 : Vec Ideal S172x32 .f32) (x24 : Vec Ideal S172 .f32) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24
      = blockValue x0 (blockParams x1 x2 x3 x4 x5 x6 x7 x8 x9 x10 x11 x12 x13 x14 x15 x16 x17 x18 x19 x20 x21 x22 x23 x24) := by
  funext y
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24)]
  refine View.canon_apply_of_pieces (blockValue x0 (blockParams x1 x2 x3 x4 x5 x6 x7 x8 x9 x10 x11 x12 x13 x14 x15 x16 x17 x18 x19 x20 x21 x22 x23 x24)) _ ?_ y
    (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread,
    View.ld_unit_zero (S := S170x32) hz2, View.ld_unit_zero (S := S172x32) hz2,
    View.ld_unit_zero (S := S170) hz1, View.ld_unit_zero (S := S172) hz1]
  repeat' (first | exact List.forall_mem_nil _ | refine List.forall_mem_cons.2 ⟨fun x => ?_, ?_⟩)
  all_goals
    dsimp only
    exact storedRows_eq_blockValue _ _ _ _ _ (by decide) (by rfl) (by rfl) (by rfl) (by rfl) _ _ _
      (fun _ _ => by rfl) (fun _ => by rfl) _ _ (by rfl) bitsLt_bf16_f32 shapeCasts_S1x1x32x128_S32x128
      (by first | exact shapeCasts_S170_S170x1 | exact shapeCasts_S172_S172x1)
      (by first | exact broadcasts_S170x1_S170x128 | exact broadcasts_S172x1_S172x128)
      (by first | exact slices_S170x128_o0_0_S85x128 | exact slices_S170x128_o85_0_S85x128 | exact slices_S172x128_o0_0_S86x128 | exact slices_S172x128_o86_0_S86x128)
      (by first | exact shapeCasts_S85x128_S1x1x85x128 | exact shapeCasts_S86x128_S1x1x86x128)
      (by decide) (by decide) x

end Cert.KernelIdeal.Block

end
-- ==== Proof.Layouts.lean ====
/-
  The layout chains around the band-wise product, read at coordinates.

  * The reference cuts band n out of x re-laid as [8, 4096, 12, 32] (batch, time, band, group), multiplies the [8, 4096, 32]
    slab by the band's weight matrix transposed, adds the bias along the last axis, splits the 2·w result columns into
    (channel, position) and moves time last: at (b, c, p, t) that is  Σ_g xT (b, t, n, g) · W (c·w + p, g) + bias (c·w + p).
  * x re-laid as [8, 4096, 12, 32] reads x (b, g·12 + n, 0, t) at (b, t, n, g); the kernel's re-laying of x as
    [12, 8, 32, 4096] (band, batch, group, time) reads the same entry at (n, b, g, t).
-/
import Idealize.ShloMosaic.Lib.Pipeline.Value
import Idealize.ShloMosaic.Lib.ValueIdx
import Idealize.ShloMosaic.PureOps.Ideal.Laws

noncomputable section

open scoped BigOperators

namespace Cert.BandLinear

open Idealize.ShloMosaic Idealize.ShloMosaic.ValueIdx

/-- x split as [8, 32, 12, 4096] and re-laid as [8, 4096, 12, 32], at (b, t, n, g): x at channel g·12 + n. -/
theorem xTimeMajor_at (x0 : (⟨4, ![8, 384, 1, 4096]⟩ : Shape).Idx → EReal)
    (hc : (⟨4, ![8, 384, 1, 4096]⟩ : Shape).ShapeCasts ⟨4, ![8, 32, 12, 4096]⟩)
    (ht : (⟨4, ![8, 32, 12, 4096]⟩ : Shape).Transposes [0, 3, 2, 1] ⟨4, ![8, 4096, 12, 32]⟩)
    (b : Fin 8) (t : Fin 4096) (n : Fin 12) (g : Fin 32) (hch : g.val * 12 + n.val < 384) :
    transpose ⟨4, ![8, 4096, 12, 32]⟩ [0, 3, 2, 1] (shapeCast ⟨4, ![8, 32, 12, 4096]⟩ x0 hc) ht (ix4 b t n g)
      = x0 (ix4 b ⟨g.val * 12 + n.val, hch⟩ (0 : Fin 1) t) := by
  refine (transpose_apply [0, 3, 2, 1] _ ht (ix4 b t n g) (ix4 b g n t) fun a => ?_).trans ?_
  · match a with
    | ⟨0, _⟩ => rfl
    | ⟨1, _⟩ => rfl
    | ⟨2, _⟩ => rfl
    | ⟨3, _⟩ => rfl
  refine shapeCast_apply x0 hc (ix4 b g n t) _ ?_
  rw [Shape.rowMajor_val_four, Shape.rowMajor_val_four]
  show ((b.val * 384 + (g.val * 12 + n.val)) * 1 + 0) * 4096 + t.val = ((b.val * 32 + g.val) * 12 + n.val) * 4096 + t.val
  omega

/-- x squeezed to [8, 384, 4096], split as [8, 32, 12, 4096] and re-laid as [12, 8, 32, 4096], at (n, b, g, t): x at
    channel g·12 + n. -/
theorem xBandMajor_at (x0 : (⟨4, ![8, 384, 1, 4096]⟩ : Shape).Idx → EReal)
    (hc0 : (⟨4, ![8, 384, 1, 4096]⟩ : Shape).ShapeCasts ⟨3, ![8, 384, 4096]⟩)
    (hc : (⟨3, ![8, 384, 4096]⟩ : Shape).ShapeCasts ⟨4, ![8, 32, 12, 4096]⟩)
    (ht : (⟨4, ![8, 32, 12, 4096]⟩ : Shape).Transposes [2, 0, 1, 3] ⟨4, ![12, 8, 32, 4096]⟩)
    (n : Fin 12) (b : Fin 8) (g : Fin 32) (t : Fin 4096) (hch : g.val * 12 + n.val < 384) :
    transpose ⟨4, ![12, 8, 32, 4096]⟩ [2, 0, 1, 3] (shapeCast ⟨4, ![8, 32, 12, 4096]⟩ (shapeCast ⟨3, ![8, 384, 4096]⟩ x0 hc0) hc) ht
        (ix4 n b g t)
      = x0 (ix4 b ⟨g.val * 12 + n.val, hch⟩ (0 : Fin 1) t) := by
  refine (transpose_apply [2, 0, 1, 3] _ ht (ix4 n b g t) (ix4 b g n t) fun a => ?_).trans ?_
  · match a with
    | ⟨0, _⟩ => rfl
    | ⟨1, _⟩ => rfl
    | ⟨2, _⟩ => rfl
    | ⟨3, _⟩ => rfl
  refine (shapeCast_apply _ hc (ix4 b g n t) (ix3 b ⟨g.val * 12 + n.val, hch⟩ t) ?_).trans ?_
  · rw [Shape.rowMajor_val_three, Shape.rowMajor_val_four]
    show (b.val * 384 + (g.val * 12 + n.val)) * 4096 + t.val = ((b.val * 32 + g.val) * 12 + n.val) * 4096 + t.val
    omega
  refine shapeCast_apply x0 hc0 (ix3 b ⟨g.val * 12 + n.val, hch⟩ t) _ ?_
  rw [Shape.rowMajor_val_four, Shape.rowMajor_val_three]
  show ((b.val * 384 + (g.val * 12 + n.val)) * 1 + 0) * 4096 + t.val = (b.val * 384 + (g.val * 12 + n.val)) * 4096 + t.val
  omega

/-- One band of the reference at (b, c, p, t), over x re-laid time-major (`xT`): the product of the band's slab with the
    weight matrix transposed (given as the sum `hdot` says the host's product is), plus the bias. -/
theorem refBand_at {R w n : ℕ} (hR : R = 2 * w)
    (D : DotDims ⟨3, ![8, 4096, 32]⟩ ⟨2, ![R, 32]⟩ ⟨3, ![8, 4096, R]⟩)
    (hdot : ∀ (A : FVec Ideal ⟨3, ![8, 4096, 32]⟩ .f32) (B : FVec Ideal ⟨2, ![R, 32]⟩ .f32) (b : Fin 8) (t : Fin 4096) (r : Fin R),
      Host.dotGeneral D none A B (ix3 b t r) = ∑ k : Fin 32, A (ix3 b t k) * B (ix2 r k))
    (xT : FVec Ideal ⟨4, ![8, 4096, 12, 32]⟩ .f32) (Wv : FVec Ideal ⟨2, ![R, 32]⟩ .f32) (bv : FVec Ideal ⟨1, ![R]⟩ .f32)
    (hs : (⟨4, ![8, 4096, 12, 32]⟩ : Shape).Slices ![0, 0, n, 0] ⟨4, ![8, 4096, 1, 32]⟩)
    (hc1 : (⟨4, ![8, 4096, 1, 32]⟩ : Shape).ShapeCasts ⟨3, ![8, 4096, 32]⟩)
    (hb1 : (⟨1, ![R]⟩ : Shape).BroadcastsInDim ⟨3, ![1, 1, R]⟩ ![2])
    (hb2 : (⟨3, ![1, 1, R]⟩ : Shape).BroadcastsInDim ⟨3, ![8, 4096, R]⟩ ![0, 1, 2])
    (hc2 : (⟨3, ![8, 4096, R]⟩ : Shape).ShapeCasts ⟨4, ![8, 4096, 2, w]⟩)
    (ht : (⟨4, ![8, 4096, 2, w]⟩ : Shape).Transposes [0, 2, 3, 1] ⟨4, ![8, 2, w, 4096]⟩)
    (b : Fin 8) (c : Fin 2) (p : Fin w) (t : Fin 4096) (hn : n < 12) (hr : c.val * w + p.val < R) :
    transpose ⟨4, ![8, 2, w, 4096]⟩ [0, 2, 3, 1] (shapeCast ⟨4, ![8, 4096, 2, w]⟩
        (addf (Host.dotGeneral D none (shapeCast ⟨3, ![8, 4096, 32]⟩ (extractStridedSlice ⟨4, ![8, 4096, 1, 32]⟩ ![0, 0, n, 0] xT hs) hc1) Wv)
          (broadcastInDim ⟨3, ![8, 4096, R]⟩ ![0, 1, 2] hb2 (broadcastInDim ⟨3, ![1, 1, R]⟩ ![2] hb1 bv))) hc2) ht (ix4 b c p t)
      = (∑ g : Fin 32, xT (ix4 b t ⟨n, hn⟩ g) * Wv (ix2 ⟨c.val * w + p.val, hr⟩ g)) + bv (ix1 ⟨c.val * w + p.val, hr⟩) := by
  -- time moved last: (b, c, p, t) is (b, t, c, p) before
  refine (transpose_apply [0, 2, 3, 1] _ ht (ix4 b c p t) (ix4 b t c p) fun a => ?_).trans ?_
  · match a with
    | ⟨0, _⟩ => rfl
    | ⟨1, _⟩ => rfl
    | ⟨2, _⟩ => rfl
    | ⟨3, _⟩ => rfl
  -- (channel, position) is column c·w + p
  refine (shapeCast_apply _ hc2 (ix4 b t c p) (ix3 b t ⟨c.val * w + p.val, hr⟩) ?_).trans ?_
  · rw [Shape.rowMajor_val_three, Shape.rowMajor_val_four]
    show (b.val * 4096 + t.val) * R + (c.val * w + p.val) = ((b.val * 4096 + t.val) * 2 + c.val) * w + p.val
    subst hR
    ring
  rw [addf_apply, hdot]
  congr 1
  · refine Finset.sum_congr rfl fun g _ => ?_
    congr 1
    -- the slab's entry (b, t, g) is xT (b, t, n, g)
    refine (shapeCast_apply _ hc1 (ix3 b t g) (ix4 b t (0 : Fin 1) g) ?_).trans ?_
    · rw [Shape.rowMajor_val_four, Shape.rowMajor_val_three]
      show ((b.val * 4096 + t.val) * 1 + 0) * 32 + g.val = (b.val * 4096 + t.val) * 32 + g.val
      omega
    refine extractStridedSlice_apply ![0, 0, n, 0] xT hs (ix4 b t (0 : Fin 1) g) (ix4 b t ⟨n, hn⟩ g) fun a => ?_
    match a with
    | ⟨0, _⟩ => show b.val = 0 + b.val; omega
    | ⟨1, _⟩ => show t.val = 0 + t.val; omega
    | ⟨2, _⟩ => rfl
    | ⟨3, _⟩ => show g.val = 0 + g.val; omega
  · -- the bias along the last axis
    refine (broadcastInDim_apply ![0, 1, 2] hb2 _ (ix3 b t ⟨c.val * w + p.val, hr⟩) (ix3 (0 : Fin 1) (0 : Fin 1) ⟨c.val * w + p.val, hr⟩) fun a => ?_).trans ?_
    · match a with
      | ⟨0, _⟩ => show 0 = if (1 : ℕ) = 1 then 0 else b.val; rw [if_pos rfl]
      | ⟨1, _⟩ => show 0 = if (1 : ℕ) = 1 then 0 else t.val; rw [if_pos rfl]
      | ⟨2, _⟩ =>
        show c.val * w + p.val = if R = 1 then 0 else c.val * w + p.val
        split
        · omega
        · rfl
    refine broadcastInDim_apply ![2] hb1 bv (ix3 (0 : Fin 1) (0 : Fin 1) ⟨c.val * w + p.val, hr⟩) (ix1 ⟨c.val * w + p.val, hr⟩) fun a => ?_
    match a with
    | ⟨0, _⟩ =>
      show c.val * w + p.val = if R = 1 then 0 else c.val * w + p.val
      split
      · omega
      · rfl

end Cert.BandLinear

end
-- ==== Proof.KernelValue.lean ====
/-
  The kernel computes the band-wise linear map.

  Grid step t fetches columns [128·t, 128·t + 128) of x re-laid band-major and all the weights, and writes back columns
  [128·t, 128·t + 128) of the result. Its output block holds the block value of its input block (Proof/KernelBlock.lean),
  which at block index (b, c, f, l) is `result` of the kernel's arguments at (b, c, f, 128·t + l); the 32 steps' blocks
  cover the result array, so it ends holding `result` of the arguments.
-/
import proofs.«119640_j67224828117616_1_alg».proof.Proof.ValuePIdeal
import proofs.«119640_j67224828117616_1_alg».proof.Proof.KernelBlock
import proofs.«119640_j67224828117616_1_alg».proof.Proof.Layouts
import Idealize.ShloMosaic.Lib.StableHlo.Run

set_option maxRecDepth 16384

noncomputable section

namespace Cert.KernelIdeal.KernelValue

open Cert.KernelIdeal Cert.KernelIdeal.Gen Cert.KernelIdeal.GenP Cert.KernelIdeal.ValueP Cert.KernelIdeal.Block Cert.BandLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The twelve weight matrices and bias vectors as the kernel finds them in memory. -/
def params (c : Dev nD) : Params where
    W0 := m ((c : Thread nD τ).loc main_arg1)
    b0 := m ((c : Thread nD τ).loc main_arg2)
    W1 := m ((c : Thread nD τ).loc main_arg3)
    b1 := m ((c : Thread nD τ).loc main_arg4)
    W2 := m ((c : Thread nD τ).loc main_arg5)
    b2 := m ((c : Thread nD τ).loc main_arg6)
    W3 := m ((c : Thread nD τ).loc main_arg7)
    b3 := m ((c : Thread nD τ).loc main_arg8)
    W4 := m ((c : Thread nD τ).loc main_arg9)
    b4 := m ((c : Thread nD τ).loc main_arg10)
    W5 := m ((c : Thread nD τ).loc main_arg11)
    b5 := m ((c : Thread nD τ).loc main_arg12)
    W6 := m ((c : Thread nD τ).loc main_arg13)
    b6 := m ((c : Thread nD τ).loc main_arg14)
    W7 := m ((c : Thread nD τ).loc main_arg15)
    b7 := m ((c : Thread nD τ).loc main_arg16)
    W8 := m ((c : Thread nD τ).loc main_arg17)
    b8 := m ((c : Thread nD τ).loc main_arg18)
    W9 := m ((c : Thread nD τ).loc main_arg19)
    b9 := m ((c : Thread nD τ).loc main_arg20)
    W10 := m ((c : Thread nD τ).loc main_arg21)
    b10 := m ((c : Thread nD τ).loc main_arg22)
    W11 := m ((c : Thread nD τ).loc main_arg23)
    b11 := m ((c : Thread nD τ).loc main_arg24)

/-! ## The weights' windows: each step's block is the whole array -/

theorem iblk_1 (c : Dev nD) (t : Fin cfg0.N) : iblk m c 1 t = V m c main_arg1 := by
  have e := (by decide +kernel : ∀ t : Fin grid0.N, win0_1.index t (0 : Fin 2) = 0 ∧ win0_1.index t (1 : Fin 2) = 0) t
  funext y
  show V m c main_arg1 (((cfg0.win 1).blk t).view.emb y) = V m c main_arg1 y
  congr 1; funext a; apply Fin.ext
  match a with
  | ⟨0, _⟩ => show win0_1.index t (0 : Fin 2) * 170 + 1 * (y 0).val = (y 0).val; rw [e.1]; omega
  | ⟨1, _⟩ => show win0_1.index t (1 : Fin 2) * 32 + 1 * (y 1).val = (y 1).val; rw [e.2]; omega

theorem iblk_2 (c : Dev nD) (t : Fin cfg0.N) : iblk m c 2 t = V m c main_arg2 := by
  have e := (by decide +kernel : ∀ t : Fin grid0.N, win0_2.index t (0 : Fin 1) = 0) t
  funext y
  show V m c main_arg2 (((cfg0.win 2).blk t).view.emb y) = V m c main_arg2 y
  congr 1; funext a; apply Fin.ext
  match a with
  | ⟨0, _⟩ => show win0_2.index t (0 : Fin 1) * 170 + 1 * (y 0).val = (y 0).val; rw [e]; omega

theorem iblk_3 (c : Dev nD) (t : Fin cfg0.N) : iblk m c 3 t = V m c main_arg3 := by
  have e := (by decide +kernel : ∀ t : Fin grid0.N, win0_3.index t (0 : Fin 2) = 0 ∧ win0_3.index t (1 : Fin 2) = 0) t
  funext y
  show V m c main_arg3 (((cfg0.win 3).blk t).view.emb y) = V m c main_arg3 y
  congr 1; funext a; apply Fin.ext
  match a with
  | ⟨0, _⟩ => show win0_3.index t (0 : Fin 2) * 170 + 1 * (y 0).val = (y 0).val; rw [e.1]; omega
  | ⟨1, _⟩ => show win0_3.index t (1 : Fin 2) * 32 + 1 * (y 1).val = (y 1).val; rw [e.2]; omega

theorem iblk_4 (c : Dev nD) (t : Fin cfg0.N) : iblk m c 4 t = V m c main_arg4 := by
  have e := (by decide +kernel : ∀ t : Fin grid0.N, win0_4.index t (0 : Fin 1) = 0) t
  funext y
  show V m c main_arg4 (((cfg0.win 4).blk t).view.emb y) = V m c main_arg4 y
  congr 1; funext a; apply Fin.ext
  match a with
  | ⟨0, _⟩ => show win0_4.index t (0 : Fin 1) * 170 + 1 * (y 0).val = (y 0).val; rw [e]; omega

theorem iblk_5 (c : Dev nD) (t : Fin cfg0.N) : iblk m c 5 t = V m c main_arg5 := by
  have e := (by decide +kernel : ∀ t : Fin grid0.N, win0_5.index t (0 : Fin 2) = 0 ∧ win0_5.index t (1 : Fin 2) = 0) t
  funext y
  show V m c main_arg5 (((cfg0.win 5).blk t).view.emb y) = V m c main_arg5 y
  congr 1; funext a; apply Fin.ext
  match a with
  | ⟨0, _⟩ => show win0_5.index t (0 : Fin 2) * 172 + 1 * (y 0).val = (y 0).val; rw [e.1]; omega
  | ⟨1, _⟩ => show win0_5.index t (1 : Fin 2) * 32 + 1 * (y 1).val = (y 1).val; rw [e.2]; omega

theorem iblk_6 (c : Dev nD) (t : Fin cfg0.N) : iblk m c 6 t = V m c main_arg6 := by
  have e := (by decide +kernel : ∀ t : Fin grid0.N, win0_6.index t (0 : Fin 1) = 0) t
  funext y
  show V m c main_arg6 (((cfg0.win 6).blk t).view.emb y) = V m c main_arg6 y
  congr 1; funext a; apply Fin.ext
  match a with
  | ⟨0, _⟩ => show win0_6.index t (0 : Fin 1) * 172 + 1 * (y 0).val = (y 0).val; rw [e]; omega

theorem iblk_7 (c : Dev nD) (t : Fin cfg0.N) : iblk m c 7 t = V m c main_arg7 := by
  have e := (by decide +kernel : ∀ t : Fin grid0.N, win0_7.index t (0 : Fin 2) = 0 ∧ win0_7.index t (1 : Fin 2) = 0) t
  funext y
  show V m c main_arg7 (((cfg0.win 7).blk t).view.emb y) = V m c main_arg7 y
  congr 1; funext a; apply Fin.ext
  match a with
  | ⟨0, _⟩ => show win0_7.index t (0 : Fin 2) * 170 + 1 * (y 0).val = (y 0).val; rw [e.1]; omega
  | ⟨1, _⟩ => show win0_7.index t (1 : Fin 2) * 32 + 1 * (y 1).val = (y 1).val; rw [e.2]; omega

theorem iblk_8 (c : Dev nD) (t : Fin cfg0.N) : iblk m c 8 t = V m c main_arg8 := by
  have e := (by decide +kernel : ∀ t : Fin grid0.N, win0_8.index t (0 : Fin 1) = 0) t
  funext y
  show V m c main_arg8 (((cfg0.win 8).blk t).view.emb y) = V m c main_arg8 y
  congr 1; funext a; apply Fin.ext
  match a with
  | ⟨0, _⟩ => show win0_8.index t (0 : Fin 1) * 170 + 1 * (y 0).val = (y 0).val; rw [e]; omega

theorem iblk_9 (c : Dev nD) (t : Fin cfg0.N) : iblk m c 9 t = V m c main_arg9 := by
  have e := (by decide +kernel : ∀ t : Fin grid0.N, win0_9.index t (0 : Fin 2) = 0 ∧ win0_9.index t (1 : Fin 2) = 0) t
  funext y
  show V m c main_arg9 (((cfg0.win 9).blk t).view.emb y) = V m c main_arg9 y
  congr 1; funext a; apply Fin.ext
  match a with
  | ⟨0, _⟩ => show win0_9.index t (0 : Fin 2) * 172 + 1 * (y 0).val = (y 0).val; rw [e.1]; omega
  | ⟨1, _⟩ => show win0_9.index t (1 : Fin 2) * 32 + 1 * (y 1).val = (y 1).val; rw [e.2]; omega

theorem iblk_10 (c : Dev nD) (t : Fin cfg0.N) : iblk m c 10 t = V m c main_arg10 := by
  have e := (by decide +kernel : ∀ t : Fin grid0.N, win0_10.index t (0 : Fin 1) = 0) t
  funext y
  show V m c main_arg10 (((cfg0.win 10).blk t).view.emb y) = V m c main_arg10 y
  congr 1; funext a; apply Fin.ext
  match a with
  | ⟨0, _⟩ => show win0_10.index t (0 : Fin 1) * 172 + 1 * (y 0).val = (y 0).val; rw [e]; omega

theorem iblk_11 (c : Dev nD) (t : Fin cfg0.N) : iblk m c 11 t = V m c main_arg11 := by
  have e := (by decide +kernel : ∀ t : Fin grid0.N, win0_11.index t (0 : Fin 2) = 0 ∧ win0_11.index t (1 : Fin 2) = 0) t
  funext y
  show V m c main_arg11 (((cfg0.win 11).blk t).view.emb y) = V m c main_arg11 y
  congr 1; funext a; apply Fin.ext
  match a with
  | ⟨0, _⟩ => show win0_11.index t (0 : Fin 2) * 170 + 1 * (y 0).val = (y 0).val; rw [e.1]; omega
  | ⟨1, _⟩ => show win0_11.index t (1 : Fin 2) * 32 + 1 * (y 1).val = (y 1).val; rw [e.2]; omega

theorem iblk_12 (c : Dev nD) (t : Fin cfg0.N) : iblk m c 12 t = V m c main_arg12 := by
  have e := (by decide +kernel : ∀ t : Fin grid0.N, win0_12.index t (0 : Fin 1) = 0) t
  funext y
  show V m c main_arg12 (((cfg0.win 12).blk t).view.emb y) = V m c main_arg12 y
  congr 1; funext a; apply Fin.ext
  match a with
  | ⟨0, _⟩ => show win0_12.index t (0 : Fin 1) * 170 + 1 * (y 0).val = (y 0).val; rw [e]; omega

theorem iblk_13 (c : Dev nD) (t : Fin cfg0.N) : iblk m c 13 t = V m c main_arg13 := by
  have e := (by decide +kernel : ∀ t : Fin grid0.N, win0_13.index t (0 : Fin 2) = 0 ∧ win0_13.index t (1 : Fin 2) = 0) t
  funext y
  show V m c main_arg13 (((cfg0.win 13).blk t).view.emb y) = V m c main_arg13 y
  congr 1; funext a; apply Fin.ext
  match a with
  | ⟨0, _⟩ => show win0_13.index t (0 : Fin 2) * 170 + 1 * (y 0).val = (y 0).val; rw [e.1]; omega
  | ⟨1, _⟩ => show win0_13.index t (1 : Fin 2) * 32 + 1 * (y 1).val = (y 1).val; rw [e.2]; omega

theorem iblk_14 (c : Dev nD) (t : Fin cfg0.N) : iblk m c 14 t = V m c main_arg14 := by
  have e := (by decide +kernel : ∀ t : Fin grid0.N, win0_14.index t (0 : Fin 1) = 0) t
  funext y
  show V m c main_arg14 (((cfg0.win 14).blk t).view.emb y) = V m c main_arg14 y
  congr 1; funext a; apply Fin.ext
  match a with
  | ⟨0, _⟩ => show win0_14.index t (0 : Fin 1) * 170 + 1 * (y 0).val = (y 0).val; rw [e]; omega

theorem iblk_15 (c : Dev nD) (t : Fin cfg0.N) : iblk m c 15 t = V m c main_arg15 := by
  have e := (by decide +kernel : ∀ t : Fin grid0.N, win0_15.index t (0 : Fin 2) = 0 ∧ win0_15.index t (1 : Fin 2) = 0) t
  funext y
  show V m c main_arg15 (((cfg0.win 15).blk t).view.emb y) = V m c main_arg15 y
  congr 1; funext a; apply Fin.ext
  match a with
  | ⟨0, _⟩ => show win0_15.index t (0 : Fin 2) * 172 + 1 * (y 0).val = (y 0).val; rw [e.1]; omega
  | ⟨1, _⟩ => show win0_15.index t (1 : Fin 2) * 32 + 1 * (y 1).val = (y 1).val; rw [e.2]; omega

theorem iblk_16 (c : Dev nD) (t : Fin cfg0.N) : iblk m c 16 t = V m c main_arg16 := by
  have e := (by decide +kernel : ∀ t : Fin grid0.N, win0_16.index t (0 : Fin 1) = 0) t
  funext y
  show V m c main_arg16 (((cfg0.win 16).blk t).view.emb y) = V m c main_arg16 y
  congr 1; funext a; apply Fin.ext
  match a with
  | ⟨0, _⟩ => show win0_16.index t (0 : Fin 1) * 172 + 1 * (y 0).val = (y 0).val; rw [e]; omega

theorem iblk_17 (c : Dev nD) (t : Fin cfg0.N) : iblk m c 17 t = V m c main_arg17 := by
  have e := (by decide +kernel : ∀ t : Fin grid0.N, win0_17.index t (0 : Fin 2) = 0 ∧ win0_17.index t (1 : Fin 2) = 0) t
  funext y
  show V m c main_arg17 (((cfg0.win 17).blk t).view.emb y) = V m c main_arg17 y
  congr 1; funext a; apply Fin.ext
  match a with
  | ⟨0, _⟩ => show win0_17.index t (0 : Fin 2) * 170 + 1 * (y 0).val = (y 0).val; rw [e.1]; omega
  | ⟨1, _⟩ => show win0_17.index t (1 : Fin 2) * 32 + 1 * (y 1).val = (y 1).val; rw [e.2]; omega

theorem iblk_18 (c : Dev nD) (t : Fin cfg0.N) : iblk m c 18 t = V m c main_arg18 := by
  have e := (by decide +kernel : ∀ t : Fin grid0.N, win0_18.index t (0 : Fin 1) = 0) t
  funext y
  show V m c main_arg18 (((cfg0.win 18).blk t).view.emb y) = V m c main_arg18 y
  congr 1; funext a; apply Fin.ext
  match a with
  | ⟨0, _⟩ => show win0_18.index t (0 : Fin 1) * 170 + 1 * (y 0).val = (y 0).val; rw [e]; omega

theorem iblk_19 (c : Dev nD) (t : Fin cfg0.N) : iblk m c 19 t = V m c main_arg19 := by
  have e := (by decide +kernel : ∀ t : Fin grid0.N, win0_19.index t (0 : Fin 2) = 0 ∧ win0_19.index t (1 : Fin 2) = 0) t
  funext y
  show V m c main_arg19 (((cfg0.win 19).blk t).view.emb y) = V m c main_arg19 y
  congr 1; funext a; apply Fin.ext
  match a with
  | ⟨0, _⟩ => show win0_19.index t (0 : Fin 2) * 172 + 1 * (y 0).val = (y 0).val; rw [e.1]; omega
  | ⟨1, _⟩ => show win0_19.index t (1 : Fin 2) * 32 + 1 * (y 1).val = (y 1).val; rw [e.2]; omega

theorem iblk_20 (c : Dev nD) (t : Fin cfg0.N) : iblk m c 20 t = V m c main_arg20 := by
  have e := (by decide +kernel : ∀ t : Fin grid0.N, win0_20.index t (0 : Fin 1) = 0) t
  funext y
  show V m c main_arg20 (((cfg0.win 20).blk t).view.emb y) = V m c main_arg20 y
  congr 1; funext a; apply Fin.ext
  match a with
  | ⟨0, _⟩ => show win0_20.index t (0 : Fin 1) * 172 + 1 * (y 0).val = (y 0).val; rw [e]; omega

theorem iblk_21 (c : Dev nD) (t : Fin cfg0.N) : iblk m c 21 t = V m c main_arg21 := by
  have e := (by decide +kernel : ∀ t : Fin grid0.N, win0_21.index t (0 : Fin 2) = 0 ∧ win0_21.index t (1 : Fin 2) = 0) t
  funext y
  show V m c main_arg21 (((cfg0.win 21).blk t).view.emb y) = V m c main_arg21 y
  congr 1; funext a; apply Fin.ext
  match a with
  | ⟨0, _⟩ => show win0_21.index t (0 : Fin 2) * 170 + 1 * (y 0).val = (y 0).val; rw [e.1]; omega
  | ⟨1, _⟩ => show win0_21.index t (1 : Fin 2) * 32 + 1 * (y 1).val = (y 1).val; rw [e.2]; omega

theorem iblk_22 (c : Dev nD) (t : Fin cfg0.N) : iblk m c 22 t = V m c main_arg22 := by
  have e := (by decide +kernel : ∀ t : Fin grid0.N, win0_22.index t (0 : Fin 1) = 0) t
  funext y
  show V m c main_arg22 (((cfg0.win 22).blk t).view.emb y) = V m c main_arg22 y
  congr 1; funext a; apply Fin.ext
  match a with
  | ⟨0, _⟩ => show win0_22.index t (0 : Fin 1) * 170 + 1 * (y 0).val = (y 0).val; rw [e]; omega

theorem iblk_23 (c : Dev nD) (t : Fin cfg0.N) : iblk m c 23 t = V m c main_arg23 := by
  have e := (by decide +kernel : ∀ t : Fin grid0.N, win0_23.index t (0 : Fin 2) = 0 ∧ win0_23.index t (1 : Fin 2) = 0) t
  funext y
  show V m c main_arg23 (((cfg0.win 23).blk t).view.emb y) = V m c main_arg23 y
  congr 1; funext a; apply Fin.ext
  match a with
  | ⟨0, _⟩ => show win0_23.index t (0 : Fin 2) * 172 + 1 * (y 0).val = (y 0).val; rw [e.1]; omega
  | ⟨1, _⟩ => show win0_23.index t (1 : Fin 2) * 32 + 1 * (y 1).val = (y 1).val; rw [e.2]; omega

theorem iblk_24 (c : Dev nD) (t : Fin cfg0.N) : iblk m c 24 t = V m c main_arg24 := by
  have e := (by decide +kernel : ∀ t : Fin grid0.N, win0_24.index t (0 : Fin 1) = 0) t
  funext y
  show V m c main_arg24 (((cfg0.win 24).blk t).view.emb y) = V m c main_arg24 y
  congr 1; funext a; apply Fin.ext
  match a with
  | ⟨0, _⟩ => show win0_24.index t (0 : Fin 1) * 172 + 1 * (y 0).val = (y 0).val; rw [e]; omega

/-! ## The input window: columns [128·t, 128·t + 128) of x re-laid band-major -/

/-- The index maps of the input and the output window, decided over the 32 steps: block t along the last axis. -/
theorem idx_facts : ∀ t : Fin cfg0.N,
    win0_0.index t (0 : Fin 4) = 0 ∧ win0_0.index t (1 : Fin 4) = 0 ∧ win0_0.index t (2 : Fin 4) = 0 ∧ win0_0.index t (3 : Fin 4) = t.val
    ∧ win0_25.index t (0 : Fin 4) = 0 ∧ win0_25.index t (1 : Fin 4) = 0 ∧ win0_25.index t (2 : Fin 4) = 0 ∧ win0_25.index t (3 : Fin 4) = t.val :=
  (by decide +kernel : ∀ t : Fin grid0.N, _)

/-- x as the region finds it, re-laid band-major by the host operations before the call. -/
theorem V_xBandMajor (c : Dev nD) :
    (V m c main_v2 : S12x8x32x4096.Idx → EReal)
      = transpose S12x8x32x4096 [2, 0, 1, 3] (shapeCast S8x32x12x4096 (shapeCast S8x384x4096 (m ((c : Thread nD τ).loc main_arg0))
          shapeCasts_S8x384x1x4096_S8x384x4096) shapeCasts_S8x384x4096_S8x32x12x4096) transposes_S8x32x12x4096_S12x8x32x4096_2_0_1_3 := by
  dsimp only [Gen.V, Gen.hostOps0]
  after_results
  rfl

/-- Entry (n, b, g, l) of step t's input block: x at batch entry b, channel g·12 + n, time 128·t + l. -/
theorem iblk0_apply (c : Dev nD) (t : Fin cfg0.N) (n : Fin 12) (b : Fin 8) (g : Fin 32) (l : Fin 128)
    (hT : t.val * 128 + l.val < 4096) :
    iblk m c 0 t (ix4 n b g l) = m ((c : Thread nD τ).loc main_arg0) (ix4 b (chan g n) (0 : Fin 1) ⟨t.val * 128 + l.val, hT⟩) := by
  obtain ⟨e0, e1, e2, e3, -, -, -, -⟩ := idx_facts t
  show V m c main_v2 (((cfg0.win 0).blk t).view.emb (ix4 n b g l)) = _
  have hemb : ((cfg0.win 0).blk t).view.emb (ix4 n b g l) = ix4 n b g (⟨t.val * 128 + l.val, hT⟩ : Fin 4096) := by
    funext a; apply Fin.ext
    match a with
    | ⟨0, _⟩ => show win0_0.index t (0 : Fin 4) * 12 + 1 * n.val = n.val; rw [e0]; omega
    | ⟨1, _⟩ => show win0_0.index t (1 : Fin 4) * 8 + 1 * b.val = b.val; rw [e1]; omega
    | ⟨2, _⟩ => show win0_0.index t (2 : Fin 4) * 32 + 1 * g.val = g.val; rw [e2]; omega
    | ⟨3, _⟩ => show win0_0.index t (3 : Fin 4) * 128 + 1 * l.val = t.val * 128 + l.val; rw [e3]; omega
  rw [hemb, V_xBandMajor]
  exact xBandMajor_at _ _ _ _ n b g _ (chan g n).isLt

/-! ## What step t writes back -/

set_option maxHeartbeats 4000000 in
/-- Step t writes back block t of `result` of the arguments. -/
theorem flushed_eq (c : Dev nD) (t : Fin cfg0.N) :
    (dats m 0 c).flushed 25 t
      = ((cfg0.win 25).blk t).view.read (Elt Ideal) (result (m ((c : Thread nD τ).loc main_arg0)) (params m c)) := by
  rw [flushed25_A, out_eq]
  obtain ⟨-, -, -, -, e0, e1, e2, e3⟩ := idx_facts t
  funext j
  show blockValue (iblk m c 0 t) (blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) j
    = result (m ((c : Thread nD τ).loc main_arg0)) (params m c) (((cfg0.win 25).blk t).view.emb j)
  rw [iblk_1, iblk_2, iblk_3, iblk_4, iblk_5, iblk_6, iblk_7, iblk_8, iblk_9, iblk_10, iblk_11, iblk_12, iblk_13, iblk_14, iblk_15, iblk_16, iblk_17, iblk_18, iblk_19, iblk_20, iblk_21, iblk_22, iblk_23, iblk_24]
  rw [V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24]
  show blockValue (iblk m c 0 t) (params m c) j = _
  have hj3 : (j 3).val < 128 := (j 3).isLt
  have ht : t.val < 32 := t.isLt
  have c0 : ((((cfg0.win 25).blk t).view.emb j) 0).val = (j 0).val := by
    show win0_25.index t (0 : Fin 4) * 8 + 1 * (j 0).val = (j 0).val; rw [e0]; omega
  have c1 : ((((cfg0.win 25).blk t).view.emb j) 1).val = (j 1).val := by
    show win0_25.index t (1 : Fin 4) * 2 + 1 * (j 1).val = (j 1).val; rw [e1]; omega
  have c2 : ((((cfg0.win 25).blk t).view.emb j) 2).val = (j 2).val := by
    show win0_25.index t (2 : Fin 4) * 1025 + 1 * (j 2).val = (j 2).val; rw [e2]; omega
  have c3 : ((((cfg0.win 25).blk t).view.emb j) 3).val = t.val * 128 + (j 3).val := by
    show win0_25.index t (3 : Fin 4) * 128 + 1 * (j 3).val = t.val * 128 + (j 3).val; rw [e3]; omega
  unfold blockValue result
  simp only [c0, c1, c2, c3]
  congr 1
  funext g
  exact iblk0_apply m c t (bandFin (j 2).val) ⟨(j 0).val, (j 0).isLt⟩ g ⟨(j 3).val, (j 3).isLt⟩ (by omega)

/-! ## The result array after the run -/

/-- An index of the result array is in step t's block iff each coordinate is in the block's range on its axis. -/
theorem mem_blk (t : Fin cfg0.N) (i : S8x2x1025x4096.Idx) :
    i ∈ ((cfg0.win 25).blk t).view.set ↔ ∀ a : Fin 4, win0_25.index t a * S8x2x1025x128.size a ≤ (i a).val
      ∧ (i a).val < win0_25.index t a * S8x2x1025x128.size a + S8x2x1025x128.size a := by
  show i ∈ ((View.whole main_v3).slice (win0_25.rect t)).set ↔ _
  rw [View.set_slice_whole, Rect.mem_set_unit]
  exact Iff.rfl

/-- Every index of the result array is in the block of the step its time coordinate falls in. -/
theorem cover (i : S8x2x1025x4096.Idx) :
    ∃ t : Fin cfg0.N, (cfg0.win 25).flush t = true ∧ i ∈ ((cfg0.win 25).blk t).view.set := by
  have h0 : (i 0).val < 8 := (i 0).isLt
  have h1 : (i 1).val < 2 := (i 1).isLt
  have h2 : (i 2).val < 1025 := (i 2).isLt
  have h3 : (i 3).val < 4096 := (i 3).isLt
  refine ⟨⟨(i 3).val / 128, by show (i 3).val / 128 < 32; omega⟩, flush0_25 _, ?_⟩
  obtain ⟨-, -, -, -, e0, e1, e2, e3⟩ := idx_facts ⟨(i 3).val / 128, by show (i 3).val / 128 < 32; omega⟩
  rw [mem_blk]
  intro a
  match a with
  | ⟨0, _⟩ =>
    show win0_25.index _ (0 : Fin 4) * 8 ≤ (i 0).val ∧ (i 0).val < win0_25.index _ (0 : Fin 4) * 8 + 8
    rw [e0]; omega
  | ⟨1, _⟩ =>
    show win0_25.index _ (1 : Fin 4) * 2 ≤ (i 1).val ∧ (i 1).val < win0_25.index _ (1 : Fin 4) * 2 + 2
    rw [e1]; omega
  | ⟨2, _⟩ =>
    show win0_25.index _ (2 : Fin 4) * 1025 ≤ (i 2).val ∧ (i 2).val < win0_25.index _ (2 : Fin 4) * 1025 + 1025
    rw [e2]; omega
  | ⟨3, _⟩ =>
    show win0_25.index _ (3 : Fin 4) * 128 ≤ (i 3).val ∧ (i 3).val < win0_25.index _ (3 : Fin 4) * 128 + 128
    rw [e3]
    show (i 3).val / 128 * 128 ≤ (i 3).val ∧ (i 3).val < (i 3).val / 128 * 128 + 128
    omega

/-- The result array after the run is `result` of the arguments. -/
theorem final (c : Dev nD) :
    (dats m 0 c).arrAt 25 cfg0.N = result (m ((c : Thread nD τ).loc main_arg0)) (params m c) :=
  (dats m 0 c).arrAt_eq_of_cover 25 _ (fun t _ => flushed_eq m c t) cover

/-- The kernel's run: every weakly fair execution ends with the result array at `result` of the arguments, the arguments
    unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (params m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(post25 m r h c).trans (final m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c⟩)
    (run_main m ρ)

end Cert.KernelIdeal.KernelValue

end
-- ==== Proof.RefDots.lean ====
/-
  The reference's two host products (against a [170, 32] and against a [172, 32] weight matrix) as sums over the 32 groups.
  On the extended reals the host's dot_general of a [8, 4096, 32] slab A with a weight matrix B, contracting A's last axis
  with B's last axis, is at (b, t, r) the sum over k of A (b, t, k) · B (r, k).
-/
import proofs.«119640_j67224828117616_1_alg».proof.Proof.Gen.ReferenceIdeal
import Idealize.ShloMosaic.Lib.ValueIdx
import Idealize.ShloMosaic.PureOps.Ideal.Laws

noncomputable section

open scoped BigOperators

namespace Cert.ReferenceIdeal.RefDots

open Cert.ReferenceIdeal Cert.ReferenceIdeal.Gen Idealize.ShloMosaic Idealize.ShloMosaic.ValueIdx

/-! ### The host's product with a [170, 32] weight matrix, at (b, t, r) -/

theorem lhs170_0 (i : S8x4096x170.Idx) (q : dot_S8x4096x32_S170x32_S8x4096x170_2_1_01_0_n_n.contr.Idx) : (dot_S8x4096x32_S170x32_S8x4096x170_2_1_01_0_n_n.lhsIdx i q 0).val = (i 0).val := by
  unfold DotDims.lhsIdx
  rw [dif_neg (show ¬(0 : Fin S8x4096x32.rank) ∈ dot_S8x4096x32_S170x32_S8x4096x170_2_1_01_0_n_n.lhsBatch by decide),
    dif_pos (show (0 : Fin S8x4096x32.rank) ∈ dot_S8x4096x32_S170x32_S8x4096x170_2_1_01_0_n_n.lhsNonContracting by decide)]
  rfl
theorem lhs170_1 (i : S8x4096x170.Idx) (q : dot_S8x4096x32_S170x32_S8x4096x170_2_1_01_0_n_n.contr.Idx) : (dot_S8x4096x32_S170x32_S8x4096x170_2_1_01_0_n_n.lhsIdx i q 1).val = (i 1).val := by
  unfold DotDims.lhsIdx
  rw [dif_neg (show ¬(1 : Fin S8x4096x32.rank) ∈ dot_S8x4096x32_S170x32_S8x4096x170_2_1_01_0_n_n.lhsBatch by decide),
    dif_pos (show (1 : Fin S8x4096x32.rank) ∈ dot_S8x4096x32_S170x32_S8x4096x170_2_1_01_0_n_n.lhsNonContracting by decide)]
  rfl
theorem lhs170_2 (i : S8x4096x170.Idx) (q : dot_S8x4096x32_S170x32_S8x4096x170_2_1_01_0_n_n.contr.Idx) : (dot_S8x4096x32_S170x32_S8x4096x170_2_1_01_0_n_n.lhsIdx i q 2).val = (q ⟨0, by decide⟩).val :=
  dot_S8x4096x32_S170x32_S8x4096x170_2_1_01_0_n_n.lhsIdx_val_of_single rfl i q
theorem rhs170_0 (i : S8x4096x170.Idx) (q : dot_S8x4096x32_S170x32_S8x4096x170_2_1_01_0_n_n.contr.Idx) : (dot_S8x4096x32_S170x32_S8x4096x170_2_1_01_0_n_n.rhsIdx i q 0).val = (i 2).val := by
  unfold DotDims.rhsIdx
  rw [dif_neg (show ¬(0 : Fin S170x32.rank) ∈ dot_S8x4096x32_S170x32_S8x4096x170_2_1_01_0_n_n.rhsBatch by decide),
    dif_pos (show (0 : Fin S170x32.rank) ∈ dot_S8x4096x32_S170x32_S8x4096x170_2_1_01_0_n_n.rhsNonContracting by decide)]
  rfl
theorem rhs170_1 (i : S8x4096x170.Idx) (q : dot_S8x4096x32_S170x32_S8x4096x170_2_1_01_0_n_n.contr.Idx) : (dot_S8x4096x32_S170x32_S8x4096x170_2_1_01_0_n_n.rhsIdx i q 1).val = (q ⟨0, by decide⟩).val :=
  dot_S8x4096x32_S170x32_S8x4096x170_2_1_01_0_n_n.rhsIdx_val_of_single rfl i q

/-- Entry (b, t, r) of the slab times the weight matrix transposed: the sum over the 32 groups. -/
theorem dot170_apply (A : FVec Ideal S8x4096x32 .f32) (B : FVec Ideal S170x32 .f32) (b : Fin 8) (t : Fin 4096) (r : Fin 170) :
    Host.dotGeneral dot_S8x4096x32_S170x32_S8x4096x170_2_1_01_0_n_n none A B (ix3 b t r) = ∑ k : Fin 32, A (ix3 b t k) * B (ix2 r k) := by
  simp only [Host.dotGeneral]
  rw [Ideal.dotGeneral_apply, ← Equiv.sum_comp (contrEquiv1 dot_S8x4096x32_S170x32_S8x4096x170_2_1_01_0_n_n 32 rfl rfl).symm]
  refine Finset.sum_congr rfl fun k _ => ?_
  have hk := contrEquiv1_symm_val dot_S8x4096x32_S170x32_S8x4096x170_2_1_01_0_n_n 32 rfl rfl k
  have el : dot_S8x4096x32_S170x32_S8x4096x170_2_1_01_0_n_n.lhsIdx (ix3 b t r) ((contrEquiv1 dot_S8x4096x32_S170x32_S8x4096x170_2_1_01_0_n_n 32 rfl rfl).symm k) = ix3 b t k := funext fun a => Fin.ext (by
    match a with
    | ⟨0, _⟩ => exact lhs170_0 _ _
    | ⟨1, _⟩ => exact lhs170_1 _ _
    | ⟨2, _⟩ => exact (lhs170_2 _ _).trans hk)
  have er : dot_S8x4096x32_S170x32_S8x4096x170_2_1_01_0_n_n.rhsIdx (ix3 b t r) ((contrEquiv1 dot_S8x4096x32_S170x32_S8x4096x170_2_1_01_0_n_n 32 rfl rfl).symm k) = ix2 r k := funext fun a => Fin.ext (by
    match a with
    | ⟨0, _⟩ => exact rhs170_0 _ _
    | ⟨1, _⟩ => exact (rhs170_1 _ _).trans hk)
  rw [el, er]

/-! ### The host's product with a [172, 32] weight matrix, at (b, t, r) -/

theorem lhs172_0 (i : S8x4096x172.Idx) (q : dot_S8x4096x32_S172x32_S8x4096x172_2_1_01_0_n_n.contr.Idx) : (dot_S8x4096x32_S172x32_S8x4096x172_2_1_01_0_n_n.lhsIdx i q 0).val = (i 0).val := by
  unfold DotDims.lhsIdx
  rw [dif_neg (show ¬(0 : Fin S8x4096x32.rank) ∈ dot_S8x4096x32_S172x32_S8x4096x172_2_1_01_0_n_n.lhsBatch by decide),
    dif_pos (show (0 : Fin S8x4096x32.rank) ∈ dot_S8x4096x32_S172x32_S8x4096x172_2_1_01_0_n_n.lhsNonContracting by decide)]
  rfl
theorem lhs172_1 (i : S8x4096x172.Idx) (q : dot_S8x4096x32_S172x32_S8x4096x172_2_1_01_0_n_n.contr.Idx) : (dot_S8x4096x32_S172x32_S8x4096x172_2_1_01_0_n_n.lhsIdx i q 1).val = (i 1).val := by
  unfold DotDims.lhsIdx
  rw [dif_neg (show ¬(1 : Fin S8x4096x32.rank) ∈ dot_S8x4096x32_S172x32_S8x4096x172_2_1_01_0_n_n.lhsBatch by decide),
    dif_pos (show (1 : Fin S8x4096x32.rank) ∈ dot_S8x4096x32_S172x32_S8x4096x172_2_1_01_0_n_n.lhsNonContracting by decide)]
  rfl
theorem lhs172_2 (i : S8x4096x172.Idx) (q : dot_S8x4096x32_S172x32_S8x4096x172_2_1_01_0_n_n.contr.Idx) : (dot_S8x4096x32_S172x32_S8x4096x172_2_1_01_0_n_n.lhsIdx i q 2).val = (q ⟨0, by decide⟩).val :=
  dot_S8x4096x32_S172x32_S8x4096x172_2_1_01_0_n_n.lhsIdx_val_of_single rfl i q
theorem rhs172_0 (i : S8x4096x172.Idx) (q : dot_S8x4096x32_S172x32_S8x4096x172_2_1_01_0_n_n.contr.Idx) : (dot_S8x4096x32_S172x32_S8x4096x172_2_1_01_0_n_n.rhsIdx i q 0).val = (i 2).val := by
  unfold DotDims.rhsIdx
  rw [dif_neg (show ¬(0 : Fin S172x32.rank) ∈ dot_S8x4096x32_S172x32_S8x4096x172_2_1_01_0_n_n.rhsBatch by decide),
    dif_pos (show (0 : Fin S172x32.rank) ∈ dot_S8x4096x32_S172x32_S8x4096x172_2_1_01_0_n_n.rhsNonContracting by decide)]
  rfl
theorem rhs172_1 (i : S8x4096x172.Idx) (q : dot_S8x4096x32_S172x32_S8x4096x172_2_1_01_0_n_n.contr.Idx) : (dot_S8x4096x32_S172x32_S8x4096x172_2_1_01_0_n_n.rhsIdx i q 1).val = (q ⟨0, by decide⟩).val :=
  dot_S8x4096x32_S172x32_S8x4096x172_2_1_01_0_n_n.rhsIdx_val_of_single rfl i q

/-- Entry (b, t, r) of the slab times the weight matrix transposed: the sum over the 32 groups. -/
theorem dot172_apply (A : FVec Ideal S8x4096x32 .f32) (B : FVec Ideal S172x32 .f32) (b : Fin 8) (t : Fin 4096) (r : Fin 172) :
    Host.dotGeneral dot_S8x4096x32_S172x32_S8x4096x172_2_1_01_0_n_n none A B (ix3 b t r) = ∑ k : Fin 32, A (ix3 b t k) * B (ix2 r k) := by
  simp only [Host.dotGeneral]
  rw [Ideal.dotGeneral_apply, ← Equiv.sum_comp (contrEquiv1 dot_S8x4096x32_S172x32_S8x4096x172_2_1_01_0_n_n 32 rfl rfl).symm]
  refine Finset.sum_congr rfl fun k _ => ?_
  have hk := contrEquiv1_symm_val dot_S8x4096x32_S172x32_S8x4096x172_2_1_01_0_n_n 32 rfl rfl k
  have el : dot_S8x4096x32_S172x32_S8x4096x172_2_1_01_0_n_n.lhsIdx (ix3 b t r) ((contrEquiv1 dot_S8x4096x32_S172x32_S8x4096x172_2_1_01_0_n_n 32 rfl rfl).symm k) = ix3 b t k := funext fun a => Fin.ext (by
    match a with
    | ⟨0, _⟩ => exact lhs172_0 _ _
    | ⟨1, _⟩ => exact lhs172_1 _ _
    | ⟨2, _⟩ => exact (lhs172_2 _ _).trans hk)
  have er : dot_S8x4096x32_S172x32_S8x4096x172_2_1_01_0_n_n.rhsIdx (ix3 b t r) ((contrEquiv1 dot_S8x4096x32_S172x32_S8x4096x172_2_1_01_0_n_n 32 rfl rfl).symm k) = ix2 r k := funext fun a => Fin.ext (by
    match a with
    | ⟨0, _⟩ => exact rhs172_0 _ _
    | ⟨1, _⟩ => exact (rhs172_1 _ _).trans hk)
  rw [el, er]

end Cert.ReferenceIdeal.RefDots

end
-- ==== Proof.RefRow.lean ====
/-
  One band of the reference is the row value of that band.
-/
import proofs.«119640_j67224828117616_1_alg».proof.Proof.BandLinear
import proofs.«119640_j67224828117616_1_alg».proof.Proof.Layouts

noncomputable section

open scoped BigOperators

namespace Cert.BandLinear

open Idealize.ShloMosaic Idealize.ShloMosaic.ValueIdx

/-- Band n of the reference, computed from x itself (split into groups and bands, re-laid time-major, band n cut out),
    at (b, c, p, t): the row value of band n at channel c, position p, over x's 32 groups of that band at batch entry b
    and time t. The host's product has the slab on the left and the weights on the right; the row value has them the other
    way round, and multiplication of extended reals commutes. -/
theorem refBand_eq_rowValue {R w n : ℕ} (hR : R = 2 * w) (hn : n < 12) (hw : w = bandWidth n)
    (D : DotDims ⟨3, ![8, 4096, 32]⟩ ⟨2, ![R, 32]⟩ ⟨3, ![8, 4096, R]⟩)
    (hdot : ∀ (A : FVec Ideal ⟨3, ![8, 4096, 32]⟩ .f32) (B : FVec Ideal ⟨2, ![R, 32]⟩ .f32) (b : Fin 8) (t : Fin 4096) (r : Fin R),
      Host.dotGeneral D none A B (ix3 b t r) = ∑ k : Fin 32, A (ix3 b t k) * B (ix2 r k))
    (P : Params) (Wv : FVec Ideal ⟨2, ![R, 32]⟩ .f32) (bv : FVec Ideal ⟨1, ![R]⟩ .f32)
    (hW : ∀ (r : ℕ) (g : Fin 32), P.W n r g = if h : r < R then Wv (ix2 ⟨r, h⟩ g) else 0)
    (hb : ∀ r : ℕ, P.b n r = if h : r < R then bv (ix1 ⟨r, h⟩) else 0)
    (x0 : FVec Ideal ⟨4, ![8, 384, 1, 4096]⟩ .f32)
    (hcx : (⟨4, ![8, 384, 1, 4096]⟩ : Shape).ShapeCasts ⟨4, ![8, 32, 12, 4096]⟩)
    (htx : (⟨4, ![8, 32, 12, 4096]⟩ : Shape).Transposes [0, 3, 2, 1] ⟨4, ![8, 4096, 12, 32]⟩)
    (hs : (⟨4, ![8, 4096, 12, 32]⟩ : Shape).Slices ![0, 0, n, 0] ⟨4, ![8, 4096, 1, 32]⟩)
    (hc1 : (⟨4, ![8, 4096, 1, 32]⟩ : Shape).ShapeCasts ⟨3, ![8, 4096, 32]⟩)
    (hb1 : (⟨1, ![R]⟩ : Shape).BroadcastsInDim ⟨3, ![1, 1, R]⟩ ![2])
    (hb2 : (⟨3, ![1, 1, R]⟩ : Shape).BroadcastsInDim ⟨3, ![8, 4096, R]⟩ ![0, 1, 2])
    (hc2 : (⟨3, ![8, 4096, R]⟩ : Shape).ShapeCasts ⟨4, ![8, 4096, 2, w]⟩)
    (ht : (⟨4, ![8, 4096, 2, w]⟩ : Shape).Transposes [0, 2, 3, 1] ⟨4, ![8, 2, w, 4096]⟩)
    (b : Fin 8) (c : Fin 2) (p : Fin w) (t : Fin 4096) :
    transpose ⟨4, ![8, 2, w, 4096]⟩ [0, 2, 3, 1] (shapeCast ⟨4, ![8, 4096, 2, w]⟩
        (addf (Host.dotGeneral D none (shapeCast ⟨3, ![8, 4096, 32]⟩ (extractStridedSlice ⟨4, ![8, 4096, 1, 32]⟩ ![0, 0, n, 0]
            (transpose ⟨4, ![8, 4096, 12, 32]⟩ [0, 3, 2, 1] (shapeCast ⟨4, ![8, 32, 12, 4096]⟩ x0 hcx) htx) hs) hc1) Wv)
          (broadcastInDim ⟨3, ![8, 4096, R]⟩ ![0, 1, 2] hb2 (broadcastInDim ⟨3, ![1, 1, R]⟩ ![2] hb1 bv))) hc2) ht (ix4 b c p t)
      = rowValue P n c.val p.val (fun g => x0 (ix4 b (chan g ⟨n, hn⟩) (0 : Fin 1) t)) := by
  have hr : c.val * w + p.val < R := by
    have hc : c.val ≤ 1 := by have := c.isLt; omega
    have hp := p.isLt
    rcases Nat.le_one_iff_eq_zero_or_eq_one.mp hc with h | h <;> rw [h] <;> omega
  rw [refBand_at hR D hdot _ Wv bv hs hc1 hb1 hb2 hc2 ht b c p t hn hr]
  unfold rowValue
  rw [← hw, hb, dif_pos hr]
  congr 1
  refine Finset.sum_congr rfl fun g _ => ?_
  rw [hW, dif_pos hr, xTimeMajor_at x0 hcx htx b t ⟨n, hn⟩ g (chan g ⟨n, hn⟩).isLt, mul_comm]
  rfl

end Cert.BandLinear

end
-- ==== Proof.RefValue.lean ====
/-
  The reference computes the band-wise linear map.

  Its result is the twelve bands laid end to end along the frequency axis. A result index (b, c, f, t) with f in band n
  reads band n's array at (b, c, f − start of band n, t), which is that band's row value over x's 32 groups of band n at
  batch entry b and time t: the `result` of Proof/BandLinear.lean at the reference's own arguments.
-/
import proofs.«119640_j67224828117616_1_alg».proof.Proof.Gen.ReferenceIdeal.Run
import proofs.«119640_j67224828117616_1_alg».proof.Proof.RefDots
import proofs.«119640_j67224828117616_1_alg».proof.Proof.RefRow
import proofs.«119640_j67224828117616_1_alg».proof.Proof.BandBounds
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Value Cert.ReferenceIdeal.RefDots Cert.BandLinear
open Idealize.ShloMosaic Idealize.ShloMosaic.TcCoe Idealize.SL.Sem Idealize.ShloMosaic.ValueIdx

variable (m : (ℓ : Loc nD τ sig) → Buf (Elt Ideal) ℓ)

/-- The twelve weight matrices and bias vectors as the reference finds them in memory. -/
def params (c : Dev nD) : Params where
    W0 := m ((c.tc : Thread nD τ).loc main_arg1)
    b0 := m ((c.tc : Thread nD τ).loc main_arg2)
    W1 := m ((c.tc : Thread nD τ).loc main_arg3)
    b1 := m ((c.tc : Thread nD τ).loc main_arg4)
    W2 := m ((c.tc : Thread nD τ).loc main_arg5)
    b2 := m ((c.tc : Thread nD τ).loc main_arg6)
    W3 := m ((c.tc : Thread nD τ).loc main_arg7)
    b3 := m ((c.tc : Thread nD τ).loc main_arg8)
    W4 := m ((c.tc : Thread nD τ).loc main_arg9)
    b4 := m ((c.tc : Thread nD τ).loc main_arg10)
    W5 := m ((c.tc : Thread nD τ).loc main_arg11)
    b5 := m ((c.tc : Thread nD τ).loc main_arg12)
    W6 := m ((c.tc : Thread nD τ).loc main_arg13)
    b6 := m ((c.tc : Thread nD τ).loc main_arg14)
    W7 := m ((c.tc : Thread nD τ).loc main_arg15)
    b7 := m ((c.tc : Thread nD τ).loc main_arg16)
    W8 := m ((c.tc : Thread nD τ).loc main_arg17)
    b8 := m ((c.tc : Thread nD τ).loc main_arg18)
    W9 := m ((c.tc : Thread nD τ).loc main_arg19)
    b9 := m ((c.tc : Thread nD τ).loc main_arg20)
    W10 := m ((c.tc : Thread nD τ).loc main_arg21)
    b10 := m ((c.tc : Thread nD τ).loc main_arg22)
    W11 := m ((c.tc : Thread nD τ).loc main_arg23)
    b11 := m ((c.tc : Thread nD τ).loc main_arg24)

-- Band k of the result: the index (b, c, f, t) with f in band k reads piece k of the concatenation at
-- (b, c, f − pre, t), pre the rows before band k; that piece is band k's row value, and so is `result` there.
set_option hygiene false in
local macro "band_case " k:num R:num w:num pre:num dot:ident : tactic => `(tactic| (
  rw [h] at hlo hhi
  simp only [bandStart, bandWidth] at hlo hhi
  refine (concatenate_apply_piece 2 _ _ j $k (by show _ < 12; omega) _ _ (by rfl) (by rfl) $pre (by rfl)
    (ix4 ⟨(j 0).val, (j 0).isLt⟩ ⟨(j 1).val, (j 1).isLt⟩ ⟨(j 2).val - $pre, by omega⟩ ⟨(j 3).val, (j 3).isLt⟩) ?_ ?_).trans ?_
  · intro a ha
    match a with
    | ⟨0, _⟩ => rfl
    | ⟨1, _⟩ => rfl
    | ⟨2, _⟩ => exact absurd rfl ha
    | ⟨3, _⟩ => rfl
  · show $pre + ((j 2).val - $pre) = (j 2).val
    omega
  refine (refBand_eq_rowValue (R := $R) (w := $w) (n := $k) rfl (by decide) rfl _ $dot (params m c) _ _
    (fun _ _ => by rfl) (fun _ => by rfl) _ _ _ _ _ _ _ _ _ _ _ _ _).trans ?_
  unfold result
  rw [h, bandFin_eq h (by decide)]
  rfl))

set_option maxHeartbeats 4000000 in
/-- The reference's result array is `result` of its arguments. -/
theorem res_eq (c : Dev nD) :
    res_main_v98 (F := Ideal) m c = result (m ((c.tc : Thread nD τ).loc main_arg0)) (params m c) := by
  funext j
  unfold res_main_v98
  have hf : (j 2).val < 1025 := (j 2).isLt
  obtain ⟨hlo, hhi⟩ := band_spec hf
  have hn := band_lt (j 2).val
  have h12 : band (j 2).val = 0 ∨ band (j 2).val = 1 ∨ band (j 2).val = 2 ∨ band (j 2).val = 3 ∨ band (j 2).val = 4
      ∨ band (j 2).val = 5 ∨ band (j 2).val = 6 ∨ band (j 2).val = 7 ∨ band (j 2).val = 8 ∨ band (j 2).val = 9
      ∨ band (j 2).val = 10 ∨ band (j 2).val = 11 := by omega
  rcases h12 with h | h | h | h | h | h | h | h | h | h | h | h
  · band_case 0 170 85 0 dot170_apply
  · band_case 1 170 85 85 dot170_apply
  · band_case 2 172 86 170 dot172_apply
  · band_case 3 170 85 256 dot170_apply
  · band_case 4 172 86 341 dot172_apply
  · band_case 5 170 85 427 dot170_apply
  · band_case 6 170 85 512 dot170_apply
  · band_case 7 172 86 597 dot172_apply
  · band_case 8 170 85 683 dot170_apply
  · band_case 9 172 86 768 dot172_apply
  · band_case 10 170 85 854 dot170_apply
  · band_case 11 172 86 939 dot172_apply

end Cert.ReferenceIdeal.RefValue

end
-- ==== Proof.lean ====
/-
  The certificate of the band-wise merge kernel against its jnp reference.

  Both programs compute one map: the 384 channels of x are 32 groups of 12 bands; the 1025 frequency rows of the result
  are twelve consecutive bands of 85 or 86 rows; a row at position p of band n, in output channel c, is row c·w + p of that
  band's weight matrix (w the band's width) against the 32 group values of band n at the same batch entry and time, plus
  that band's bias entry (Proof/BandLinear.lean `result`).
    * The kernel grids over time in tiles of 128 and, per band and batch entry, multiplies the band's weights (narrowed
      to bf16, which changes nothing on the extended reals) into the band's [32, 128] slab of x re-laid band-major, adds the
      bias column and stores each channel's rows: Proof/StoredRows.lean, Proof/StoredRowsBlock.lean (one store),
      Proof/KernelBlock.lean (a step's 192 stores fill its block with the block value), Proof/KernelValue.lean (the 32
      steps' blocks are `result`).
    * The reference re-lays x time-major, multiplies each band's slab with the band's weight matrix transposed, adds the
      bias, splits channel from position, moves time last and lays the bands end to end: Proof/Layouts.lean,
      Proof/RefRow.lean, Proof/RefDots.lean (one band), Proof/RefValue.lean (the concatenation is `result`).
  The host's product has x on the left and the weights on the right, the kernel's the other way round: multiplication
  commutes, and the sums run over the same 32 groups in the same order, so no finiteness of the inputs is used.
  The frames: the kernel's two are the frame certificates with the cover of a step's block proved by arithmetic
  (Proof/CoverBits.lean, Proof/CoverIdeal.lean); the reference's is its run with the result dropped. No operation was
  rewritten by the ideal pass, so `preserves` is `True`.
-/
import proofs.«119640_j67224828117616_1_alg».proof.Defs
import proofs.«119640_j67224828117616_1_alg».proof.Proof.Gen.Kernel
import proofs.«119640_j67224828117616_1_alg».proof.Proof.Gen.KernelIdeal
import proofs.«119640_j67224828117616_1_alg».proof.Proof.Gen.ReferenceIdeal
import proofs.«119640_j67224828117616_1_alg».proof.Proof.Gen.Pre_finite_inputs
import proofs.«119640_j67224828117616_1_alg».proof.Proof.Gen.ReferenceIdeal.Run
import proofs.«119640_j67224828117616_1_alg».proof.Proof.FramePBits
import proofs.«119640_j67224828117616_1_alg».proof.Proof.FramePIdeal
import proofs.«119640_j67224828117616_1_alg».proof.Proof.KernelValue
import proofs.«119640_j67224828117616_1_alg».proof.Proof.RefValue
import Idealize.ShloMosaic.Adequacy
import Idealize.ShloMosaic.Init

noncomputable section

namespace Cert.Proof

open Idealize.ShloMosaic Idealize.SL.Sem Cert.BandLinear

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

set_option maxHeartbeats 2000000 in
/-- Run from memories that agree on the arguments, the kernel's result array ends at `result` of its arguments and the
    reference's at `result` of its own: the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => result (m ((c.tc : Thread Cert.KernelIdeal.nD Cert.KernelIdeal.τ).loc Cert.KernelIdeal.main_arg0))
    (Cert.KernelIdeal.KernelValue.params m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.res_eq m' c).trans ?_
  obtain ⟨h0, h1, h2, h3, h4, h5, h6, h7, h8, h9, h10, h11, h12, h13, h14, h15, h16, h17, h18, h19, h20, h21, h22, h23, h24⟩ := hagree c
  have hp : Cert.ReferenceIdeal.RefValue.params m' c = Cert.KernelIdeal.KernelValue.params m c := by
    unfold Cert.ReferenceIdeal.RefValue.params Cert.KernelIdeal.KernelValue.params
    rw [h1, h2, h3, h4, h5, h6, h7, h8, h9, h10, h11, h12, h13, h14, h15, h16, h17, h18, h19, h20, h21, h22, h23, h24]
  rw [hp, h0]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
